-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3000000 : Shape := ⟨1, ![3000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3000000 : S_.BroadcastsInDim S3000000 (![] : Fin 0 → Fin S3000000.rank)
  reducesTo_S3000000_S_d0 : S3000000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg5 : IVec S4096 32) (main_arg6 : IVec S4096 32) (main_arg7 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg5 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg6 main_v21
  let main_c_8 : IVec S_ 32 := constantI S_ 32 50000#32
  let main_v23 : IVec S4096 32 := broadcastInDim S4096 ![] bcast_S_S4096 main_c_8
  let main_v24 : IVec S4096 1 := cmpi .slt main_arg6 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg7 main_v28
  let main_c_11 : IVec S_ 32 := constantI S_ 32 50000#32
  let main_v30 : IVec S4096 32 := broadcastInDim S4096 ![] bcast_S_S4096 main_c_11
  let main_v31 : IVec S4096 1 := cmpi .slt main_arg7 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : FVec F S100000x64 .f32) (main_arg1 : FVec F S50000x64 .f32) (main_arg2 : FVec F S3000000 .f32) (main_arg3 : IVec S3000000 32) (main_arg4 : IVec S3000000 32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3000000 .f32 := Host.absf main_arg2
  let main_cst_2 : FVec F S_ .f32 := constant S_ .f32 0x7F800000#32
  let main_v10 : FVec F S3000000 .f32 := broadcastInDim S3000000 ![] bcast_S_S3000000 main_cst_2
  let main_v11 : IVec S3000000 1 := cmpf .olt main_v9 main_v10
  let main_c_3 : IVec S_ 1 := constantI S_ 1 1#1
  let main_v12 : IVec S_ 1 := (fun x v => Host.reduce IntOp.andi x v reducesTo_S3000000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_c_5 : IVec S_ 32 := constantI S_ 32 100000#32
  fn_part1 (F := F) main_arg5 main_arg6 main_arg7 main_v13 main_v15 main_c_5
-- ==== Kernel.lean ====
abbrev S100000x64 : Shape := ⟨2, ![100000, 64]⟩
abbrev S50000x64 : Shape := ⟨2, ![50000, 64]⟩
abbrev S3000000 : Shape := ⟨1, ![3000000]⟩
abbrev S4096 : Shape := ⟨1, ![4096]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S6000x64 : Shape := ⟨2, ![6000, 64]⟩
abbrev S100000x1x64 : Shape := ⟨3, ![100000, 1, 64]⟩
abbrev S4096x1x64 : Shape := ⟨3, ![4096, 1, 64]⟩
abbrev S1x1x64 : Shape := ⟨3, ![1, 1, 64]⟩
abbrev S1 : Shape := ⟨1, ![1]⟩
abbrev S4096x64 : Shape := ⟨2, ![4096, 64]⟩
abbrev S50000x1x64 : Shape := ⟨3, ![50000, 1, 64]⟩

abbrev nBuf : Space → Nat
  | .hbm => 66
  | .vmem => 22
  | .smem => 3
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3000000, .i32⟩
  | .hbm, ⟨4, _⟩ => ⟨S3000000, .i32⟩
  | .hbm, ⟨5, _⟩ => ⟨S150000x64, .f32⟩
  | .hbm, ⟨6, _⟩ => ⟨S3000000x1, .f32⟩
  | .hbm, ⟨7, _⟩ => ⟨S_, .i32⟩
  | .hbm, ⟨8, _⟩ => ⟨S3000000, .i32⟩
  | .hbm, ⟨9, _⟩ => ⟨S3000000, .i1⟩
  | .hbm, ⟨10, _⟩ => ⟨S_, .i32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000x1, .i32⟩
  | .hbm, ⟨15, _⟩ => ⟨S3000000x64, .f32⟩
  | .hbm, ⟨16, _⟩ => ⟨S3000000x64, .f32⟩
  | .hbm, ⟨17, _⟩ => ⟨S3000000x64, .f32⟩
  | .hbm, ⟨18, _⟩ => ⟨S_, .f32⟩
  | .hbm, ⟨19, _⟩ => ⟨S150000x64, .f32⟩
  | .hbm, ⟨20, _⟩ => ⟨S3000000x1, .i32⟩
  | .hbm, ⟨21, _⟩ => ⟨S150000x64, .f32⟩
  | .hbm, ⟨22, _⟩ => ⟨S3000000x1, .f32⟩
  | .hbm, ⟨23, _⟩ => ⟨S_, .i32⟩
  | .hbm, ⟨24, _⟩ => ⟨S3000000, .i32⟩
  | .hbm, ⟨25, _⟩ => ⟨S3000000, .i1⟩
  | .hbm, ⟨26, _⟩ => ⟨S_, .i32⟩
  | .hbm, ⟨27, _⟩ => ⟨S3000000, .i32⟩
  | .hbm, ⟨28, _⟩ => ⟨S3000000, .i32⟩
  | .hbm, ⟨29, _⟩ => ⟨S3000000, .i32⟩
  | .hbm, ⟨30, _⟩ => ⟨S3000000x1, .i32⟩
  | .hbm, ⟨31, _⟩ => ⟨S3000000x64, .f32⟩
  | .hbm, ⟨32, _⟩ => ⟨S3000000x64, .f32⟩
  | .hbm, ⟨33, _⟩ => ⟨S3000000x64, .f32⟩
  | .hbm, ⟨34, _⟩ => ⟨S_, .f32⟩
  | .hbm, ⟨35, _⟩ => ⟨S150000x64, .f32⟩
  | .hbm, ⟨36, _⟩ => ⟨S3000000x1, .i32⟩
  | .hbm, ⟨37, _⟩ => ⟨S150000x64, .f32⟩
  | .hbm, ⟨38, _⟩ => ⟨S3000000x1, .f32⟩
  | .hbm, ⟨39, _⟩ => ⟨S_, .i32⟩
  | .hbm, ⟨40, _⟩ => ⟨S3000000, .i32⟩
  | .hbm, ⟨41, _⟩ => ⟨S3000000, .i1⟩
  | .hbm, ⟨42, _⟩ => ⟨S_, .i32⟩
  | .hbm, ⟨43, _⟩ => ⟨S3000000, .i32⟩
  | .hbm, ⟨44, _⟩ => ⟨S3000000, .i32⟩
  | .hbm, ⟨45, _⟩ => ⟨S3000000, .i32⟩
  | .hbm, ⟨46, _⟩ => ⟨S3000000x1, .i32⟩
  | .hbm, ⟨47, _⟩ => ⟨S3000000x64, .f32⟩
  | .hbm, ⟨48, _⟩ => ⟨S3000000x64, .f32⟩
  | .hbm, ⟨49, _⟩ => ⟨S3000000x64, .f32⟩
  | .hbm, ⟨50, _⟩ => ⟨S_, .f32⟩
  | .hbm, ⟨51, _⟩ => ⟨S150000x64, .f32⟩
  | .hbm, ⟨52, _⟩ => ⟨S3000000x1, .i32⟩
  | .hbm, ⟨53, _⟩ => ⟨S150000x64, .f32⟩
  | .hbm, ⟨54, _⟩ => ⟨S150000x64, .f32⟩
  | .hbm, ⟨55, _⟩ => ⟨S100000x64, .f32⟩
  | .hbm, ⟨56, _⟩ => ⟨S50000x64, .f32⟩
  | .hbm, ⟨57, _⟩ => ⟨S100000x1x64, .f32⟩
  | .hbm, ⟨58, _⟩ => ⟨S4096x1x64, .f32⟩
  | .hbm, ⟨59, _⟩ => ⟨S4096x64, .f32⟩
  | .hbm, ⟨60, _⟩ => ⟨S50000x1x64, .f32⟩
  | .hbm, ⟨61, _⟩ => ⟨S4096x1x64, .f32⟩
  | .hbm, ⟨62, _⟩ => ⟨S4096x64, .f32⟩
  | .hbm, ⟨63, _⟩ => ⟨S50000x1x64, .f32⟩
  | .hbm, ⟨64, _⟩ => ⟨S4096x1x64, .f32⟩
  | .hbm, ⟨65, _⟩ => ⟨S4096x64, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4096], ![false]⟩

abbrev pre1 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S4096.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4096], ![false]⟩

abbrev pre2 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S4096.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![4096], ![false]⟩

abbrev pre3 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  shapeCasts_S100000x64_S100000x1x64 : S100000x64.ShapeCasts S100000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S4096x1x64_S4096x64 : S4096x1x64.ShapeCasts S4096x64
  shapeCasts_S50000x64_S50000x1x64 : S50000x64.ShapeCasts S50000x1x64
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S150000x64.size a
  hwx0_3 : ∀ i : grid0.Coords, EltTy.bits .f32 = 32 ∨ (Rect.block (s := S150000x64) S6000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x64.size a ≤ S150000x64.size a
  hwx0_4 : ∀ i : grid0.Coords, EltTy.bits .f32 = 32 ∨ (Rect.block (s := S150000x64) S6000x64.size (cc0_transform_4 i) (hinb0_4 i)).WholeWords (EltTy.packing .f32)
  hrank1 : 0 < grid1.rank
  k1_off1_inb : ∀ i : grid1.Coords, ∀ a, (k1_off1 i) a + S1.size a ≤ S4096.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S4096x1x64.size a
  hwx1_1 : ∀ i : grid1.Coords, EltTy.bits .f32 = 32 ∨ (Rect.block (s := S4096x1x64) S1x1x64.size (cc1_transform_1 i) (hinb1_1 i)).WholeWords (EltTy.packing .f32)
  hrank2 : 0 < grid2.rank
  k2_off1_inb : ∀ i : grid2.Coords, ∀ a, (k2_off1 i) a + S1.size a ≤ S4096.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64.size a ≤ S4096x1x64.size a
  hwx2_1 : ∀ i : grid2.Coords, EltTy.bits .f32 = 32 ∨ (Rect.block (s := S4096x1x64) S1x1x64.size (cc2_transform_1 i) (hinb2_1 i)).WholeWords (EltTy.packing .f32)
  hrank3 : 0 < grid3.rank
  k3_off1_inb : ∀ i : grid3.Coords, ∀ a, (k3_off1 i) a + S1.size a ≤ S4096.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x64.size a ≤ S4096x1x64.size a
  hwx3_1 : ∀ i : grid3.Coords, EltTy.bits .f32 = 32 ∨ (Rect.block (s := S4096x1x64) S1x1x64.size (cc3_transform_1 i) (hinb3_1 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S6000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S6000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v43) S1x1x64.size reads1_0 false false 2 stage1_0 sem1_0 nbuf1_0 hstage1_0

abbrev spec1_1 : Pipeline.WinSpec sig grid1.rank :=
  Pipeline.WinSpec.ofSpec (Memref.whole main_v44) S1x1x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev spec2_0 : Pipeline.WinSpec sig grid2.rank :=
  Pipeline.WinSpec.ofSpec (Memref.whole main_v46) S1x1x64.size reads2_0 false false 2 stage2_0 sem2_0 nbuf2_0 hstage2_0

abbrev spec2_1 : Pipeline.WinSpec sig grid2.rank :=
  Pipeline.WinSpec.ofSpec (Memref.whole main_v47) S1x1x64.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S50000x1x64.size a), EltTy.bits .f32 = 32 ∨ (Rect.block (s := S50000x1x64) S1x1x64.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v49) S1x1x64.size reads3_0 false false 2 stage3_0 sem3_0 nbuf3_0 hstage3_0

abbrev spec3_1 : Pipeline.WinSpec sig grid3.rank :=
  Pipeline.WinSpec.ofSpec (Memref.whole main_v50) S1x1x64.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x64.size a ≤ S50000x1x64.size a), EltTy.bits .f32 = 32 ∨ (Rect.block (s := S50000x1x64) S1x1x64.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole

variable [Facts]
-- ==== ReferenceIdeal.lean ====
abbrev S100000x64 : Shape := ⟨2, ![100000, 64]⟩
abbrev S50000x64 : Shape := ⟨2, ![50000, 64]⟩
abbrev S3000000 : Shape := ⟨1, ![3000000]⟩
abbrev S4096 : Shape := ⟨1, ![4096]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S4096x1 : Shape := ⟨2, ![4096, 1]⟩
abbrev S4096x64 : Shape := ⟨2, ![4096, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3000000, .i32⟩
  | .hbm, ⟨4, _⟩ => ⟨S3000000, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S3000000x1, .f32⟩
  | .hbm, ⟨10, _⟩ => ⟨S_, .i32⟩
  | .hbm, ⟨11, _⟩ => ⟨S3000000, .i32⟩
  | .hbm, ⟨12, _⟩ => ⟨S3000000, .i1⟩
  | .hbm, ⟨13, _⟩ => ⟨S_, .i32⟩
  | .hbm, ⟨14, _⟩ => ⟨S3000000, .i32⟩
  | .hbm, ⟨15, _⟩ => ⟨S3000000, .i32⟩
  | .hbm, ⟨16, _⟩ => ⟨S3000000, .i32⟩
  | .hbm, ⟨17, _⟩ => ⟨S3000000x1, .i32⟩
  | .hbm, ⟨18, _⟩ => ⟨S3000000x64, .f32⟩
  | .hbm, ⟨19, _⟩ => ⟨S3000000x64, .f32⟩
  | .hbm, ⟨20, _⟩ => ⟨S3000000x64, .f32⟩
  | .hbm, ⟨21, _⟩ => ⟨S_, .f32⟩
  | .hbm, ⟨22, _⟩ => ⟨S150000x64, .f32⟩
  | .hbm, ⟨23, _⟩ => ⟨S3000000x1, .i32⟩
  | .hbm, ⟨24, _⟩ => ⟨S150000x64, .f32⟩
  | .hbm, ⟨25, _⟩ => ⟨S150000x64, .f32⟩
  | .hbm, ⟨26, _⟩ => ⟨S3000000x1, .f32⟩
  | .hbm, ⟨27, _⟩ => ⟨S_, .i32⟩
  | .hbm, ⟨28, _⟩ => ⟨S3000000, .i32⟩
  | .hbm, ⟨29, _⟩ => ⟨S3000000, .i1⟩
  | .hbm, ⟨30, _⟩ => ⟨S_, .i32⟩
  | .hbm, ⟨31, _⟩ => ⟨S3000000, .i32⟩
  | .hbm, ⟨32, _⟩ => ⟨S3000000, .i32⟩
  | .hbm, ⟨33, _⟩ => ⟨S3000000, .i32⟩
  | .hbm, ⟨34, _⟩ => ⟨S3000000x1, .i32⟩
  | .hbm, ⟨35, _⟩ => ⟨S3000000x64, .f32⟩
  | .hbm, ⟨36, _⟩ => ⟨S3000000x64, .f32⟩
  | .hbm, ⟨37, _⟩ => ⟨S3000000x64, .f32⟩
  | .hbm, ⟨38, _⟩ => ⟨S_, .f32⟩
  | .hbm, ⟨39, _⟩ => ⟨S150000x64, .f32⟩
  | .hbm, ⟨40, _⟩ => ⟨S3000000x1, .i32⟩
  | .hbm, ⟨41, _⟩ => ⟨S150000x64, .f32⟩
  | .hbm, ⟨42, _⟩ => ⟨S150000x64, .f32⟩
  | .hbm, ⟨43, _⟩ => ⟨S3000000x1, .f32⟩
  | .hbm, ⟨44, _⟩ => ⟨S_, .i32⟩
  | .hbm, ⟨45, _⟩ => ⟨S3000000, .i32⟩
  | .hbm, ⟨46, _⟩ => ⟨S3000000, .i1⟩
  | .hbm, ⟨47, _⟩ => ⟨S_, .i32⟩
  | .hbm, ⟨48, _⟩ => ⟨S3000000, .i32⟩
  | .hbm, ⟨49, _⟩ => ⟨S3000000, .i32⟩
  | .hbm, ⟨50, _⟩ => ⟨S3000000, .i32⟩
  | .hbm, ⟨51, _⟩ => ⟨S3000000x1, .i32⟩
  | .hbm, ⟨52, _⟩ => ⟨S3000000x64, .f32⟩
  | .hbm, ⟨53, _⟩ => ⟨S3000000x64, .f32⟩
  | .hbm, ⟨54, _⟩ => ⟨S3000000x64, .f32⟩
  | .hbm, ⟨55, _⟩ => ⟨S_, .f32⟩
  | .hbm, ⟨56, _⟩ => ⟨S150000x64, .f32⟩
  | .hbm, ⟨57, _⟩ => ⟨S3000000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.IdxRange.lean ====
/-
  The printed precondition `finite_inputs`, read back for its three index inputs. The function is a conjunction (by
  `and` of one-bit words) of six `jnp.all`s: three say that every entry of a float input is finite; the last three say,
  of each int32[4096] index input x with its bound N (100000, 50000, 50000), that every word x[k] satisfies
  0 ≤ x[k] and x[k] < N as SIGNED 32-bit integers. A word in [0, N) signed, N below 2³¹, has its unsigned value below
  N, reads the same signed and unsigned, and is not negative. The float conjuncts are carried along unread.
-/
import proofs.«425184_j69441031242585_3_alg».proof.Pre_finite_inputs
import Idealize.ShloMosaic.Lib.ReduceAll
import Idealize.ShloMosaic.Lib.StableHlo.Predicate
import Idealize.ShloMosaic.Lib.ValueIdx

noncomputable section

namespace Cert.Pre_finite_inputs.Range

open Cert.Pre_finite_inputs Idealize.ShloMosaic

/-- A word in [0, n) signed (n below 2³¹) is below n unsigned. -/
theorem toNat_lt_of_range (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have h32 := w.isLt
  rw [BitVec.toInt_eq_toNat_cond] at h0 h1
  split at h0
  · rw [if_pos (by assumption)] at h1; omega
  · omega

/-- A word whose unsigned value is below n ≤ 2³¹ reads the same signed and unsigned. -/
theorem toInt_eq_of_lt (w : BitVec 32) (n : Nat) (hn : n ≤ 2 ^ 31) (h : w.toNat < n) : w.toInt = (w.toNat : ℤ) :=
  StableHlo.Predicate.toInt_eq_toNat_of_lt (by omega)

/-- Such a word is not negative: the signed comparison with 0 is the zero bit. -/
theorem slt_zero_of_lt (w : BitVec 32) (n : Nat) (hn : n ≤ 2 ^ 31) (h : w.toNat < n) : IntOp.cmpi .slt w (0#32) = 0#1 := by
  have hne : ¬ IntOp.cmpi .slt w (0#32) = 1#1 := by
    rw [IntOp.cmpi_slt, toInt_eq_of_lt w n hn h]
    have hz : (0#32 : BitVec 32).toInt = 0 := by decide
    rw [hz]; omega
  rcases BitVec.eq_zero_or_eq_one (IntOp.cmpi .slt w (0#32)) with e | e
  · exact e
  · exact absurd e hne

/-- The rank-0 result has one index. -/
instance : Subsingleton S_.Idx := ⟨fun a b => funext fun d => d.elim0⟩

/-- One index conjunct read at lane k: the `jnp.all` of (x ≥ 0) ∧ (x < N) being 1 puts x[k] below N unsigned. -/
theorem lane_lt [Cert.Pre_finite_inputs.Facts] (x : IVec S4096 32) (n : Nat) (hn : n < 2 ^ 31)
    (h : Host.reduce IntOp.andi
          (andi (cmpi .sge x (broadcastInDim S4096 ![] Facts.bcast_S_S4096 (constantI S_ 32 0#32)))
            (cmpi .slt x (broadcastInDim S4096 ![] Facts.bcast_S_S4096 (constantI S_ 32 (BitVec.ofNat 32 n)))))
          (constantI S_ 1 1#1) Facts.reducesTo_S4096_S_d0 Facts.h_S_ ValueIdx.ix0 = 1#1)
    (k : S4096.Idx) : (x k).toNat < n := by
  have e := Host.reduce_andi_all _ _ _ _ _ h k
  simp only [andi, cmpi, broadcastInDim, constantI, IntOp.andi_eq_one] at e
  exact toNat_lt_of_range _ n hn e.1 e.2

/-- THE PRECONDITION DECODED: every word of the three index inputs is below its table's row count. -/
theorem idx_lt {F : FTy → Type} [FloatOps F] [Cert.Pre_finite_inputs.Facts]
    (a0 : FVec F S100000x64 .f32) (a1 : FVec F S50000x64 .f32) (a2 : FVec F S3000000 .f32) (a3 a4 : IVec S3000000 32)
    (a5 a6 a7 : IVec S4096 32)
    (h : fn (F := F) a0 a1 a2 a3 a4 a5 a6 a7 = fun _ => 1#1) :
    (∀ k : S4096.Idx, (a5 k).toNat < 100000) ∧ (∀ k : S4096.Idx, (a6 k).toNat < 50000) ∧ (∀ k : S4096.Idx, (a7 k).toNat < 50000) := by
  have e := congrFun h ValueIdx.ix0
  unfold fn fn_part1 fn_part2 at e
  dsimp only at e
  have e' := e
  unfold andi at e'
  simp only [IntOp.andi_eq_one] at e'
  obtain ⟨⟨⟨-, h5⟩, h6⟩, h7⟩ := e'
  exact ⟨lane_lt a5 100000 (by norm_num) h5, lane_lt a6 50000 (by norm_num) h6, lane_lt a7 50000 (by norm_num) h7⟩

end Cert.Pre_finite_inputs.Range

end
-- ==== Proof.KernelFrame.Region0.lean ====
/-
  Region 0 of the program: the accumulate-and-mean kernel on a grid of 25 row blocks.

  At grid point t the kernel is handed rows [6000 t, 6000 (t + 1)) of four [150000, 64] arrays (the concatenated
  embeddings and the three propagated layers) and stores, into the same rows of the result, the entrywise value
  (((x0 + x1) + x2) + x3) * (1/4).  This module states, at any contents `V` of the core's buffers when the region is
  entered: the block of each input array at a point, what the one store leaves in the result's staging buffer as a
  function of the four input blocks, that the kernel body run on staging buffers holding the input blocks ends with
  that value in the result's buffer, and the pipeline's proof data and body obligation built from these.
-/
import proofs.«425184_j69441031242585_3_alg».proof.Proof.Gen.Kernel.Launch
import proofs.«425184_j69441031242585_3_alg».proof.Proof.Gen.Kernel.Skeleton
import proofs.«425184_j69441031242585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: rows [6000 t, 6000 (t + 1)) of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there, for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there, for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [6000, 64] buffer -/

abbrev r0_0 : Rect S6000x64 := Rect.unit (s := S6000x64) ![0, 0] S6000x64.size inb_S6000x64_S6000x64_0_0

/-! ## What the body leaves in the result's buffer -/

/-- The result's staging buffer after the body, from the four input blocks: its one store. -/
def out0_4 (x0 x1 x2 x3 : Vec F S6000x64 .f32) : Vec F S6000x64 .f32 :=
  View.canon [⟨r0_0, k0_pay1 (View.ld x0 r0_0) (View.ld x1 r0_0) (View.ld x2 r0_0) (View.ld x3 r0_0)⟩]

/-- The one store covers the buffer. -/
theorem cover0_4 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-! ## The body's triple -/

set_option maxHeartbeats 1000000 in
/-- The kernel body on whole staging buffers, the four inputs' at contents `x0 … x3` and the result's at anything, runs
    to the continuation holding the inputs' as they were and the result's at `out0_4 x0 x1 x2 x3`. -/
theorem sound_kernel0 (c : Dev nD) (E : Set ℕ) (i : grid0.Coords)
    (arg1 : Memref sig .tc .vmem S6000x64 .f32) (harg1 : arg1.IsWhole) (arg2 : Memref sig .tc .vmem S6000x64 .f32) (harg2 : arg2.IsWhole)
    (arg3 : Memref sig .tc .vmem S6000x64 .f32) (harg3 : arg3.IsWhole) (arg4 : Memref sig .tc .vmem S6000x64 .f32) (harg4 : arg4.IsWhole)
    (arg5 : Memref sig .tc .vmem S6000x64 .f32) (harg5 : arg5.IsWhole)
    (x0 x1 x2 x3 : Vec F S6000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__accum_mean_kernel i arg1 harg1 arg2 harg2 arg3 harg3 arg4 harg4 arg5 harg5) K := by
  simp only [cc0__accum_mean_kernel_eq_skeleton]; unfold cc0__accum_mean_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and the result's at `out0_4` of the four input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelFrame.Region1.lean ====
/-
  Region 1 of the program: the first row gather, on a grid of 4096 points, its index table prefetched.

  At grid point t the pipeline fetches row `tbl[t]` of a [100000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.Kernel.Launch
import proofs.«425184_j69441031242585_3_alg».proof.Proof.Gen.Kernel.Skeleton
import proofs.«425184_j69441031242585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg1 (F := F)).Adm)
variable (V : (c : Dev nD) → (b : Ref sig .tc) → Buf (Elt F) ((c : Thread nD τ).loc b))

/-! ## The schedule's names at the contents `a` -/

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg5) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

/-! ## The windows' blocks -/

/-- Window `w`'s block at point `t`, read off its array as the region finds it; for the input window, the table row the
    table's word at `t` names. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's current staging buffer holds its block at every point, whether or not the pipeline fetched it
    there (two consecutive points naming the same row fetch once), for any proof data whose array is `V`'s and whose
    body leaves the block in place. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one access rectangle: the whole [1, 1, 64] buffer -/

abbrev r1_0 : Rect S1x1x64 := Rect.unit (s := S1x1x64) ![0, 0, 0] S1x1x64.size inb_S1x1x64_S1x1x64_0_0_0

/-! ## What the body leaves in the result's buffer -/

/-- The result's staging buffer after the body, from the input block: its one store. -/
def out1_1 (x0 : Vec F S1x1x64 .f32) : Vec F S1x1x64 .f32 :=
  View.canon [⟨r1_0, k1_pay1 (View.ld x0 r1_0)⟩]

/-- The one store covers the buffer. -/
theorem cover1_1 (p0 : Vec F S1x1x64 .f32) (y : S1x1x64.Idx) :
    ∃ pc ∈ ([⟨r1_0, p0⟩] : List (View.Piece (Elt F) S1x1x64 .f32)), y ∈ pc.1.set :=
  View.cover_of_tiled [⟨r1_0, p0⟩] S1x1x64.size (by rfl) y

/-! ## The body's triple -/

set_option maxHeartbeats 1000000 in
/-- The kernel body on whole staging buffers, the input's at contents `x0` and the result's at anything, runs to the
    continuation holding the input's as it was and the result's at `out1_1 x0`; the table it is handed is not touched. -/
theorem sound_kernel1 (c : Dev nD) (E : Set ℕ) (i : grid1.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The region's invariant: the scoped rest and the generator register, untouched, beside the prefetched table's
    buffer, whole, at the contents `a`. -/
abbrev Phi1 (c : Dev nD) : sProp 𝕄 :=
  iprop(Pipeline.ΦA spec1 c ∗ Pipeline.prefHeld (Ix := Unit) (Name := ℕ) (U := UR sig nD τ) (Lvl := ℕ) pre1 c (fun _ => fullShare) a.1)

/-- The proof data of pipeline 1 on core `c`, at the table's contents `a`: the arrays as the region finds them; after
    the body at point `t` the input's buffer at its block and the result's at `out1_1` of it; the invariant `Phi1`;
    nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => out1_1 (iblk1 a V c 0 t)
  Φ _ := Phi1 a c
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = out1_1 (iblk1 a V c 0 t) := by dsimp only [dat1]; rfl

theorem before1_0 (c : Dev nD) (t : Fin (cfg1 a).N) (d) : (dat1 a V c).before 0 t d = iblk1 a V c 0 t :=
  before1_0_of a V (dat1 a V c) (A_eq1 a V c 0) (after1_0 a V c) t d

/-! ## The body obligation, at a generic point -/

/-- What the body is called with at point `t`, the windows one by one, -/
def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d)))

/-- and what it returns. -/
def bodyPost1 (c : Dev nD) (t : Fin (cfg1 a).N) : sProp 𝕄 :=
  iprop((dat1 a V c).Φ t.succ ∗ (dat1 a V c).owesAt () t.succ
    ∗ owns (c : Thread nD τ) (st1_0 a t) fullShare ((dat1 a V c).after 0 t)
    ∗ owns (c : Thread nD τ) (st1_1 a t) fullShare ((dat1 a V c).after 1 t))

/-- The body at any point: the input's buffer holds its block, so `sound_kernel1` applies; the invariant and the core's
    dues pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1]
  iintro ⟨HΦ, Ho, ⟨%d0, H0⟩, ⟨%d1, H1⟩⟩
  iapply (sound_kernel1 c Set.univ _ _ _ _ _ _ _ (iblk1 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) a V c) (defs₀ (F := F)) Variants.none () Set.univ := fun t => by
  rw [bigSep_W1, bigSep_W1]
  exact sound_body1 a V c t

end Cert.Kernel.Hand

end
-- ==== Proof.KernelFrame.Region2.lean ====
/-
  Region 2 of the program: the second row gather, on a grid of 4096 points, its index table prefetched.

  At grid point t the pipeline fetches row `tbl[t]` of a [50000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.Kernel.Launch
import proofs.«425184_j69441031242585_3_alg».proof.Proof.Gen.Kernel.Skeleton
import proofs.«425184_j69441031242585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg2 (F := F)).Adm)
variable (V : (c : Dev nD) → (b : Ref sig .tc) → Buf (Elt F) ((c : Thread nD τ).loc b))

/-! ## The schedule's names at the contents `a` -/

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_arg6) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1))

/-! ## The windows' blocks -/

/-- Window `w`'s block at point `t`, read off its array as the region finds it; for the input window, the table row the
    table's word at `t` names. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The input window's current staging buffer holds its block at every point, whether or not the pipeline fetched it
    there (two consecutive points naming the same row fetch once), for any proof data whose array is `V`'s and whose
    body leaves the block in place. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 a V c 0 t) (t : Fin (cfg2 a).N) (d) : dat.before 0 t d = iblk2 a V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's one access rectangle: the whole [1, 1, 64] buffer -/

abbrev r2_0 : Rect S1x1x64 := Rect.unit (s := S1x1x64) ![0, 0, 0] S1x1x64.size inb_S1x1x64_S1x1x64_0_0_0

/-! ## What the body leaves in the result's buffer -/

/-- The result's staging buffer after the body, from the input block: its one store. -/
def out2_1 (x0 : Vec F S1x1x64 .f32) : Vec F S1x1x64 .f32 :=
  View.canon [⟨r2_0, k2_pay1 (View.ld x0 r2_0)⟩]

/-- The one store covers the buffer. -/
theorem cover2_1 (p0 : Vec F S1x1x64 .f32) (y : S1x1x64.Idx) :
    ∃ pc ∈ ([⟨r2_0, p0⟩] : List (View.Piece (Elt F) S1x1x64 .f32)), y ∈ pc.1.set :=
  View.cover_of_tiled [⟨r2_0, p0⟩] S1x1x64.size (by rfl) y

/-! ## The body's triple -/

set_option maxHeartbeats 1000000 in
/-- The kernel body on whole staging buffers, the input's at contents `x0` and the result's at anything, runs to the
    continuation holding the input's as it was and the result's at `out2_1 x0`; the table it is handed is not touched. -/
theorem sound_kernel2 (c : Dev nD) (E : Set ℕ) (i : grid2.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The region's invariant: the scoped rest and the generator register, untouched, beside the prefetched table's
    buffer, whole, at the contents `a`. -/
abbrev Phi2 (c : Dev nD) : sProp 𝕄 :=
  iprop(Pipeline.ΦA spec2 c ∗ Pipeline.prefHeld (Ix := Unit) (Name := ℕ) (U := UR sig nD τ) (Lvl := ℕ) pre2 c (fun _ => fullShare) a.1)

/-- The proof data of pipeline 2 on core `c`, at the table's contents `a`: the arrays as the region finds them; after
    the body at point `t` the input's buffer at its block and the result's at `out2_1` of it; the invariant `Phi2`;
    nothing owed; full shares. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => out2_1 (iblk2 a V c 0 t)
  Φ _ := Phi2 a c
  q _ := fullShare
  owed _ := 0

theorem A_eq2 (c : Dev nD) (w : Fin (cfg2 a).W) : (dat2 a V c).A w = V c (Pipeline.arrRef spec2 w) := by
  dsimp only [dat2]

theorem after2_0 (c : Dev nD) (t : Fin (cfg2 a).N) : (dat2 a V c).after 0 t = iblk2 a V c 0 t := by dsimp only [dat2]; rfl
theorem after2_1 (c : Dev nD) (t : Fin (cfg2 a).N) : (dat2 a V c).after 1 t = out2_1 (iblk2 a V c 0 t) := by dsimp only [dat2]; rfl

theorem before2_0 (c : Dev nD) (t : Fin (cfg2 a).N) (d) : (dat2 a V c).before 0 t d = iblk2 a V c 0 t :=
  before2_0_of a V (dat2 a V c) (A_eq2 a V c 0) (after2_0 a V c) t d

/-! ## The body obligation, at a generic point -/

/-- What the body is called with at point `t`, the windows one by one, -/
def bodyPre2 (c : Dev nD) (t : Fin (cfg2 a).N) : sProp 𝕄 :=
  iprop((dat2 a V c).Φ t.castSucc ∗ (dat2 a V c).owesAt () t.castSucc
    ∗ (∃ d, owns (c : Thread nD τ) (st2_0 a t) fullShare ((dat2 a V c).before 0 t d))
    ∗ (∃ d, owns (c : Thread nD τ) (st2_1 a t) fullShare ((dat2 a V c).before 1 t d)))

/-- and what it returns. -/
def bodyPost2 (c : Dev nD) (t : Fin (cfg2 a).N) : sProp 𝕄 :=
  iprop((dat2 a V c).Φ t.succ ∗ (dat2 a V c).owesAt () t.succ
    ∗ owns (c : Thread nD τ) (st2_0 a t) fullShare ((dat2 a V c).after 0 t)
    ∗ owns (c : Thread nD τ) (st2_1 a t) fullShare ((dat2 a V c).after 1 t))

/-- The body at any point: the input's buffer holds its block, so `sound_kernel2` applies; the invariant and the core's
    dues pass through unread. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [before2_0]
  rw [show (dat2 a V c).Φ t.succ = (dat2 a V c).Φ t.castSucc from rfl,
    show (dat2 a V c).owesAt () t.succ = (dat2 a V c).owesAt () t.castSucc from rfl,
    after2_0, after2_1]
  iintro ⟨HΦ, Ho, ⟨%d0, H0⟩, ⟨%d1, H1⟩⟩
  iapply (sound_kernel2 c Set.univ _ _ _ _ _ _ _ (iblk2 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) a V c) (defs₀ (F := F)) Variants.none () Set.univ := fun t => by
  rw [bigSep_W2, bigSep_W2]
  exact sound_body2 a V c t

end Cert.Kernel.Hand

end
-- ==== Proof.KernelFrame.Region3.lean ====
/-
  Region 3 of the program: the third row gather, on a grid of 4096 points, its index table prefetched.

  At grid point t the pipeline fetches row `tbl[t]` of a [50000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.Kernel.Launch
import proofs.«425184_j69441031242585_3_alg».proof.Proof.Gen.Kernel.Skeleton
import proofs.«425184_j69441031242585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg3 (F := F)).Adm)
variable (V : (c : Dev nD) → (b : Ref sig .tc) → Buf (Elt F) ((c : Thread nD τ).loc b))

/-! ## The schedule's names at the contents `a` -/

/-- The current staging memref of each window at point `t`. -/
abbrev st3_0 (t : Fin (cfg3 a).N) := ((cfg3 a).win 0).stage ((cfg3 a).slots t 0)
abbrev st3_1 (t : Fin (cfg3 a).N) := ((cfg3 a).win 1).stage ((cfg3 a).slots t 1)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_arg7) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1))

/-! ## The windows' blocks -/

/-- Window `w`'s block at point `t`, read off its array as the region finds it; for the input window, the table row the
    table's word at `t` names. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- The input window's current staging buffer holds its block at every point, whether or not the pipeline fetched it
    there (two consecutive points naming the same row fetch once), for any proof data whose array is `V`'s and whose
    body leaves the block in place. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's one access rectangle: the whole [1, 1, 64] buffer -/

abbrev r3_0 : Rect S1x1x64 := Rect.unit (s := S1x1x64) ![0, 0, 0] S1x1x64.size inb_S1x1x64_S1x1x64_0_0_0

/-! ## What the body leaves in the result's buffer -/

/-- The result's staging buffer after the body, from the input block: its one store. -/
def out3_1 (x0 : Vec F S1x1x64 .f32) : Vec F S1x1x64 .f32 :=
  View.canon [⟨r3_0, k3_pay1 (View.ld x0 r3_0)⟩]

/-- The one store covers the buffer. -/
theorem cover3_1 (p0 : Vec F S1x1x64 .f32) (y : S1x1x64.Idx) :
    ∃ pc ∈ ([⟨r3_0, p0⟩] : List (View.Piece (Elt F) S1x1x64 .f32)), y ∈ pc.1.set :=
  View.cover_of_tiled [⟨r3_0, p0⟩] S1x1x64.size (by rfl) y

/-! ## The body's triple -/

set_option maxHeartbeats 1000000 in
/-- The kernel body on whole staging buffers, the input's at contents `x0` and the result's at anything, runs to the
    continuation holding the input's as it was and the result's at `out3_1 x0`; the table it is handed is not touched. -/
theorem sound_kernel3 (c : Dev nD) (E : Set ℕ) (i : grid3.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The region's invariant: the scoped rest and the generator register, untouched, beside the prefetched table's
    buffer, whole, at the contents `a`. -/
abbrev Phi3 (c : Dev nD) : sProp 𝕄 :=
  iprop(Pipeline.ΦA spec3 c ∗ Pipeline.prefHeld (Ix := Unit) (Name := ℕ) (U := UR sig nD τ) (Lvl := ℕ) pre3 c (fun _ => fullShare) a.1)

/-- The proof data of pipeline 3 on core `c`, at the table's contents `a`: the arrays as the region finds them; after
    the body at point `t` the input's buffer at its block and the result's at `out3_1` of it; the invariant `Phi3`;
    nothing owed; full shares. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => out3_1 (iblk3 a V c 0 t)
  Φ _ := Phi3 a c
  q _ := fullShare
  owed _ := 0

theorem A_eq3 (c : Dev nD) (w : Fin (cfg3 a).W) : (dat3 a V c).A w = V c (Pipeline.arrRef spec3 w) := by
  dsimp only [dat3]

theorem after3_0 (c : Dev nD) (t : Fin (cfg3 a).N) : (dat3 a V c).after 0 t = iblk3 a V c 0 t := by dsimp only [dat3]; rfl
theorem after3_1 (c : Dev nD) (t : Fin (cfg3 a).N) : (dat3 a V c).after 1 t = out3_1 (iblk3 a V c 0 t) := by dsimp only [dat3]; rfl

theorem before3_0 (c : Dev nD) (t : Fin (cfg3 a).N) (d) : (dat3 a V c).before 0 t d = iblk3 a V c 0 t :=
  before3_0_of a V (dat3 a V c) (A_eq3 a V c 0) (after3_0 a V c) t d

/-! ## The body obligation, at a generic point -/

/-- What the body is called with at point `t`, the windows one by one, -/
def bodyPre3 (c : Dev nD) (t : Fin (cfg3 a).N) : sProp 𝕄 :=
  iprop((dat3 a V c).Φ t.castSucc ∗ (dat3 a V c).owesAt () t.castSucc
    ∗ (∃ d, owns (c : Thread nD τ) (st3_0 a t) fullShare ((dat3 a V c).before 0 t d))
    ∗ (∃ d, owns (c : Thread nD τ) (st3_1 a t) fullShare ((dat3 a V c).before 1 t d)))

/-- and what it returns. -/
def bodyPost3 (c : Dev nD) (t : Fin (cfg3 a).N) : sProp 𝕄 :=
  iprop((dat3 a V c).Φ t.succ ∗ (dat3 a V c).owesAt () t.succ
    ∗ owns (c : Thread nD τ) (st3_0 a t) fullShare ((dat3 a V c).after 0 t)
    ∗ owns (c : Thread nD τ) (st3_1 a t) fullShare ((dat3 a V c).after 1 t))

/-- The body at any point: the input's buffer holds its block, so `sound_kernel3` applies; the invariant and the core's
    dues pass through unread. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [before3_0]
  rw [show (dat3 a V c).Φ t.succ = (dat3 a V c).Φ t.castSucc from rfl,
    show (dat3 a V c).owesAt () t.succ = (dat3 a V c).owesAt () t.castSucc from rfl,
    after3_0, after3_1]
  iintro ⟨HΦ, Ho, ⟨%d0, H0⟩, ⟨%d1, H1⟩⟩
  iapply (sound_kernel3 c Set.univ _ _ _ _ _ _ _ (iblk3 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) a V c) (defs₀ (F := F)) Variants.none () Set.univ := fun t => by
  rw [bigSep_W3, bigSep_W3]
  exact sound_body3 a V c t

end Cert.Kernel.Hand

end
-- ==== Proof.KernelFrame.Setup.lean ====
/-
  What the four regions' segment records share.

  The prefetched index tables are read off the launch memory (no host operation and no region writes them), and the
  hypothesis `Oks` says each table's words name rows inside the table its gather reads.  The contents of the core's
  buffers between two items of the program are the launch contents pushed through the host operations, with each
  region's result array replaced by what that region's proof data computes: region 0's result after its 25 write-backs
  (`o2`), then each gather's result after its 4096 write-backs (`o4`, `o6`, `o8`), each defined over the contents
  the regions before it left.  The proof-data family lists the four regions' data at those contents.
-/
import proofs.«425184_j69441031242585_3_alg».proof.Proof.Gen.Kernel.Regions
import proofs.«425184_j69441031242585_3_alg».proof.Proof.KernelFrame.Region0
import proofs.«425184_j69441031242585_3_alg».proof.Proof.KernelFrame.Region1
import proofs.«425184_j69441031242585_3_alg».proof.Proof.KernelFrame.Region2
import proofs.«425184_j69441031242585_3_alg».proof.Proof.KernelFrame.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The prefetched tables -/

/-- Each gather's index table as launched (the program runs on one device). -/
def tbl1 : pre1.Contents (Elt F) := fun j => m (((0 : Dev nD) : Thread nD τ).loc (pre1.ref j))
def tbl2 : pre2.Contents (Elt F) := fun j => m (((0 : Dev nD) : Thread nD τ).loc (pre2.ref j))
def tbl3 : pre3.Contents (Elt F) := fun j => m (((0 : Dev nD) : Thread nD τ).loc (pre3.ref j))

/-- Every block a gather fetches lies inside its table. -/
def Oks : Prop := ok1 (F := F) (tbl1 m) ∧ ok2 (F := F) (tbl2 m) ∧ ok3 (F := F) (tbl3 m)

variable (hO : Oks m)

/-- The tables' contents as admissible contents of each gather's pipeline. -/
abbrev a1 : (pcfg1 (F := F)).Adm := ⟨tbl1 m, hO.1⟩
abbrev a2 : (pcfg2 (F := F)).Adm := ⟨tbl2 m, hO.2.1⟩
abbrev a3 : (pcfg3 (F := F)).Adm := ⟨tbl3 m, hO.2.2⟩

/-- The four pipelines' admissible contents (the first has no table). -/
abbrev adm : (p : Fin 4) → (pcfgs (F := F) p).Adm
  | ⟨0, _⟩ => cfg0.toPCfg_adm
  | ⟨1, _⟩ => a1 m hO
  | ⟨2, _⟩ => a2 m hO
  | ⟨3, _⟩ => a3 m hO

/-! ## What the regions leave, region by region -/

/-- A valuation read at the TensorCore's references. -/
abbrev atTc (W : Dev nD → Valuation τ sig (Elt F)) : (c : Dev nD) → (b : Ref sig .tc) → Buf (Elt F) ((c : Thread nD τ).loc b) :=
  fun c b => W c b

/-- Region 0's result array after its write-backs. -/
def o2 (c : Dev nD) : Buf (Elt F) ((c : Thread nD τ).loc main_v40) := (dat0 (atTc (V1 m)) c).arrAt 4 cfg0.N

/-- The unknowns with region 0's result filled in. -/
def outsA : Outs (F := F) := fun _ r c => if h : r = main_v40 then h ▸ o2 m c else m ((c : Thread nD τ).loc r)

/-- The first gather's result array after its write-backs. -/
def o4 (c : Dev nD) : Buf (Elt F) ((c : Thread nD τ).loc main_v44) := (dat1 (a1 m hO) (atTc (V3 m (outsA m))) c).arrAt 1 (cfg1 (a1 m hO)).N

def outsB : Outs (F := F) := fun _ r c =>
  if h : r = main_v40 then h ▸ o2 m c else if h : r = main_v44 then h ▸ o4 m hO c else m ((c : Thread nD τ).loc r)

/-- The second gather's result array after its write-backs. -/
def o6 (c : Dev nD) : Buf (Elt F) ((c : Thread nD τ).loc main_v47) := (dat2 (a2 m hO) (atTc (V5 m (outsB m hO))) c).arrAt 1 (cfg2 (a2 m hO)).N

def outsC : Outs (F := F) := fun _ r c =>
  if h : r = main_v40 then h ▸ o2 m c else if h : r = main_v44 then h ▸ o4 m hO c else if h : r = main_v47 then h ▸ o6 m hO c
  else m ((c : Thread nD τ).loc r)

/-- The third gather's result array after its write-backs. -/
def o8 (c : Dev nD) : Buf (Elt F) ((c : Thread nD τ).loc main_v50) := (dat3 (a3 m hO) (atTc (V7 m (outsC m hO))) c).arrAt 1 (cfg3 (a3 m hO)).N

/-- What every region leaves in the buffer it may change. -/
def outs : Outs (F := F) := fun _ r c =>
  if h : r = main_v40 then h ▸ o2 m c else if h : r = main_v44 then h ▸ o4 m hO c else if h : r = main_v47 then h ▸ o6 m hO c
  else if h : r = main_v50 then h ▸ o8 m hO c else m ((c : Thread nD τ).loc r)

theorem outs_v40 (J : ℕ) (c : Dev nD) : outs m hO J main_v40 c = o2 m c := by unfold outs; rw [dif_pos rfl]
theorem outs_v44 (J : ℕ) (c : Dev nD) : outs m hO J main_v44 c = o4 m hO c := by
  unfold outs; rw [dif_neg (by decide), dif_pos rfl]
theorem outs_v47 (J : ℕ) (c : Dev nD) : outs m hO J main_v47 c = o6 m hO c := by
  unfold outs; rw [dif_neg (by decide), dif_neg (by decide), dif_pos rfl]
theorem outs_v50 (J : ℕ) (c : Dev nD) : outs m hO J main_v50 c = o8 m hO c := by
  unfold outs; rw [dif_neg (by decide), dif_neg (by decide), dif_neg (by decide), dif_pos rfl]
theorem outsA_v40 (J : ℕ) (c : Dev nD) : outsA m J main_v40 c = o2 m c := by unfold outsA; rw [dif_pos rfl]
theorem outsB_v40 (J : ℕ) (c : Dev nD) : outsB m hO J main_v40 c = o2 m c := by unfold outsB; rw [dif_pos rfl]
theorem outsB_v44 (J : ℕ) (c : Dev nD) : outsB m hO J main_v44 c = o4 m hO c := by
  unfold outsB; rw [dif_neg (by decide), dif_pos rfl]
theorem outsC_v40 (J : ℕ) (c : Dev nD) : outsC m hO J main_v40 c = o2 m c := by unfold outsC; rw [dif_pos rfl]
theorem outsC_v44 (J : ℕ) (c : Dev nD) : outsC m hO J main_v44 c = o4 m hO c := by
  unfold outsC; rw [dif_neg (by decide), dif_pos rfl]
theorem outsC_v47 (J : ℕ) (c : Dev nD) : outsC m hO J main_v47 c = o6 m hO c := by
  unfold outsC; rw [dif_neg (by decide), dif_neg (by decide), dif_pos rfl]

/-- The contents before each gather do not depend on what later regions leave. -/
theorem V3_outs (c : Dev nD) : V3 m (outs m hO) c = V3 m (outsA m) c := by
  show StableHlo.after hostOps1 (Function.update (V1 m c) main_v40 (outs m hO 2 main_v40 c)) = StableHlo.after hostOps1 (Function.update (V1 m c) main_v40 (outsA m 2 main_v40 c))
  rw [outs_v40, outsA_v40]
theorem V3_outsB (c : Dev nD) : V3 m (outsB m hO) c = V3 m (outsA m) c := by
  show StableHlo.after hostOps1 (Function.update (V1 m c) main_v40 (outsB m hO 2 main_v40 c)) = StableHlo.after hostOps1 (Function.update (V1 m c) main_v40 (outsA m 2 main_v40 c))
  rw [outsB_v40, outsA_v40]
theorem V3_outsC (c : Dev nD) : V3 m (outsC m hO) c = V3 m (outsA m) c := by
  show StableHlo.after hostOps1 (Function.update (V1 m c) main_v40 (outsC m hO 2 main_v40 c)) = StableHlo.after hostOps1 (Function.update (V1 m c) main_v40 (outsA m 2 main_v40 c))
  rw [outsC_v40, outsA_v40]
theorem V5_outs (c : Dev nD) : V5 m (outs m hO) c = V5 m (outsB m hO) c := by
  show StableHlo.after hostOps2 (Function.update (V3 m (outs m hO) c) main_v44 (outs m hO 4 main_v44 c)) = StableHlo.after hostOps2 (Function.update (V3 m (outsB m hO) c) main_v44 (outsB m hO 4 main_v44 c))
  rw [V3_outs, V3_outsB, outs_v44, outsB_v44]
theorem V5_outsC (c : Dev nD) : V5 m (outsC m hO) c = V5 m (outsB m hO) c := by
  show StableHlo.after hostOps2 (Function.update (V3 m (outsC m hO) c) main_v44 (outsC m hO 4 main_v44 c)) = StableHlo.after hostOps2 (Function.update (V3 m (outsB m hO) c) main_v44 (outsB m hO 4 main_v44 c))
  rw [V3_outsC, V3_outsB, outsC_v44, outsB_v44]
theorem V7_outs (c : Dev nD) : V7 m (outs m hO) c = V7 m (outsC m hO) c := by
  show StableHlo.after hostOps3 (Function.update (V5 m (outs m hO) c) main_v47 (outs m hO 6 main_v47 c)) = StableHlo.after hostOps3 (Function.update (V5 m (outsC m hO) c) main_v47 (outsC m hO 6 main_v47 c))
  rw [V5_outs, V5_outsC, outs_v47, outsC_v47]

/-! ## The proof-data family -/

/-- Every pipeline's proof data, each at its region's entry contents. -/
def pdats : (p : Fin 4) → (c : Dev nD) → Dat τ (Elt F) Unit ℕ (UR sig nD τ) ℕ (Pipeline.pin (pcfgs (F := F)) (adm m hO) p) c
  | ⟨0, _⟩ => fun c => dat0 (atTc (V1 m)) c
  | ⟨1, _⟩ => fun c => dat1 (a1 m hO) (atTc (V3 m (outsA m))) c
  | ⟨2, _⟩ => fun c => dat2 (a2 m hO) (atTc (V5 m (outsB m hO))) c
  | ⟨3, _⟩ => fun c => dat3 (a3 m hO) (atTc (V7 m (outsC m hO))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev Rr (c : Dev nD) : sProp 𝕄 := iprop((∃ r, prngReg c r) ∗ ∃ W, owes (c : Thread nD τ) (0 : CellTallies nD τ sig Unit) W)

/-! ## The tables are as launched at every region's entry -/

theorem dev_eq (c : Dev nD) : c = 0 := Subsingleton.elim _ _

theorem V3_tbl1 (c : Dev nD) : (fun k => V3 m (outsA m) c (pre1.ref k)) = tbl1 m := by
  obtain rfl := dev_eq c
  funext k
  obtain rfl : k = 0 := Subsingleton.elim _ _
  exact (V3_of m _ 0 main_arg5 (by decide)).trans <| (V2_of m _ 0 main_arg5 (by decide)).trans <| (V1_of m 0 main_arg5 (by decide)).trans rfl
theorem V5_tbl2 (c : Dev nD) : (fun k => V5 m (outsB m hO) c (pre2.ref k)) = tbl2 m := by
  obtain rfl := dev_eq c
  funext k
  obtain rfl : k = 0 := Subsingleton.elim _ _
  exact (V5_of m _ 0 main_arg6 (by decide)).trans <| (V4_of m _ 0 main_arg6 (by decide)).trans <| (V3_of m _ 0 main_arg6 (by decide)).trans <|
    (V2_of m _ 0 main_arg6 (by decide)).trans <| (V1_of m 0 main_arg6 (by decide)).trans rfl
theorem V7_tbl3 (c : Dev nD) : (fun k => V7 m (outsC m hO) c (pre3.ref k)) = tbl3 m := by
  obtain rfl := dev_eq c
  funext k
  obtain rfl : k = 0 := Subsingleton.elim _ _
  exact (V7_of m _ 0 main_arg7 (by decide)).trans <| (V6_of m _ 0 main_arg7 (by decide)).trans <| (V5_of m _ 0 main_arg7 (by decide)).trans <|
    (V4_of m _ 0 main_arg7 (by decide)).trans <| (V3_of m _ 0 main_arg7 (by decide)).trans <| (V2_of m _ 0 main_arg7 (by decide)).trans <|
    (V1_of m 0 main_arg7 (by decide)).trans rfl

end Cert.Kernel.Hand

end
-- ==== Proof.KernelFrame.OksOfLt.lean ====
/-
  The index tables name rows inside their tables.

  A gather's input window fetches, at grid point t, the [1, 1, 64] block whose block index is (w, 0, 0), w the table's
  word at t read unsigned.  When every word of the users table is below 100000 and every word of the two items tables
  is below 50000, every such block lies inside the [100000, 1, 64] (respectively [50000, 1, 64]) table it is fetched
  from; the blocks are of a word-wide element type, so their transfers end on whole words.
-/
import proofs.«425184_j69441031242585_3_alg».proof.Proof.KernelFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem ok1_of_lt (h : ∀ k, ((tbl1 m 0 : S4096.Idx → BitVec 32) k).toNat < 100000) : ok1 (F := F) (tbl1 m) := by
  intro i
  obtain ⟨w, hw, e⟩ : ∃ w : BitVec 32, w.toNat < 100000 ∧ cc1_transform_0 k1_off1_inb numel1_S1 (tbl1 m) i = ![w.toNat, 0, 0] :=
    ⟨_, h _, rfl⟩
  refine ⟨fun a => ?_, Or.inl rfl⟩
  rw [e]
  fin_cases a <;> simp [S1x1x64, S100000x1x64] <;> omega

theorem ok2_of_lt (h : ∀ k, ((tbl2 m 0 : S4096.Idx → BitVec 32) k).toNat < 50000) : ok2 (F := F) (tbl2 m) := by
  intro i
  obtain ⟨w, hw, e⟩ : ∃ w : BitVec 32, w.toNat < 50000 ∧ cc2_transform_0 k2_off1_inb numel1_S1 (tbl2 m) i = ![w.toNat, 0, 0] :=
    ⟨_, h _, rfl⟩
  refine ⟨fun a => ?_, Or.inl rfl⟩
  rw [e]
  fin_cases a <;> simp [S1x1x64, S50000x1x64] <;> omega

theorem ok3_of_lt (h : ∀ k, ((tbl3 m 0 : S4096.Idx → BitVec 32) k).toNat < 50000) : ok3 (F := F) (tbl3 m) := by
  intro i
  obtain ⟨w, hw, e⟩ : ∃ w : BitVec 32, w.toNat < 50000 ∧ cc3_transform_0 k3_off1_inb numel1_S1 (tbl3 m) i = ![w.toNat, 0, 0] :=
    ⟨_, h _, rfl⟩
  refine ⟨fun a => ?_, Or.inl rfl⟩
  rw [e]
  fin_cases a <;> simp [S1x1x64, S50000x1x64] <;> omega

/-- All three at once. -/
theorem oks_of_lt (h1 : ∀ k, ((tbl1 m 0 : S4096.Idx → BitVec 32) k).toNat < 100000)
    (h2 : ∀ k, ((tbl2 m 0 : S4096.Idx → BitVec 32) k).toNat < 50000)
    (h3 : ∀ k, ((tbl3 m 0 : S4096.Idx → BitVec 32) k).toNat < 50000) : Oks m :=
  ⟨ok1_of_lt m h1, ok2_of_lt m h2, ok3_of_lt m h3⟩

end Cert.Kernel.Hand

end
-- ==== Proof.KernelFrame.Reg0.lean ====
/-
  Region 0 (the accumulate-and-mean kernel) as a segment of the program.

  It is entered with every unscoped buffer of the core held at the contents the first stretch of host operations left
  and is left with them at the same contents but for the result array, which holds what the region's 25 write-backs
  leave.  At the entry the five windows' arrays are taken out of the held buffers; at the exit they are put back, the four
  inputs unchanged and the result at its final contents.  The generator register goes into the region's invariant and
  comes back; nothing is owed; the kernel has no semaphore of its own.
-/
import proofs.«425184_j69441031242585_3_alg».proof.Proof.KernelFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The arrays of region 0 at its exit are the next contents' at those buffers. -/
theorem hF0 (c : Dev nD) (w : Fin cfg0.W) :
    (pdats m hO 0 c).arrAt w cfg0.N = atTc (V2 m (outs m hO)) c (Pipeline.arrRef spec0 w) := by
  match w with
  | ⟨0, _⟩ => exact (((dat0 (atTc (V1 m)) c).arrAt_in 0 rfl _).trans (A_eq0 _ c 0)).trans (V2_of m _ c main_v0 (by decide)).symm
  | ⟨1, _⟩ => exact (((dat0 (atTc (V1 m)) c).arrAt_in 1 rfl _).trans (A_eq0 _ c 1)).trans (V2_of m _ c main_v13 (by decide)).symm
  | ⟨2, _⟩ => exact (((dat0 (atTc (V1 m)) c).arrAt_in 2 rfl _).trans (A_eq0 _ c 2)).trans (V2_of m _ c main_v26 (by decide)).symm
  | ⟨3, _⟩ => exact (((dat0 (atTc (V1 m)) c).arrAt_in 3 rfl _).trans (A_eq0 _ c 3)).trans (V2_of m _ c main_v39 (by decide)).symm
  | ⟨4, _⟩ =>
    show (dat0 (atTc (V1 m)) c).arrAt 4 cfg0.N = Function.update (V1 m c) main_v40 (outs m hO 2 main_v40 c) main_v40
    rw [Function.update_self, outs_v40]; rfl

/-- Every other buffer is as at the entry. -/
theorem hrest0 (c : Dev nD) : ∀ b, b ∉ Finset.univ.image (Pipeline.arrRef spec0) → atTc (V2 m (outs m hO)) c b = atTc (V1 m) c b := fun b hb =>
  V2_of m _ c b (by
    intro h
    rw [List.mem_singleton] at h
    exact hb (Finset.mem_image.mpr ⟨4, Finset.mem_univ _, h.symm⟩))

set_option backward.isDefEq.respectTransparency.types false in
/-- REGION 0 over the thread state. -/
def reg0 : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m hO) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (atTc (V1 m) c) (atTc (V2 m (outs m hO)) c) ((pdats m hO 0 c).arrAt · cfg0.N) (hF0 m hO c) (hrest0 m hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelFrame.Reg1.lean ====
/-
  Region 1 (the first row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein1 : Dev nD → Valuation τ sig (Elt F) := V3 m (outsA m)
abbrev Ext1 : Dev nD → Valuation τ sig (Elt F) := V4 m (outs m hO)
theorem Ent1_eq (c : Dev nD) : V3 m (outs m hO) c = Ein1 m c := V3_outs m hO c

/-- The arrays of region 1 at its exit are the next contents' at those buffers. -/
theorem hF1 (c : Dev nD) (w : Fin (cfg1 (a1 m hO)).W) :
    (pdats m hO 1 c).arrAt w (cfg1 (a1 m hO)).N = atTc (Ext1 m hO) c (Pipeline.arrRef spec1 w) := by
  match w with
  | ⟨0, _⟩ =>
    exact (((dat1 (a1 m hO) (atTc (Ein1 m)) c).arrAt_in 0 rfl _).trans (A_eq1 _ _ c 0)).trans
      ((V4_of m _ c main_v43 (by decide)).trans (congrFun (Ent1_eq m hO c) main_v43)).symm
  | ⟨1, _⟩ =>
    show (dat1 (a1 m hO) (atTc (Ein1 m)) c).arrAt 1 (cfg1 (a1 m hO)).N = Function.update (V3 m (outs m hO) c) main_v44 (outs m hO 4 main_v44 c) main_v44
    rw [Function.update_self, outs_v44]; rfl

/-- Every other buffer is as at the entry. -/
theorem hrest1 (c : Dev nD) : ∀ b, b ∉ Finset.univ.image (Pipeline.arrRef spec1) → atTc (Ext1 m hO) c b = atTc (Ein1 m) c b := fun b hb =>
  (V4_of m _ c b (by
    intro h
    rw [List.mem_singleton] at h
    exact hb (Finset.mem_image.mpr ⟨1, Finset.mem_univ _, h.symm⟩))).trans (congrFun (Ent1_eq m hO c) b)

/-- The table's buffer at the entry contents is the table as launched. -/
theorem pref1_eq (c : Dev nD) :
    (Pipeline.prefHeld (Ix := Unit) (Name := ℕ) (U := UR sig nD τ) (Lvl := ℕ) (pcfgs (F := F) 1).pre c (fun _ => fullShare)
        (fun k => atTc (Ein1 m) c ((pcfgs (F := F) 1).pre.ref k)) : sProp 𝕄)
      = Pipeline.prefHeld (pcfgs (F := F) 1).pre c (fun _ => fullShare) (adm m hO 1).1 := by
  show (Pipeline.prefHeld pre1 c (fun _ => fullShare) (fun k => atTc (Ein1 m) c (pre1.ref k)) : sProp 𝕄)
      = Pipeline.prefHeld pre1 c (fun _ => fullShare) (a1 m hO).1
  rw [show (fun k => atTc (Ein1 m) c (pre1.ref k)) = tbl1 m from V3_tbl1 m c]

set_option backward.isDefEq.respectTransparency.types false in
/-- REGION 1 over the thread state. -/
def reg1 : Pipeline.RegionSeg (pcfgs (F := F)) (adm m hO) (pdats m hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (a1 m hO) (atTc (Ein1 m)) c).loose
  hwaits := Pipeline.hwaits_of_owed_zero _ _ _ _ L lv 1 fun _ _ => rfl
  pre c := iprop(StableHlo.held (c : Thread nD τ) (Pipeline.ucRefs τ sig) (V3 m (outs m hO) c) ∗ Rr c)
  post c := iprop(StableHlo.held (c : Thread nD τ) (Pipeline.ucRefs τ sig) (Ext1 m hO c) ∗ Rr c)
  X c := iprop(∃ r, prngReg c r)
  Y c := iprop((∃ r, prngReg c r) ∗ Pipeline.prefHeld (Ix := Unit) (Name := ℕ) (U := UR sig nD τ) (Lvl := ℕ) pre1 c (fun _ => fullShare) (a1 m hO).1)
  Z c := Pipeline.unscopedRestP (Ix := Unit) (Name := ℕ) (U := UR sig nD τ) (Lvl := ℕ) pre1 spec1 c (atTc (Ein1 m) c)
  hentry c := by
    rw [Pipeline.ownSems0_none, Ent1_eq m hO c]
    have hsplit := Pipeline.arrays_of_unscopedBufs (p := 1) (pcfgs (F := F)) (adm m hO) (pdats m hO) (launch1 (F := F)).win (launch1 (F := F)).arr_whole c
      ((pdats m hO 1 c).share_full fun _ => rfl) (atTc (Ein1 m) c) fun _ => rfl
    rw [Pipeline.unscopedBufs_held, Pipeline.unscopedRest_split (launch1 (F := F)).pre c (atTc (Ein1 m) c), pref1_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = Phi1 (a1 m hO) c from rfl]; unfold Phi1 Pipeline.ΦA
    iintro ⟨Hp, Ht, Hr⟩
    isplitr [Ht]
    · isplitl [Hr]; · iexact Hr
      iexact Hp
    iexact Ht
  hout c := by
    rw [Pipeline.ownSems0_none, show (pdats m hO 1 c).Φ (Fin.last _) = Phi1 (a1 m hO) c from rfl]; unfold Phi1 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m hO) ((pdats m hO 1 c).share_full fun _ => rfl)
      (atTc (Ein1 m) c) (atTc (Ext1 m hO) c) ((pdats m hO 1 c).arrAt · (cfg1 (a1 m hO)).N) (hF1 m hO c) (hrest1 m hO c)
    rw [Pipeline.unscopedBufs_held, Pipeline.unscopedRest_split (launch1 (F := F)).pre c (atTc (Ein1 m) c), pref1_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KernelFrame.Reg2.lean ====
/-
  Region 2 (the second row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein2 : Dev nD → Valuation τ sig (Elt F) := V5 m (outsB m hO)
abbrev Ext2 : Dev nD → Valuation τ sig (Elt F) := V6 m (outs m hO)
theorem Ent2_eq (c : Dev nD) : V5 m (outs m hO) c = Ein2 m hO c := V5_outs m hO c

/-- The arrays of region 1 at its exit are the next contents' at those buffers. -/
theorem hF2 (c : Dev nD) (w : Fin (cfg2 (a2 m hO)).W) :
    (pdats m hO 2 c).arrAt w (cfg2 (a2 m hO)).N = atTc (Ext2 m hO) c (Pipeline.arrRef spec2 w) := by
  match w with
  | ⟨0, _⟩ =>
    exact (((dat2 (a2 m hO) (atTc (Ein2 m hO)) c).arrAt_in 0 rfl _).trans (A_eq2 _ _ c 0)).trans
      ((V6_of m _ c main_v46 (by decide)).trans (congrFun (Ent2_eq m hO c) main_v46)).symm
  | ⟨1, _⟩ =>
    show (dat2 (a2 m hO) (atTc (Ein2 m hO)) c).arrAt 1 (cfg2 (a2 m hO)).N = Function.update (V5 m (outs m hO) c) main_v47 (outs m hO 6 main_v47 c) main_v47
    rw [Function.update_self, outs_v47]; rfl

/-- Every other buffer is as at the entry. -/
theorem hrest2 (c : Dev nD) : ∀ b, b ∉ Finset.univ.image (Pipeline.arrRef spec2) → atTc (Ext2 m hO) c b = atTc (Ein2 m hO) c b := fun b hb =>
  (V6_of m _ c b (by
    intro h
    rw [List.mem_singleton] at h
    exact hb (Finset.mem_image.mpr ⟨1, Finset.mem_univ _, h.symm⟩))).trans (congrFun (Ent2_eq m hO c) b)

/-- The table's buffer at the entry contents is the table as launched. -/
theorem pref2_eq (c : Dev nD) :
    (Pipeline.prefHeld (Ix := Unit) (Name := ℕ) (U := UR sig nD τ) (Lvl := ℕ) (pcfgs (F := F) 2).pre c (fun _ => fullShare)
        (fun k => atTc (Ein2 m hO) c ((pcfgs (F := F) 2).pre.ref k)) : sProp 𝕄)
      = Pipeline.prefHeld (pcfgs (F := F) 2).pre c (fun _ => fullShare) (adm m hO 2).1 := by
  show (Pipeline.prefHeld pre2 c (fun _ => fullShare) (fun k => atTc (Ein2 m hO) c (pre2.ref k)) : sProp 𝕄)
      = Pipeline.prefHeld pre2 c (fun _ => fullShare) (a2 m hO).1
  rw [show (fun k => atTc (Ein2 m hO) c (pre2.ref k)) = tbl2 m from V5_tbl2 m hO c]

set_option backward.isDefEq.respectTransparency.types false in
/-- REGION 1 over the thread state. -/
def reg2 : Pipeline.RegionSeg (pcfgs (F := F)) (adm m hO) (pdats m hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (a2 m hO) (atTc (Ein2 m hO)) c).loose
  hwaits := Pipeline.hwaits_of_owed_zero _ _ _ _ L lv 2 fun _ _ => rfl
  pre c := iprop(StableHlo.held (c : Thread nD τ) (Pipeline.ucRefs τ sig) (V5 m (outs m hO) c) ∗ Rr c)
  post c := iprop(StableHlo.held (c : Thread nD τ) (Pipeline.ucRefs τ sig) (Ext2 m hO c) ∗ Rr c)
  X c := iprop(∃ r, prngReg c r)
  Y c := iprop((∃ r, prngReg c r) ∗ Pipeline.prefHeld (Ix := Unit) (Name := ℕ) (U := UR sig nD τ) (Lvl := ℕ) pre2 c (fun _ => fullShare) (a2 m hO).1)
  Z c := Pipeline.unscopedRestP (Ix := Unit) (Name := ℕ) (U := UR sig nD τ) (Lvl := ℕ) pre2 spec2 c (atTc (Ein2 m hO) c)
  hentry c := by
    rw [Pipeline.ownSems0_none, Ent2_eq m hO c]
    have hsplit := Pipeline.arrays_of_unscopedBufs (p := 2) (pcfgs (F := F)) (adm m hO) (pdats m hO) (launch2 (F := F)).win (launch2 (F := F)).arr_whole c
      ((pdats m hO 2 c).share_full fun _ => rfl) (atTc (Ein2 m hO) c) fun _ => rfl
    rw [Pipeline.unscopedBufs_held, Pipeline.unscopedRest_split (launch2 (F := F)).pre c (atTc (Ein2 m hO) c), pref2_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 2 c).Φ 0 = Phi2 (a2 m hO) c from rfl]; unfold Phi2 Pipeline.ΦA
    iintro ⟨Hp, Ht, Hr⟩
    isplitr [Ht]
    · isplitl [Hr]; · iexact Hr
      iexact Hp
    iexact Ht
  hout c := by
    rw [Pipeline.ownSems0_none, show (pdats m hO 2 c).Φ (Fin.last _) = Phi2 (a2 m hO) c from rfl]; unfold Phi2 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m hO) ((pdats m hO 2 c).share_full fun _ => rfl)
      (atTc (Ein2 m hO) c) (atTc (Ext2 m hO) c) ((pdats m hO 2 c).arrAt · (cfg2 (a2 m hO)).N) (hF2 m hO c) (hrest2 m hO c)
    rw [Pipeline.unscopedBufs_held, Pipeline.unscopedRest_split (launch2 (F := F)).pre c (atTc (Ein2 m hO) c), pref2_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KernelFrame.Reg3.lean ====
/-
  Region 3 (the third row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein3 : Dev nD → Valuation τ sig (Elt F) := V7 m (outsC m hO)
abbrev Ext3 : Dev nD → Valuation τ sig (Elt F) := V8 m (outs m hO)
theorem Ent3_eq (c : Dev nD) : V7 m (outs m hO) c = Ein3 m hO c := V7_outs m hO c

/-- The arrays of region 1 at its exit are the next contents' at those buffers. -/
theorem hF3 (c : Dev nD) (w : Fin (cfg3 (a3 m hO)).W) :
    (pdats m hO 3 c).arrAt w (cfg3 (a3 m hO)).N = atTc (Ext3 m hO) c (Pipeline.arrRef spec3 w) := by
  match w with
  | ⟨0, _⟩ =>
    exact (((dat3 (a3 m hO) (atTc (Ein3 m hO)) c).arrAt_in 0 rfl _).trans (A_eq3 _ _ c 0)).trans
      ((V8_of m _ c main_v49 (by decide)).trans (congrFun (Ent3_eq m hO c) main_v49)).symm
  | ⟨1, _⟩ =>
    show (dat3 (a3 m hO) (atTc (Ein3 m hO)) c).arrAt 1 (cfg3 (a3 m hO)).N = Function.update (V7 m (outs m hO) c) main_v50 (outs m hO 8 main_v50 c) main_v50
    rw [Function.update_self, outs_v50]; rfl

/-- Every other buffer is as at the entry. -/
theorem hrest3 (c : Dev nD) : ∀ b, b ∉ Finset.univ.image (Pipeline.arrRef spec3) → atTc (Ext3 m hO) c b = atTc (Ein3 m hO) c b := fun b hb =>
  (V8_of m _ c b (by
    intro h
    rw [List.mem_singleton] at h
    exact hb (Finset.mem_image.mpr ⟨1, Finset.mem_univ _, h.symm⟩))).trans (congrFun (Ent3_eq m hO c) b)

/-- The table's buffer at the entry contents is the table as launched. -/
theorem pref3_eq (c : Dev nD) :
    (Pipeline.prefHeld (Ix := Unit) (Name := ℕ) (U := UR sig nD τ) (Lvl := ℕ) (pcfgs (F := F) 3).pre c (fun _ => fullShare)
        (fun k => atTc (Ein3 m hO) c ((pcfgs (F := F) 3).pre.ref k)) : sProp 𝕄)
      = Pipeline.prefHeld (pcfgs (F := F) 3).pre c (fun _ => fullShare) (adm m hO 3).1 := by
  show (Pipeline.prefHeld pre3 c (fun _ => fullShare) (fun k => atTc (Ein3 m hO) c (pre3.ref k)) : sProp 𝕄)
      = Pipeline.prefHeld pre3 c (fun _ => fullShare) (a3 m hO).1
  rw [show (fun k => atTc (Ein3 m hO) c (pre3.ref k)) = tbl3 m from V7_tbl3 m hO c]

set_option backward.isDefEq.respectTransparency.types false in
/-- REGION 1 over the thread state. -/
def reg3 : Pipeline.RegionSeg (pcfgs (F := F)) (adm m hO) (pdats m hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (a3 m hO) (atTc (Ein3 m hO)) c).loose
  hwaits := Pipeline.hwaits_of_owed_zero _ _ _ _ L lv 3 fun _ _ => rfl
  pre c := iprop(StableHlo.held (c : Thread nD τ) (Pipeline.ucRefs τ sig) (V7 m (outs m hO) c) ∗ Rr c)
  post c := iprop(StableHlo.held (c : Thread nD τ) (Pipeline.ucRefs τ sig) (Ext3 m hO c) ∗ Rr c)
  X c := iprop(∃ r, prngReg c r)
  Y c := iprop((∃ r, prngReg c r) ∗ Pipeline.prefHeld (Ix := Unit) (Name := ℕ) (U := UR sig nD τ) (Lvl := ℕ) pre3 c (fun _ => fullShare) (a3 m hO).1)
  Z c := Pipeline.unscopedRestP (Ix := Unit) (Name := ℕ) (U := UR sig nD τ) (Lvl := ℕ) pre3 spec3 c (atTc (Ein3 m hO) c)
  hentry c := by
    rw [Pipeline.ownSems0_none, Ent3_eq m hO c]
    have hsplit := Pipeline.arrays_of_unscopedBufs (p := 3) (pcfgs (F := F)) (adm m hO) (pdats m hO) (launch3 (F := F)).win (launch3 (F := F)).arr_whole c
      ((pdats m hO 3 c).share_full fun _ => rfl) (atTc (Ein3 m hO) c) fun _ => rfl
    rw [Pipeline.unscopedBufs_held, Pipeline.unscopedRest_split (launch3 (F := F)).pre c (atTc (Ein3 m hO) c), pref3_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 3 c).Φ 0 = Phi3 (a3 m hO) c from rfl]; unfold Phi3 Pipeline.ΦA
    iintro ⟨Hp, Ht, Hr⟩
    isplitr [Ht]
    · isplitl [Hr]; · iexact Hr
      iexact Hp
    iexact Ht
  hout c := by
    rw [Pipeline.ownSems0_none, show (pdats m hO 3 c).Φ (Fin.last _) = Phi3 (a3 m hO) c from rfl]; unfold Phi3 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m hO) (Ix := Unit) (Name := ℕ) (U := UR sig nD τ) (Lvl := ℕ)
      (launch3 (F := F)).win (launch3 (F := F)).arr_whole c (pdats m hO) ((pdats m hO 3 c).share_full fun _ => rfl)
      (atTc (Ein3 m hO) c) (atTc (Ext3 m hO) c) ((pdats m hO 3 c).arrAt · (cfg3 (a3 m hO)).N) (hF3 m hO c) (hrest3 m hO c)
    rw [Pipeline.unscopedBufs_held, Pipeline.unscopedRest_split (launch3 (F := F)).pre c (atTc (Ein3 m hO) c), pref3_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KernelFrame.Run.lean ====
/-
  The program's run: from any launch memory whose index tables name rows inside their tables, every weakly fair
  execution of the program ends, without a fault, with every unscoped buffer of the core at the contents obtained by
  pushing the launch contents through the host operations and the four regions in order.  In particular the eight
  argument arrays end as launched, and the three results end at the last host operations' values of what the regions left.

  The program is a list of nine items: five stretches of host operations and the four regions between them.  Each item is
  entered from the contents the one before it left; the regions' records are those of the four region modules.
-/
import proofs.«425184_j69441031242585_3_alg».proof.Proof.KernelFrame.Setup
import proofs.«425184_j69441031242585_3_alg».proof.Proof.KernelFrame.Reg0
import proofs.«425184_j69441031242585_3_alg».proof.Proof.KernelFrame.Reg1
import proofs.«425184_j69441031242585_3_alg».proof.Proof.KernelFrame.Reg2
import proofs.«425184_j69441031242585_3_alg».proof.Proof.KernelFrame.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

open Idealize.ShloMosaic.Pipeline (Seg HostSeg RegionSeg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The rest state carried through every item. -/
abbrev Erest : Fin 5 → Dev nD → sProp 𝕄 := fun _ c => Rr c

set_option backward.isDefEq.respectTransparency.types false in
/-- THE RUN: every unscoped buffer ends at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m hO) c b) := by
  refine Pipeline.θ_run_regions_kit_dev (pcfgs (F := F)) (adm m hO) (pdats m hO) () (cellOf_inj (adm m hO)) emb₁ defs₀ 𝒱₀ L lv m ρ main
    (segs m (outs m hO) 𝒱₀ L lv (Erest (F := F)) () (adm m hO) (pdats m hO) (reg0 m hO) (reg1 m hO) (reg2 m hO) (reg3 m hO))
    (fun c Q => by
      rewrite [main_chain c, Seg.run_eq_chain,
        show (segs m (outs m hO) 𝒱₀ L lv (Erest (F := F)) () (adm m hO) (pdats m hO) (reg0 m hO) (reg1 m hO) (reg2 m hO) (reg3 m hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V9 m (outs m hO) c) ∗ ∃ r, prngReg c r))
    (hch := fun c => ⟨.rfl, .rfl, .rfl, .rfl, .rfl, .rfl, .rfl, .rfl, .rfl,
      (show (iprop(StableHlo.held (c : Thread nD τ) (Pipeline.ucRefs τ sig) (V9 m (outs m hO) c) ∗ Rr c) : sProp 𝕄)
          ⊢ iprop((StableHlo.held (c : Thread nD τ) (Pipeline.ucRefs τ sig) (V9 m (outs m hO) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m hO) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m hO) c) s')
      isplitl [Hh] <;> iassumption)
    (hQ := fun s h c => h c)

/-- THE FRAME and THE RESULTS: the eight arguments end as launched; each result ends at the last contents. -/
theorem run_main (ρ : Dev nD → PrngReg) :
    θ_run defs (onTc (τ := τ) (main (F := F))) ⟨m, fun _ => 0, ρ⟩ (fun r => ∀ c : Dev nD,
      r.2.mem ((c.tc : Thread nD τ).loc main_v45) = V9 m (outs m hO) c main_v45
      ∧ r.2.mem ((c.tc : Thread nD τ).loc main_v48) = V9 m (outs m hO) c main_v48
      ∧ r.2.mem ((c.tc : Thread nD τ).loc main_v51) = V9 m (outs m hO) c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v45 (by decide)), h c _ (mem_uc main_v48 (by decide)), h c _ (mem_uc main_v51 (by decide)),
      (h c _ (mem_uc main_arg0 (by decide))).trans (V9_main_arg0 m _ c), (h c _ (mem_uc main_arg1 (by decide))).trans (V9_main_arg1 m _ c),
      (h c _ (mem_uc main_arg2 (by decide))).trans (V9_main_arg2 m _ c), (h c _ (mem_uc main_arg3 (by decide))).trans (V9_main_arg3 m _ c),
      (h c _ (mem_uc main_arg4 (by decide))).trans (V9_main_arg4 m _ c), (h c _ (mem_uc main_arg5 (by decide))).trans (V9_main_arg5 m _ c),
      (h c _ (mem_uc main_arg6 (by decide))).trans (V9_main_arg6 m _ c), (h c _ (mem_uc main_arg7 (by decide))).trans (V9_main_arg7 m _ c)⟩)
    (run_all m hO ρ)

include hO in
/-- The frame claim's post alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2.2.2) (run_main m hO ρ)

end Cert.Kernel.Hand

end
-- ==== Proof.KernelIdealFrame.Region0.lean ====
/-
  Region 0 of the program: the accumulate-and-mean kernel on a grid of 25 row blocks.

  At grid point t the kernel is handed rows [6000 t, 6000 (t + 1)) of four [150000, 64] arrays (the concatenated
  embeddings and the three propagated layers) and stores, into the same rows of the result, the entrywise value
  (((x0 + x1) + x2) + x3) * (1/4).  This module states, at any contents `V` of the core's buffers when the region is
  entered: the block of each input array at a point, what the one store leaves in the result's staging buffer as a
  function of the four input blocks, that the kernel body run on staging buffers holding the input blocks ends with
  that value in the result's buffer, and the pipeline's proof data and body obligation built from these.
-/
import proofs.«425184_j69441031242585_3_alg».proof.Proof.Gen.KernelIdeal.Launch
import proofs.«425184_j69441031242585_3_alg».proof.Proof.Gen.KernelIdeal.Skeleton
import proofs.«425184_j69441031242585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: rows [6000 t, 6000 (t + 1)) of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there, for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there, for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [6000, 64] buffer -/

abbrev r0_0 : Rect S6000x64 := Rect.unit (s := S6000x64) ![0, 0] S6000x64.size inb_S6000x64_S6000x64_0_0

/-! ## What the body leaves in the result's buffer -/

/-- The result's staging buffer after the body, from the four input blocks: its one store. -/
def out0_4 (x0 x1 x2 x3 : Vec F S6000x64 .f32) : Vec F S6000x64 .f32 :=
  View.canon [⟨r0_0, k0_pay1 (View.ld x0 r0_0) (View.ld x1 r0_0) (View.ld x2 r0_0) (View.ld x3 r0_0)⟩]

/-- The one store covers the buffer. -/
theorem cover0_4 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-! ## The body's triple -/

set_option maxHeartbeats 1000000 in
/-- The kernel body on whole staging buffers, the four inputs' at contents `x0 … x3` and the result's at anything, runs
    to the continuation holding the inputs' as they were and the result's at `out0_4 x0 x1 x2 x3`. -/
theorem sound_kernel0 (c : Dev nD) (E : Set ℕ) (i : grid0.Coords)
    (arg1 : Memref sig .tc .vmem S6000x64 .f32) (harg1 : arg1.IsWhole) (arg2 : Memref sig .tc .vmem S6000x64 .f32) (harg2 : arg2.IsWhole)
    (arg3 : Memref sig .tc .vmem S6000x64 .f32) (harg3 : arg3.IsWhole) (arg4 : Memref sig .tc .vmem S6000x64 .f32) (harg4 : arg4.IsWhole)
    (arg5 : Memref sig .tc .vmem S6000x64 .f32) (harg5 : arg5.IsWhole)
    (x0 x1 x2 x3 : Vec F S6000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__accum_mean_kernel i arg1 harg1 arg2 harg2 arg3 harg3 arg4 harg4 arg5 harg5) K := by
  simp only [cc0__accum_mean_kernel_eq_skeleton]; unfold cc0__accum_mean_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and the result's at `out0_4` of the four input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealFrame.Region1.lean ====
/-
  Region 1 of the program: the first row gather, on a grid of 4096 points, its index table prefetched.

  At grid point t the pipeline fetches row `tbl[t]` of a [100000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.KernelIdeal.Launch
import proofs.«425184_j69441031242585_3_alg».proof.Proof.Gen.KernelIdeal.Skeleton
import proofs.«425184_j69441031242585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg1 (F := F)).Adm)
variable (V : (c : Dev nD) → (b : Ref sig .tc) → Buf (Elt F) ((c : Thread nD τ).loc b))

/-! ## The schedule's names at the contents `a` -/

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_arg5) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

/-! ## The windows' blocks -/

/-- Window `w`'s block at point `t`, read off its array as the region finds it; for the input window, the table row the
    table's word at `t` names. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's current staging buffer holds its block at every point, whether or not the pipeline fetched it
    there (two consecutive points naming the same row fetch once), for any proof data whose array is `V`'s and whose
    body leaves the block in place. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one access rectangle: the whole [1, 1, 64] buffer -/

abbrev r1_0 : Rect S1x1x64 := Rect.unit (s := S1x1x64) ![0, 0, 0] S1x1x64.size inb_S1x1x64_S1x1x64_0_0_0

/-! ## What the body leaves in the result's buffer -/

/-- The result's staging buffer after the body, from the input block: its one store. -/
def out1_1 (x0 : Vec F S1x1x64 .f32) : Vec F S1x1x64 .f32 :=
  View.canon [⟨r1_0, k1_pay1 (View.ld x0 r1_0)⟩]

/-- The one store covers the buffer. -/
theorem cover1_1 (p0 : Vec F S1x1x64 .f32) (y : S1x1x64.Idx) :
    ∃ pc ∈ ([⟨r1_0, p0⟩] : List (View.Piece (Elt F) S1x1x64 .f32)), y ∈ pc.1.set :=
  View.cover_of_tiled [⟨r1_0, p0⟩] S1x1x64.size (by rfl) y

/-! ## The body's triple -/

set_option maxHeartbeats 1000000 in
/-- The kernel body on whole staging buffers, the input's at contents `x0` and the result's at anything, runs to the
    continuation holding the input's as it was and the result's at `out1_1 x0`; the table it is handed is not touched. -/
theorem sound_kernel1 (c : Dev nD) (E : Set ℕ) (i : grid1.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The region's invariant: the scoped rest and the generator register, untouched, beside the prefetched table's
    buffer, whole, at the contents `a`. -/
abbrev Phi1 (c : Dev nD) : sProp 𝕄 :=
  iprop(Pipeline.ΦA spec1 c ∗ Pipeline.prefHeld (Ix := Unit) (Name := ℕ) (U := UR sig nD τ) (Lvl := ℕ) pre1 c (fun _ => fullShare) a.1)

/-- The proof data of pipeline 1 on core `c`, at the table's contents `a`: the arrays as the region finds them; after
    the body at point `t` the input's buffer at its block and the result's at `out1_1` of it; the invariant `Phi1`;
    nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => out1_1 (iblk1 a V c 0 t)
  Φ _ := Phi1 a c
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = out1_1 (iblk1 a V c 0 t) := by dsimp only [dat1]; rfl

theorem before1_0 (c : Dev nD) (t : Fin (cfg1 a).N) (d) : (dat1 a V c).before 0 t d = iblk1 a V c 0 t :=
  before1_0_of a V (dat1 a V c) (A_eq1 a V c 0) (after1_0 a V c) t d

/-! ## The body obligation, at a generic point -/

/-- What the body is called with at point `t`, the windows one by one, -/
def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d)))

/-- and what it returns. -/
def bodyPost1 (c : Dev nD) (t : Fin (cfg1 a).N) : sProp 𝕄 :=
  iprop((dat1 a V c).Φ t.succ ∗ (dat1 a V c).owesAt () t.succ
    ∗ owns (c : Thread nD τ) (st1_0 a t) fullShare ((dat1 a V c).after 0 t)
    ∗ owns (c : Thread nD τ) (st1_1 a t) fullShare ((dat1 a V c).after 1 t))

/-- The body at any point: the input's buffer holds its block, so `sound_kernel1` applies; the invariant and the core's
    dues pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1]
  iintro ⟨HΦ, Ho, ⟨%d0, H0⟩, ⟨%d1, H1⟩⟩
  iapply (sound_kernel1 c Set.univ _ _ _ _ _ _ _ (iblk1 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) a V c) (defs₀ (F := F)) Variants.none () Set.univ := fun t => by
  rw [bigSep_W1, bigSep_W1]
  exact sound_body1 a V c t

end Cert.KernelIdeal.Hand

end
-- ==== Proof.KernelIdealFrame.Region2.lean ====
/-
  Region 2 of the program: the second row gather, on a grid of 4096 points, its index table prefetched.

  At grid point t the pipeline fetches row `tbl[t]` of a [50000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.KernelIdeal.Launch
import proofs.«425184_j69441031242585_3_alg».proof.Proof.Gen.KernelIdeal.Skeleton
import proofs.«425184_j69441031242585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg2 (F := F)).Adm)
variable (V : (c : Dev nD) → (b : Ref sig .tc) → Buf (Elt F) ((c : Thread nD τ).loc b))

/-! ## The schedule's names at the contents `a` -/

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_arg6) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1))

/-! ## The windows' blocks -/

/-- Window `w`'s block at point `t`, read off its array as the region finds it; for the input window, the table row the
    table's word at `t` names. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The input window's current staging buffer holds its block at every point, whether or not the pipeline fetched it
    there (two consecutive points naming the same row fetch once), for any proof data whose array is `V`'s and whose
    body leaves the block in place. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 a V c 0 t) (t : Fin (cfg2 a).N) (d) : dat.before 0 t d = iblk2 a V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's one access rectangle: the whole [1, 1, 64] buffer -/

abbrev r2_0 : Rect S1x1x64 := Rect.unit (s := S1x1x64) ![0, 0, 0] S1x1x64.size inb_S1x1x64_S1x1x64_0_0_0

/-! ## What the body leaves in the result's buffer -/

/-- The result's staging buffer after the body, from the input block: its one store. -/
def out2_1 (x0 : Vec F S1x1x64 .f32) : Vec F S1x1x64 .f32 :=
  View.canon [⟨r2_0, k2_pay1 (View.ld x0 r2_0)⟩]

/-- The one store covers the buffer. -/
theorem cover2_1 (p0 : Vec F S1x1x64 .f32) (y : S1x1x64.Idx) :
    ∃ pc ∈ ([⟨r2_0, p0⟩] : List (View.Piece (Elt F) S1x1x64 .f32)), y ∈ pc.1.set :=
  View.cover_of_tiled [⟨r2_0, p0⟩] S1x1x64.size (by rfl) y

/-! ## The body's triple -/

set_option maxHeartbeats 1000000 in
/-- The kernel body on whole staging buffers, the input's at contents `x0` and the result's at anything, runs to the
    continuation holding the input's as it was and the result's at `out2_1 x0`; the table it is handed is not touched. -/
theorem sound_kernel2 (c : Dev nD) (E : Set ℕ) (i : grid2.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The region's invariant: the scoped rest and the generator register, untouched, beside the prefetched table's
    buffer, whole, at the contents `a`. -/
abbrev Phi2 (c : Dev nD) : sProp 𝕄 :=
  iprop(Pipeline.ΦA spec2 c ∗ Pipeline.prefHeld (Ix := Unit) (Name := ℕ) (U := UR sig nD τ) (Lvl := ℕ) pre2 c (fun _ => fullShare) a.1)

/-- The proof data of pipeline 2 on core `c`, at the table's contents `a`: the arrays as the region finds them; after
    the body at point `t` the input's buffer at its block and the result's at `out2_1` of it; the invariant `Phi2`;
    nothing owed; full shares. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => out2_1 (iblk2 a V c 0 t)
  Φ _ := Phi2 a c
  q _ := fullShare
  owed _ := 0

theorem A_eq2 (c : Dev nD) (w : Fin (cfg2 a).W) : (dat2 a V c).A w = V c (Pipeline.arrRef spec2 w) := by
  dsimp only [dat2]

theorem after2_0 (c : Dev nD) (t : Fin (cfg2 a).N) : (dat2 a V c).after 0 t = iblk2 a V c 0 t := by dsimp only [dat2]; rfl
theorem after2_1 (c : Dev nD) (t : Fin (cfg2 a).N) : (dat2 a V c).after 1 t = out2_1 (iblk2 a V c 0 t) := by dsimp only [dat2]; rfl

theorem before2_0 (c : Dev nD) (t : Fin (cfg2 a).N) (d) : (dat2 a V c).before 0 t d = iblk2 a V c 0 t :=
  before2_0_of a V (dat2 a V c) (A_eq2 a V c 0) (after2_0 a V c) t d

/-! ## The body obligation, at a generic point -/

/-- What the body is called with at point `t`, the windows one by one, -/
def bodyPre2 (c : Dev nD) (t : Fin (cfg2 a).N) : sProp 𝕄 :=
  iprop((dat2 a V c).Φ t.castSucc ∗ (dat2 a V c).owesAt () t.castSucc
    ∗ (∃ d, owns (c : Thread nD τ) (st2_0 a t) fullShare ((dat2 a V c).before 0 t d))
    ∗ (∃ d, owns (c : Thread nD τ) (st2_1 a t) fullShare ((dat2 a V c).before 1 t d)))

/-- and what it returns. -/
def bodyPost2 (c : Dev nD) (t : Fin (cfg2 a).N) : sProp 𝕄 :=
  iprop((dat2 a V c).Φ t.succ ∗ (dat2 a V c).owesAt () t.succ
    ∗ owns (c : Thread nD τ) (st2_0 a t) fullShare ((dat2 a V c).after 0 t)
    ∗ owns (c : Thread nD τ) (st2_1 a t) fullShare ((dat2 a V c).after 1 t))

/-- The body at any point: the input's buffer holds its block, so `sound_kernel2` applies; the invariant and the core's
    dues pass through unread. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [before2_0]
  rw [show (dat2 a V c).Φ t.succ = (dat2 a V c).Φ t.castSucc from rfl,
    show (dat2 a V c).owesAt () t.succ = (dat2 a V c).owesAt () t.castSucc from rfl,
    after2_0, after2_1]
  iintro ⟨HΦ, Ho, ⟨%d0, H0⟩, ⟨%d1, H1⟩⟩
  iapply (sound_kernel2 c Set.univ _ _ _ _ _ _ _ (iblk2 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) a V c) (defs₀ (F := F)) Variants.none () Set.univ := fun t => by
  rw [bigSep_W2, bigSep_W2]
  exact sound_body2 a V c t

end Cert.KernelIdeal.Hand

end
-- ==== Proof.KernelIdealFrame.Region3.lean ====
/-
  Region 3 of the program: the third row gather, on a grid of 4096 points, its index table prefetched.

  At grid point t the pipeline fetches row `tbl[t]` of a [50000, 1, 64] table (the block index of the input window
  is the table's word at t) and the kernel copies that [1, 1, 64] block into block t of the [4096, 1, 64] result.
  Everything here is stated at ANY admissible contents `a` of the prefetched table (contents at which every fetched
  block lies inside the table) and at any contents `V` of the core's buffers when the region is entered: the input
  window's block at a point, what the one store leaves in the result's staging buffer, that the kernel body run on a
  staging buffer holding the input block ends with that block in the result's buffer, and the pipeline's proof data and
  body obligation built from these.  The kernel body is handed the table but never reads it; the table's buffer rides
  in the region's invariant, whole.
-/
import proofs.«425184_j69441031242585_3_alg».proof.Proof.Gen.KernelIdeal.Launch
import proofs.«425184_j69441031242585_3_alg».proof.Proof.Gen.KernelIdeal.Skeleton
import proofs.«425184_j69441031242585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- admissible contents of the prefetched table, and the core's buffer contents when the region is entered
variable (a : (pcfg3 (F := F)).Adm)
variable (V : (c : Dev nD) → (b : Ref sig .tc) → Buf (Elt F) ((c : Thread nD τ).loc b))

/-! ## The schedule's names at the contents `a` -/

/-- The current staging memref of each window at point `t`. -/
abbrev st3_0 (t : Fin (cfg3 a).N) := ((cfg3 a).win 0).stage ((cfg3 a).slots t 0)
abbrev st3_1 (t : Fin (cfg3 a).N) := ((cfg3 a).win 1).stage ((cfg3 a).slots t 1)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_arg7) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1))

/-! ## The windows' blocks -/

/-- Window `w`'s block at point `t`, read off its array as the region finds it; for the input window, the table row the
    table's word at `t` names. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- The input window's current staging buffer holds its block at every point, whether or not the pipeline fetched it
    there (two consecutive points naming the same row fetch once), for any proof data whose array is `V`'s and whose
    body leaves the block in place. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's one access rectangle: the whole [1, 1, 64] buffer -/

abbrev r3_0 : Rect S1x1x64 := Rect.unit (s := S1x1x64) ![0, 0, 0] S1x1x64.size inb_S1x1x64_S1x1x64_0_0_0

/-! ## What the body leaves in the result's buffer -/

/-- The result's staging buffer after the body, from the input block: its one store. -/
def out3_1 (x0 : Vec F S1x1x64 .f32) : Vec F S1x1x64 .f32 :=
  View.canon [⟨r3_0, k3_pay1 (View.ld x0 r3_0)⟩]

/-- The one store covers the buffer. -/
theorem cover3_1 (p0 : Vec F S1x1x64 .f32) (y : S1x1x64.Idx) :
    ∃ pc ∈ ([⟨r3_0, p0⟩] : List (View.Piece (Elt F) S1x1x64 .f32)), y ∈ pc.1.set :=
  View.cover_of_tiled [⟨r3_0, p0⟩] S1x1x64.size (by rfl) y

/-! ## The body's triple -/

set_option maxHeartbeats 1000000 in
/-- The kernel body on whole staging buffers, the input's at contents `x0` and the result's at anything, runs to the
    continuation holding the input's as it was and the result's at `out3_1 x0`; the table it is handed is not touched. -/
theorem sound_kernel3 (c : Dev nD) (E : Set ℕ) (i : grid3.Coords)
    (arg1 : Memref sig .tc .smem S4096 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The region's invariant: the scoped rest and the generator register, untouched, beside the prefetched table's
    buffer, whole, at the contents `a`. -/
abbrev Phi3 (c : Dev nD) : sProp 𝕄 :=
  iprop(Pipeline.ΦA spec3 c ∗ Pipeline.prefHeld (Ix := Unit) (Name := ℕ) (U := UR sig nD τ) (Lvl := ℕ) pre3 c (fun _ => fullShare) a.1)

/-- The proof data of pipeline 3 on core `c`, at the table's contents `a`: the arrays as the region finds them; after
    the body at point `t` the input's buffer at its block and the result's at `out3_1` of it; the invariant `Phi3`;
    nothing owed; full shares. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => out3_1 (iblk3 a V c 0 t)
  Φ _ := Phi3 a c
  q _ := fullShare
  owed _ := 0

theorem A_eq3 (c : Dev nD) (w : Fin (cfg3 a).W) : (dat3 a V c).A w = V c (Pipeline.arrRef spec3 w) := by
  dsimp only [dat3]

theorem after3_0 (c : Dev nD) (t : Fin (cfg3 a).N) : (dat3 a V c).after 0 t = iblk3 a V c 0 t := by dsimp only [dat3]; rfl
theorem after3_1 (c : Dev nD) (t : Fin (cfg3 a).N) : (dat3 a V c).after 1 t = out3_1 (iblk3 a V c 0 t) := by dsimp only [dat3]; rfl

theorem before3_0 (c : Dev nD) (t : Fin (cfg3 a).N) (d) : (dat3 a V c).before 0 t d = iblk3 a V c 0 t :=
  before3_0_of a V (dat3 a V c) (A_eq3 a V c 0) (after3_0 a V c) t d

/-! ## The body obligation, at a generic point -/

/-- What the body is called with at point `t`, the windows one by one, -/
def bodyPre3 (c : Dev nD) (t : Fin (cfg3 a).N) : sProp 𝕄 :=
  iprop((dat3 a V c).Φ t.castSucc ∗ (dat3 a V c).owesAt () t.castSucc
    ∗ (∃ d, owns (c : Thread nD τ) (st3_0 a t) fullShare ((dat3 a V c).before 0 t d))
    ∗ (∃ d, owns (c : Thread nD τ) (st3_1 a t) fullShare ((dat3 a V c).before 1 t d)))

/-- and what it returns. -/
def bodyPost3 (c : Dev nD) (t : Fin (cfg3 a).N) : sProp 𝕄 :=
  iprop((dat3 a V c).Φ t.succ ∗ (dat3 a V c).owesAt () t.succ
    ∗ owns (c : Thread nD τ) (st3_0 a t) fullShare ((dat3 a V c).after 0 t)
    ∗ owns (c : Thread nD τ) (st3_1 a t) fullShare ((dat3 a V c).after 1 t))

/-- The body at any point: the input's buffer holds its block, so `sound_kernel3` applies; the invariant and the core's
    dues pass through unread. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [before3_0]
  rw [show (dat3 a V c).Φ t.succ = (dat3 a V c).Φ t.castSucc from rfl,
    show (dat3 a V c).owesAt () t.succ = (dat3 a V c).owesAt () t.castSucc from rfl,
    after3_0, after3_1]
  iintro ⟨HΦ, Ho, ⟨%d0, H0⟩, ⟨%d1, H1⟩⟩
  iapply (sound_kernel3 c Set.univ _ _ _ _ _ _ _ (iblk3 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) a V c) (defs₀ (F := F)) Variants.none () Set.univ := fun t => by
  rw [bigSep_W3, bigSep_W3]
  exact sound_body3 a V c t

end Cert.KernelIdeal.Hand

end
-- ==== Proof.KernelIdealFrame.Setup.lean ====
/-
  What the four regions' segment records share.

  The prefetched index tables are read off the launch memory (no host operation and no region writes them), and the
  hypothesis `Oks` says each table's words name rows inside the table its gather reads.  The contents of the core's
  buffers between two items of the program are the launch contents pushed through the host operations, with each
  region's result array replaced by what that region's proof data computes: region 0's result after its 25 write-backs
  (`o2`), then each gather's result after its 4096 write-backs (`o4`, `o6`, `o8`), each defined over the contents
  the regions before it left.  The proof-data family lists the four regions' data at those contents.
-/
import proofs.«425184_j69441031242585_3_alg».proof.Proof.Gen.KernelIdeal.Regions
import proofs.«425184_j69441031242585_3_alg».proof.Proof.KernelIdealFrame.Region0
import proofs.«425184_j69441031242585_3_alg».proof.Proof.KernelIdealFrame.Region1
import proofs.«425184_j69441031242585_3_alg».proof.Proof.KernelIdealFrame.Region2
import proofs.«425184_j69441031242585_3_alg».proof.Proof.KernelIdealFrame.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The prefetched tables -/

/-- Each gather's index table as launched (the program runs on one device). -/
def tbl1 : pre1.Contents (Elt F) := fun j => m (((0 : Dev nD) : Thread nD τ).loc (pre1.ref j))
def tbl2 : pre2.Contents (Elt F) := fun j => m (((0 : Dev nD) : Thread nD τ).loc (pre2.ref j))
def tbl3 : pre3.Contents (Elt F) := fun j => m (((0 : Dev nD) : Thread nD τ).loc (pre3.ref j))

/-- Every block a gather fetches lies inside its table. -/
def Oks : Prop := ok1 (F := F) (tbl1 m) ∧ ok2 (F := F) (tbl2 m) ∧ ok3 (F := F) (tbl3 m)

variable (hO : Oks m)

/-- The tables' contents as admissible contents of each gather's pipeline. -/
abbrev a1 : (pcfg1 (F := F)).Adm := ⟨tbl1 m, hO.1⟩
abbrev a2 : (pcfg2 (F := F)).Adm := ⟨tbl2 m, hO.2.1⟩
abbrev a3 : (pcfg3 (F := F)).Adm := ⟨tbl3 m, hO.2.2⟩

/-- The four pipelines' admissible contents (the first has no table). -/
abbrev adm : (p : Fin 4) → (pcfgs (F := F) p).Adm
  | ⟨0, _⟩ => cfg0.toPCfg_adm
  | ⟨1, _⟩ => a1 m hO
  | ⟨2, _⟩ => a2 m hO
  | ⟨3, _⟩ => a3 m hO

/-! ## What the regions leave, region by region -/

/-- A valuation read at the TensorCore's references. -/
abbrev atTc (W : Dev nD → Valuation τ sig (Elt F)) : (c : Dev nD) → (b : Ref sig .tc) → Buf (Elt F) ((c : Thread nD τ).loc b) :=
  fun c b => W c b

/-- Region 0's result array after its write-backs. -/
def o2 (c : Dev nD) : Buf (Elt F) ((c : Thread nD τ).loc main_v40) := (dat0 (atTc (V1 m)) c).arrAt 4 cfg0.N

/-- The unknowns with region 0's result filled in. -/
def outsA : Outs (F := F) := fun _ r c => if h : r = main_v40 then h ▸ o2 m c else m ((c : Thread nD τ).loc r)

/-- The first gather's result array after its write-backs. -/
def o4 (c : Dev nD) : Buf (Elt F) ((c : Thread nD τ).loc main_v44) := (dat1 (a1 m hO) (atTc (V3 m (outsA m))) c).arrAt 1 (cfg1 (a1 m hO)).N

def outsB : Outs (F := F) := fun _ r c =>
  if h : r = main_v40 then h ▸ o2 m c else if h : r = main_v44 then h ▸ o4 m hO c else m ((c : Thread nD τ).loc r)

/-- The second gather's result array after its write-backs. -/
def o6 (c : Dev nD) : Buf (Elt F) ((c : Thread nD τ).loc main_v47) := (dat2 (a2 m hO) (atTc (V5 m (outsB m hO))) c).arrAt 1 (cfg2 (a2 m hO)).N

def outsC : Outs (F := F) := fun _ r c =>
  if h : r = main_v40 then h ▸ o2 m c else if h : r = main_v44 then h ▸ o4 m hO c else if h : r = main_v47 then h ▸ o6 m hO c
  else m ((c : Thread nD τ).loc r)

/-- The third gather's result array after its write-backs. -/
def o8 (c : Dev nD) : Buf (Elt F) ((c : Thread nD τ).loc main_v50) := (dat3 (a3 m hO) (atTc (V7 m (outsC m hO))) c).arrAt 1 (cfg3 (a3 m hO)).N

/-- What every region leaves in the buffer it may change. -/
def outs : Outs (F := F) := fun _ r c =>
  if h : r = main_v40 then h ▸ o2 m c else if h : r = main_v44 then h ▸ o4 m hO c else if h : r = main_v47 then h ▸ o6 m hO c
  else if h : r = main_v50 then h ▸ o8 m hO c else m ((c : Thread nD τ).loc r)

theorem outs_v40 (J : ℕ) (c : Dev nD) : outs m hO J main_v40 c = o2 m c := by unfold outs; rw [dif_pos rfl]
theorem outs_v44 (J : ℕ) (c : Dev nD) : outs m hO J main_v44 c = o4 m hO c := by
  unfold outs; rw [dif_neg (by decide), dif_pos rfl]
theorem outs_v47 (J : ℕ) (c : Dev nD) : outs m hO J main_v47 c = o6 m hO c := by
  unfold outs; rw [dif_neg (by decide), dif_neg (by decide), dif_pos rfl]
theorem outs_v50 (J : ℕ) (c : Dev nD) : outs m hO J main_v50 c = o8 m hO c := by
  unfold outs; rw [dif_neg (by decide), dif_neg (by decide), dif_neg (by decide), dif_pos rfl]
theorem outsA_v40 (J : ℕ) (c : Dev nD) : outsA m J main_v40 c = o2 m c := by unfold outsA; rw [dif_pos rfl]
theorem outsB_v40 (J : ℕ) (c : Dev nD) : outsB m hO J main_v40 c = o2 m c := by unfold outsB; rw [dif_pos rfl]
theorem outsB_v44 (J : ℕ) (c : Dev nD) : outsB m hO J main_v44 c = o4 m hO c := by
  unfold outsB; rw [dif_neg (by decide), dif_pos rfl]
theorem outsC_v40 (J : ℕ) (c : Dev nD) : outsC m hO J main_v40 c = o2 m c := by unfold outsC; rw [dif_pos rfl]
theorem outsC_v44 (J : ℕ) (c : Dev nD) : outsC m hO J main_v44 c = o4 m hO c := by
  unfold outsC; rw [dif_neg (by decide), dif_pos rfl]
theorem outsC_v47 (J : ℕ) (c : Dev nD) : outsC m hO J main_v47 c = o6 m hO c := by
  unfold outsC; rw [dif_neg (by decide), dif_neg (by decide), dif_pos rfl]

/-- The contents before each gather do not depend on what later regions leave. -/
theorem V3_outs (c : Dev nD) : V3 m (outs m hO) c = V3 m (outsA m) c := by
  show StableHlo.after hostOps1 (Function.update (V1 m c) main_v40 (outs m hO 2 main_v40 c)) = StableHlo.after hostOps1 (Function.update (V1 m c) main_v40 (outsA m 2 main_v40 c))
  rw [outs_v40, outsA_v40]
theorem V3_outsB (c : Dev nD) : V3 m (outsB m hO) c = V3 m (outsA m) c := by
  show StableHlo.after hostOps1 (Function.update (V1 m c) main_v40 (outsB m hO 2 main_v40 c)) = StableHlo.after hostOps1 (Function.update (V1 m c) main_v40 (outsA m 2 main_v40 c))
  rw [outsB_v40, outsA_v40]
theorem V3_outsC (c : Dev nD) : V3 m (outsC m hO) c = V3 m (outsA m) c := by
  show StableHlo.after hostOps1 (Function.update (V1 m c) main_v40 (outsC m hO 2 main_v40 c)) = StableHlo.after hostOps1 (Function.update (V1 m c) main_v40 (outsA m 2 main_v40 c))
  rw [outsC_v40, outsA_v40]
theorem V5_outs (c : Dev nD) : V5 m (outs m hO) c = V5 m (outsB m hO) c := by
  show StableHlo.after hostOps2 (Function.update (V3 m (outs m hO) c) main_v44 (outs m hO 4 main_v44 c)) = StableHlo.after hostOps2 (Function.update (V3 m (outsB m hO) c) main_v44 (outsB m hO 4 main_v44 c))
  rw [V3_outs, V3_outsB, outs_v44, outsB_v44]
theorem V5_outsC (c : Dev nD) : V5 m (outsC m hO) c = V5 m (outsB m hO) c := by
  show StableHlo.after hostOps2 (Function.update (V3 m (outsC m hO) c) main_v44 (outsC m hO 4 main_v44 c)) = StableHlo.after hostOps2 (Function.update (V3 m (outsB m hO) c) main_v44 (outsB m hO 4 main_v44 c))
  rw [V3_outsC, V3_outsB, outsC_v44, outsB_v44]
theorem V7_outs (c : Dev nD) : V7 m (outs m hO) c = V7 m (outsC m hO) c := by
  show StableHlo.after hostOps3 (Function.update (V5 m (outs m hO) c) main_v47 (outs m hO 6 main_v47 c)) = StableHlo.after hostOps3 (Function.update (V5 m (outsC m hO) c) main_v47 (outsC m hO 6 main_v47 c))
  rw [V5_outs, V5_outsC, outs_v47, outsC_v47]

/-! ## The proof-data family -/

/-- Every pipeline's proof data, each at its region's entry contents. -/
def pdats : (p : Fin 4) → (c : Dev nD) → Dat τ (Elt F) Unit ℕ (UR sig nD τ) ℕ (Pipeline.pin (pcfgs (F := F)) (adm m hO) p) c
  | ⟨0, _⟩ => fun c => dat0 (atTc (V1 m)) c
  | ⟨1, _⟩ => fun c => dat1 (a1 m hO) (atTc (V3 m (outsA m))) c
  | ⟨2, _⟩ => fun c => dat2 (a2 m hO) (atTc (V5 m (outsB m hO))) c
  | ⟨3, _⟩ => fun c => dat3 (a3 m hO) (atTc (V7 m (outsC m hO))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev Rr (c : Dev nD) : sProp 𝕄 := iprop((∃ r, prngReg c r) ∗ ∃ W, owes (c : Thread nD τ) (0 : CellTallies nD τ sig Unit) W)

/-! ## The tables are as launched at every region's entry -/

theorem dev_eq (c : Dev nD) : c = 0 := Subsingleton.elim _ _

theorem V3_tbl1 (c : Dev nD) : (fun k => V3 m (outsA m) c (pre1.ref k)) = tbl1 m := by
  obtain rfl := dev_eq c
  funext k
  obtain rfl : k = 0 := Subsingleton.elim _ _
  exact (V3_of m _ 0 main_arg5 (by decide)).trans <| (V2_of m _ 0 main_arg5 (by decide)).trans <| (V1_of m 0 main_arg5 (by decide)).trans rfl
theorem V5_tbl2 (c : Dev nD) : (fun k => V5 m (outsB m hO) c (pre2.ref k)) = tbl2 m := by
  obtain rfl := dev_eq c
  funext k
  obtain rfl : k = 0 := Subsingleton.elim _ _
  exact (V5_of m _ 0 main_arg6 (by decide)).trans <| (V4_of m _ 0 main_arg6 (by decide)).trans <| (V3_of m _ 0 main_arg6 (by decide)).trans <|
    (V2_of m _ 0 main_arg6 (by decide)).trans <| (V1_of m 0 main_arg6 (by decide)).trans rfl
theorem V7_tbl3 (c : Dev nD) : (fun k => V7 m (outsC m hO) c (pre3.ref k)) = tbl3 m := by
  obtain rfl := dev_eq c
  funext k
  obtain rfl : k = 0 := Subsingleton.elim _ _
  exact (V7_of m _ 0 main_arg7 (by decide)).trans <| (V6_of m _ 0 main_arg7 (by decide)).trans <| (V5_of m _ 0 main_arg7 (by decide)).trans <|
    (V4_of m _ 0 main_arg7 (by decide)).trans <| (V3_of m _ 0 main_arg7 (by decide)).trans <| (V2_of m _ 0 main_arg7 (by decide)).trans <|
    (V1_of m 0 main_arg7 (by decide)).trans rfl

end Cert.KernelIdeal.Hand

end
-- ==== Proof.KernelIdealFrame.OksOfLt.lean ====
/-
  The index tables name rows inside their tables.

  A gather's input window fetches, at grid point t, the [1, 1, 64] block whose block index is (w, 0, 0), w the table's
  word at t read unsigned.  When every word of the users table is below 100000 and every word of the two items tables
  is below 50000, every such block lies inside the [100000, 1, 64] (respectively [50000, 1, 64]) table it is fetched
  from; the blocks are of a word-wide element type, so their transfers end on whole words.
-/
import proofs.«425184_j69441031242585_3_alg».proof.Proof.KernelIdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem ok1_of_lt (h : ∀ k, ((tbl1 m 0 : S4096.Idx → BitVec 32) k).toNat < 100000) : ok1 (F := F) (tbl1 m) := by
  intro i
  obtain ⟨w, hw, e⟩ : ∃ w : BitVec 32, w.toNat < 100000 ∧ cc1_transform_0 k1_off1_inb numel1_S1 (tbl1 m) i = ![w.toNat, 0, 0] :=
    ⟨_, h _, rfl⟩
  refine ⟨fun a => ?_, Or.inl rfl⟩
  rw [e]
  fin_cases a <;> simp [S1x1x64, S100000x1x64] <;> omega

theorem ok2_of_lt (h : ∀ k, ((tbl2 m 0 : S4096.Idx → BitVec 32) k).toNat < 50000) : ok2 (F := F) (tbl2 m) := by
  intro i
  obtain ⟨w, hw, e⟩ : ∃ w : BitVec 32, w.toNat < 50000 ∧ cc2_transform_0 k2_off1_inb numel1_S1 (tbl2 m) i = ![w.toNat, 0, 0] :=
    ⟨_, h _, rfl⟩
  refine ⟨fun a => ?_, Or.inl rfl⟩
  rw [e]
  fin_cases a <;> simp [S1x1x64, S50000x1x64] <;> omega

theorem ok3_of_lt (h : ∀ k, ((tbl3 m 0 : S4096.Idx → BitVec 32) k).toNat < 50000) : ok3 (F := F) (tbl3 m) := by
  intro i
  obtain ⟨w, hw, e⟩ : ∃ w : BitVec 32, w.toNat < 50000 ∧ cc3_transform_0 k3_off1_inb numel1_S1 (tbl3 m) i = ![w.toNat, 0, 0] :=
    ⟨_, h _, rfl⟩
  refine ⟨fun a => ?_, Or.inl rfl⟩
  rw [e]
  fin_cases a <;> simp [S1x1x64, S50000x1x64] <;> omega

/-- All three at once. -/
theorem oks_of_lt (h1 : ∀ k, ((tbl1 m 0 : S4096.Idx → BitVec 32) k).toNat < 100000)
    (h2 : ∀ k, ((tbl2 m 0 : S4096.Idx → BitVec 32) k).toNat < 50000)
    (h3 : ∀ k, ((tbl3 m 0 : S4096.Idx → BitVec 32) k).toNat < 50000) : Oks m :=
  ⟨ok1_of_lt m h1, ok2_of_lt m h2, ok3_of_lt m h3⟩

end Cert.KernelIdeal.Hand

end
-- ==== Proof.KernelIdealFrame.Reg0.lean ====
/-
  Region 0 (the accumulate-and-mean kernel) as a segment of the program.

  It is entered with every unscoped buffer of the core held at the contents the first stretch of host operations left
  and is left with them at the same contents but for the result array, which holds what the region's 25 write-backs
  leave.  At the entry the five windows' arrays are taken out of the held buffers; at the exit they are put back, the four
  inputs unchanged and the result at its final contents.  The generator register goes into the region's invariant and
  comes back; nothing is owed; the kernel has no semaphore of its own.
-/
import proofs.«425184_j69441031242585_3_alg».proof.Proof.KernelIdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The arrays of region 0 at its exit are the next contents' at those buffers. -/
theorem hF0 (c : Dev nD) (w : Fin cfg0.W) :
    (pdats m hO 0 c).arrAt w cfg0.N = atTc (V2 m (outs m hO)) c (Pipeline.arrRef spec0 w) := by
  match w with
  | ⟨0, _⟩ => exact (((dat0 (atTc (V1 m)) c).arrAt_in 0 rfl _).trans (A_eq0 _ c 0)).trans (V2_of m _ c main_v0 (by decide)).symm
  | ⟨1, _⟩ => exact (((dat0 (atTc (V1 m)) c).arrAt_in 1 rfl _).trans (A_eq0 _ c 1)).trans (V2_of m _ c main_v13 (by decide)).symm
  | ⟨2, _⟩ => exact (((dat0 (atTc (V1 m)) c).arrAt_in 2 rfl _).trans (A_eq0 _ c 2)).trans (V2_of m _ c main_v26 (by decide)).symm
  | ⟨3, _⟩ => exact (((dat0 (atTc (V1 m)) c).arrAt_in 3 rfl _).trans (A_eq0 _ c 3)).trans (V2_of m _ c main_v39 (by decide)).symm
  | ⟨4, _⟩ =>
    show (dat0 (atTc (V1 m)) c).arrAt 4 cfg0.N = Function.update (V1 m c) main_v40 (outs m hO 2 main_v40 c) main_v40
    rw [Function.update_self, outs_v40]; rfl

/-- Every other buffer is as at the entry. -/
theorem hrest0 (c : Dev nD) : ∀ b, b ∉ Finset.univ.image (Pipeline.arrRef spec0) → atTc (V2 m (outs m hO)) c b = atTc (V1 m) c b := fun b hb =>
  V2_of m _ c b (by
    intro h
    rw [List.mem_singleton] at h
    exact hb (Finset.mem_image.mpr ⟨4, Finset.mem_univ _, h.symm⟩))

set_option backward.isDefEq.respectTransparency.types false in
/-- REGION 0 over the thread state. -/
def reg0 : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m hO) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (atTc (V1 m) c) (atTc (V2 m (outs m hO)) c) ((pdats m hO 0 c).arrAt · cfg0.N) (hF0 m hO c) (hrest0 m hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdealFrame.Reg1.lean ====
/-
  Region 1 (the first row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelIdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein1 : Dev nD → Valuation τ sig (Elt F) := V3 m (outsA m)
abbrev Ext1 : Dev nD → Valuation τ sig (Elt F) := V4 m (outs m hO)
theorem Ent1_eq (c : Dev nD) : V3 m (outs m hO) c = Ein1 m c := V3_outs m hO c

/-- The arrays of region 1 at its exit are the next contents' at those buffers. -/
theorem hF1 (c : Dev nD) (w : Fin (cfg1 (a1 m hO)).W) :
    (pdats m hO 1 c).arrAt w (cfg1 (a1 m hO)).N = atTc (Ext1 m hO) c (Pipeline.arrRef spec1 w) := by
  match w with
  | ⟨0, _⟩ =>
    exact (((dat1 (a1 m hO) (atTc (Ein1 m)) c).arrAt_in 0 rfl _).trans (A_eq1 _ _ c 0)).trans
      ((V4_of m _ c main_v43 (by decide)).trans (congrFun (Ent1_eq m hO c) main_v43)).symm
  | ⟨1, _⟩ =>
    show (dat1 (a1 m hO) (atTc (Ein1 m)) c).arrAt 1 (cfg1 (a1 m hO)).N = Function.update (V3 m (outs m hO) c) main_v44 (outs m hO 4 main_v44 c) main_v44
    rw [Function.update_self, outs_v44]; rfl

/-- Every other buffer is as at the entry. -/
theorem hrest1 (c : Dev nD) : ∀ b, b ∉ Finset.univ.image (Pipeline.arrRef spec1) → atTc (Ext1 m hO) c b = atTc (Ein1 m) c b := fun b hb =>
  (V4_of m _ c b (by
    intro h
    rw [List.mem_singleton] at h
    exact hb (Finset.mem_image.mpr ⟨1, Finset.mem_univ _, h.symm⟩))).trans (congrFun (Ent1_eq m hO c) b)

/-- The table's buffer at the entry contents is the table as launched. -/
theorem pref1_eq (c : Dev nD) :
    (Pipeline.prefHeld (Ix := Unit) (Name := ℕ) (U := UR sig nD τ) (Lvl := ℕ) (pcfgs (F := F) 1).pre c (fun _ => fullShare)
        (fun k => atTc (Ein1 m) c ((pcfgs (F := F) 1).pre.ref k)) : sProp 𝕄)
      = Pipeline.prefHeld (pcfgs (F := F) 1).pre c (fun _ => fullShare) (adm m hO 1).1 := by
  show (Pipeline.prefHeld pre1 c (fun _ => fullShare) (fun k => atTc (Ein1 m) c (pre1.ref k)) : sProp 𝕄)
      = Pipeline.prefHeld pre1 c (fun _ => fullShare) (a1 m hO).1
  rw [show (fun k => atTc (Ein1 m) c (pre1.ref k)) = tbl1 m from V3_tbl1 m c]

set_option backward.isDefEq.respectTransparency.types false in
/-- REGION 1 over the thread state. -/
def reg1 : Pipeline.RegionSeg (pcfgs (F := F)) (adm m hO) (pdats m hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (a1 m hO) (atTc (Ein1 m)) c).loose
  hwaits := Pipeline.hwaits_of_owed_zero _ _ _ _ L lv 1 fun _ _ => rfl
  pre c := iprop(StableHlo.held (c : Thread nD τ) (Pipeline.ucRefs τ sig) (V3 m (outs m hO) c) ∗ Rr c)
  post c := iprop(StableHlo.held (c : Thread nD τ) (Pipeline.ucRefs τ sig) (Ext1 m hO c) ∗ Rr c)
  X c := iprop(∃ r, prngReg c r)
  Y c := iprop((∃ r, prngReg c r) ∗ Pipeline.prefHeld (Ix := Unit) (Name := ℕ) (U := UR sig nD τ) (Lvl := ℕ) pre1 c (fun _ => fullShare) (a1 m hO).1)
  Z c := Pipeline.unscopedRestP (Ix := Unit) (Name := ℕ) (U := UR sig nD τ) (Lvl := ℕ) pre1 spec1 c (atTc (Ein1 m) c)
  hentry c := by
    rw [Pipeline.ownSems0_none, Ent1_eq m hO c]
    have hsplit := Pipeline.arrays_of_unscopedBufs (p := 1) (pcfgs (F := F)) (adm m hO) (pdats m hO) (launch1 (F := F)).win (launch1 (F := F)).arr_whole c
      ((pdats m hO 1 c).share_full fun _ => rfl) (atTc (Ein1 m) c) fun _ => rfl
    rw [Pipeline.unscopedBufs_held, Pipeline.unscopedRest_split (launch1 (F := F)).pre c (atTc (Ein1 m) c), pref1_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = Phi1 (a1 m hO) c from rfl]; unfold Phi1 Pipeline.ΦA
    iintro ⟨Hp, Ht, Hr⟩
    isplitr [Ht]
    · isplitl [Hr]; · iexact Hr
      iexact Hp
    iexact Ht
  hout c := by
    rw [Pipeline.ownSems0_none, show (pdats m hO 1 c).Φ (Fin.last _) = Phi1 (a1 m hO) c from rfl]; unfold Phi1 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m hO) ((pdats m hO 1 c).share_full fun _ => rfl)
      (atTc (Ein1 m) c) (atTc (Ext1 m hO) c) ((pdats m hO 1 c).arrAt · (cfg1 (a1 m hO)).N) (hF1 m hO c) (hrest1 m hO c)
    rw [Pipeline.unscopedBufs_held, Pipeline.unscopedRest_split (launch1 (F := F)).pre c (atTc (Ein1 m) c), pref1_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KernelIdealFrame.Reg2.lean ====
/-
  Region 2 (the second row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelIdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein2 : Dev nD → Valuation τ sig (Elt F) := V5 m (outsB m hO)
abbrev Ext2 : Dev nD → Valuation τ sig (Elt F) := V6 m (outs m hO)
theorem Ent2_eq (c : Dev nD) : V5 m (outs m hO) c = Ein2 m hO c := V5_outs m hO c

/-- The arrays of region 1 at its exit are the next contents' at those buffers. -/
theorem hF2 (c : Dev nD) (w : Fin (cfg2 (a2 m hO)).W) :
    (pdats m hO 2 c).arrAt w (cfg2 (a2 m hO)).N = atTc (Ext2 m hO) c (Pipeline.arrRef spec2 w) := by
  match w with
  | ⟨0, _⟩ =>
    exact (((dat2 (a2 m hO) (atTc (Ein2 m hO)) c).arrAt_in 0 rfl _).trans (A_eq2 _ _ c 0)).trans
      ((V6_of m _ c main_v46 (by decide)).trans (congrFun (Ent2_eq m hO c) main_v46)).symm
  | ⟨1, _⟩ =>
    show (dat2 (a2 m hO) (atTc (Ein2 m hO)) c).arrAt 1 (cfg2 (a2 m hO)).N = Function.update (V5 m (outs m hO) c) main_v47 (outs m hO 6 main_v47 c) main_v47
    rw [Function.update_self, outs_v47]; rfl

/-- Every other buffer is as at the entry. -/
theorem hrest2 (c : Dev nD) : ∀ b, b ∉ Finset.univ.image (Pipeline.arrRef spec2) → atTc (Ext2 m hO) c b = atTc (Ein2 m hO) c b := fun b hb =>
  (V6_of m _ c b (by
    intro h
    rw [List.mem_singleton] at h
    exact hb (Finset.mem_image.mpr ⟨1, Finset.mem_univ _, h.symm⟩))).trans (congrFun (Ent2_eq m hO c) b)

/-- The table's buffer at the entry contents is the table as launched. -/
theorem pref2_eq (c : Dev nD) :
    (Pipeline.prefHeld (Ix := Unit) (Name := ℕ) (U := UR sig nD τ) (Lvl := ℕ) (pcfgs (F := F) 2).pre c (fun _ => fullShare)
        (fun k => atTc (Ein2 m hO) c ((pcfgs (F := F) 2).pre.ref k)) : sProp 𝕄)
      = Pipeline.prefHeld (pcfgs (F := F) 2).pre c (fun _ => fullShare) (adm m hO 2).1 := by
  show (Pipeline.prefHeld pre2 c (fun _ => fullShare) (fun k => atTc (Ein2 m hO) c (pre2.ref k)) : sProp 𝕄)
      = Pipeline.prefHeld pre2 c (fun _ => fullShare) (a2 m hO).1
  rw [show (fun k => atTc (Ein2 m hO) c (pre2.ref k)) = tbl2 m from V5_tbl2 m hO c]

set_option backward.isDefEq.respectTransparency.types false in
/-- REGION 1 over the thread state. -/
def reg2 : Pipeline.RegionSeg (pcfgs (F := F)) (adm m hO) (pdats m hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (a2 m hO) (atTc (Ein2 m hO)) c).loose
  hwaits := Pipeline.hwaits_of_owed_zero _ _ _ _ L lv 2 fun _ _ => rfl
  pre c := iprop(StableHlo.held (c : Thread nD τ) (Pipeline.ucRefs τ sig) (V5 m (outs m hO) c) ∗ Rr c)
  post c := iprop(StableHlo.held (c : Thread nD τ) (Pipeline.ucRefs τ sig) (Ext2 m hO c) ∗ Rr c)
  X c := iprop(∃ r, prngReg c r)
  Y c := iprop((∃ r, prngReg c r) ∗ Pipeline.prefHeld (Ix := Unit) (Name := ℕ) (U := UR sig nD τ) (Lvl := ℕ) pre2 c (fun _ => fullShare) (a2 m hO).1)
  Z c := Pipeline.unscopedRestP (Ix := Unit) (Name := ℕ) (U := UR sig nD τ) (Lvl := ℕ) pre2 spec2 c (atTc (Ein2 m hO) c)
  hentry c := by
    rw [Pipeline.ownSems0_none, Ent2_eq m hO c]
    have hsplit := Pipeline.arrays_of_unscopedBufs (p := 2) (pcfgs (F := F)) (adm m hO) (pdats m hO) (launch2 (F := F)).win (launch2 (F := F)).arr_whole c
      ((pdats m hO 2 c).share_full fun _ => rfl) (atTc (Ein2 m hO) c) fun _ => rfl
    rw [Pipeline.unscopedBufs_held, Pipeline.unscopedRest_split (launch2 (F := F)).pre c (atTc (Ein2 m hO) c), pref2_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 2 c).Φ 0 = Phi2 (a2 m hO) c from rfl]; unfold Phi2 Pipeline.ΦA
    iintro ⟨Hp, Ht, Hr⟩
    isplitr [Ht]
    · isplitl [Hr]; · iexact Hr
      iexact Hp
    iexact Ht
  hout c := by
    rw [Pipeline.ownSems0_none, show (pdats m hO 2 c).Φ (Fin.last _) = Phi2 (a2 m hO) c from rfl]; unfold Phi2 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m hO) ((pdats m hO 2 c).share_full fun _ => rfl)
      (atTc (Ein2 m hO) c) (atTc (Ext2 m hO) c) ((pdats m hO 2 c).arrAt · (cfg2 (a2 m hO)).N) (hF2 m hO c) (hrest2 m hO c)
    rw [Pipeline.unscopedBufs_held, Pipeline.unscopedRest_split (launch2 (F := F)).pre c (atTc (Ein2 m hO) c), pref2_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KernelIdealFrame.Reg3.lean ====
/-
  Region 3 (the third row gather) as a segment of the program.

  It is entered with every unscoped buffer of the core held at the contents the host operations before it left and is
  left with them at the same contents but for the result array, which holds what the region's 4096 write-backs leave.  At
  the entry the two windows' arrays and the prefetched table are taken out of the held buffers; the table, whole,
  goes into the region's invariant beside the generator register and comes back with it; at the exit the table rejoins
  the buffers that bypassed the region and the arrays are put back, the gathered table unchanged and the result at its
  final contents.  Nothing is owed; the kernel has no semaphore of its own.
-/
import proofs.«425184_j69441031242585_3_alg».proof.Proof.KernelIdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- The contents region 1 is entered from, as its proof data read them, and the contents it leaves. -/
abbrev Ein3 : Dev nD → Valuation τ sig (Elt F) := V7 m (outsC m hO)
abbrev Ext3 : Dev nD → Valuation τ sig (Elt F) := V8 m (outs m hO)
theorem Ent3_eq (c : Dev nD) : V7 m (outs m hO) c = Ein3 m hO c := V7_outs m hO c

/-- The arrays of region 1 at its exit are the next contents' at those buffers. -/
theorem hF3 (c : Dev nD) (w : Fin (cfg3 (a3 m hO)).W) :
    (pdats m hO 3 c).arrAt w (cfg3 (a3 m hO)).N = atTc (Ext3 m hO) c (Pipeline.arrRef spec3 w) := by
  match w with
  | ⟨0, _⟩ =>
    exact (((dat3 (a3 m hO) (atTc (Ein3 m hO)) c).arrAt_in 0 rfl _).trans (A_eq3 _ _ c 0)).trans
      ((V8_of m _ c main_v49 (by decide)).trans (congrFun (Ent3_eq m hO c) main_v49)).symm
  | ⟨1, _⟩ =>
    show (dat3 (a3 m hO) (atTc (Ein3 m hO)) c).arrAt 1 (cfg3 (a3 m hO)).N = Function.update (V7 m (outs m hO) c) main_v50 (outs m hO 8 main_v50 c) main_v50
    rw [Function.update_self, outs_v50]; rfl

/-- Every other buffer is as at the entry. -/
theorem hrest3 (c : Dev nD) : ∀ b, b ∉ Finset.univ.image (Pipeline.arrRef spec3) → atTc (Ext3 m hO) c b = atTc (Ein3 m hO) c b := fun b hb =>
  (V8_of m _ c b (by
    intro h
    rw [List.mem_singleton] at h
    exact hb (Finset.mem_image.mpr ⟨1, Finset.mem_univ _, h.symm⟩))).trans (congrFun (Ent3_eq m hO c) b)

/-- The table's buffer at the entry contents is the table as launched. -/
theorem pref3_eq (c : Dev nD) :
    (Pipeline.prefHeld (Ix := Unit) (Name := ℕ) (U := UR sig nD τ) (Lvl := ℕ) (pcfgs (F := F) 3).pre c (fun _ => fullShare)
        (fun k => atTc (Ein3 m hO) c ((pcfgs (F := F) 3).pre.ref k)) : sProp 𝕄)
      = Pipeline.prefHeld (pcfgs (F := F) 3).pre c (fun _ => fullShare) (adm m hO 3).1 := by
  show (Pipeline.prefHeld pre3 c (fun _ => fullShare) (fun k => atTc (Ein3 m hO) c (pre3.ref k)) : sProp 𝕄)
      = Pipeline.prefHeld pre3 c (fun _ => fullShare) (a3 m hO).1
  rw [show (fun k => atTc (Ein3 m hO) c (pre3.ref k)) = tbl3 m from V7_tbl3 m hO c]

set_option backward.isDefEq.respectTransparency.types false in
/-- REGION 1 over the thread state. -/
def reg3 : Pipeline.RegionSeg (pcfgs (F := F)) (adm m hO) (pdats m hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (a3 m hO) (atTc (Ein3 m hO)) c).loose
  hwaits := Pipeline.hwaits_of_owed_zero _ _ _ _ L lv 3 fun _ _ => rfl
  pre c := iprop(StableHlo.held (c : Thread nD τ) (Pipeline.ucRefs τ sig) (V7 m (outs m hO) c) ∗ Rr c)
  post c := iprop(StableHlo.held (c : Thread nD τ) (Pipeline.ucRefs τ sig) (Ext3 m hO c) ∗ Rr c)
  X c := iprop(∃ r, prngReg c r)
  Y c := iprop((∃ r, prngReg c r) ∗ Pipeline.prefHeld (Ix := Unit) (Name := ℕ) (U := UR sig nD τ) (Lvl := ℕ) pre3 c (fun _ => fullShare) (a3 m hO).1)
  Z c := Pipeline.unscopedRestP (Ix := Unit) (Name := ℕ) (U := UR sig nD τ) (Lvl := ℕ) pre3 spec3 c (atTc (Ein3 m hO) c)
  hentry c := by
    rw [Pipeline.ownSems0_none, Ent3_eq m hO c]
    have hsplit := Pipeline.arrays_of_unscopedBufs (p := 3) (pcfgs (F := F)) (adm m hO) (pdats m hO) (launch3 (F := F)).win (launch3 (F := F)).arr_whole c
      ((pdats m hO 3 c).share_full fun _ => rfl) (atTc (Ein3 m hO) c) fun _ => rfl
    rw [Pipeline.unscopedBufs_held, Pipeline.unscopedRest_split (launch3 (F := F)).pre c (atTc (Ein3 m hO) c), pref3_eq m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 3 c).Φ 0 = Phi3 (a3 m hO) c from rfl]; unfold Phi3 Pipeline.ΦA
    iintro ⟨Hp, Ht, Hr⟩
    isplitr [Ht]
    · isplitl [Hr]; · iexact Hr
      iexact Hp
    iexact Ht
  hout c := by
    rw [Pipeline.ownSems0_none, show (pdats m hO 3 c).Φ (Fin.last _) = Phi3 (a3 m hO) c from rfl]; unfold Phi3 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m hO) (Ix := Unit) (Name := ℕ) (U := UR sig nD τ) (Lvl := ℕ)
      (launch3 (F := F)).win (launch3 (F := F)).arr_whole c (pdats m hO) ((pdats m hO 3 c).share_full fun _ => rfl)
      (atTc (Ein3 m hO) c) (atTc (Ext3 m hO) c) ((pdats m hO 3 c).arrAt · (cfg3 (a3 m hO)).N) (hF3 m hO c) (hrest3 m hO c)
    rw [Pipeline.unscopedBufs_held, Pipeline.unscopedRest_split (launch3 (F := F)).pre c (atTc (Ein3 m hO) c), pref3_eq m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KernelIdealFrame.Run.lean ====
/-
  The program's run: from any launch memory whose index tables name rows inside their tables, every weakly fair
  execution of the program ends, without a fault, with every unscoped buffer of the core at the contents obtained by
  pushing the launch contents through the host operations and the four regions in order.  In particular the eight
  argument arrays end as launched, and the three results end at the last host operations' values of what the regions left.

  The program is a list of nine items: five stretches of host operations and the four regions between them.  Each item is
  entered from the contents the one before it left; the regions' records are those of the four region modules.
-/
import proofs.«425184_j69441031242585_3_alg».proof.Proof.KernelIdealFrame.Setup
import proofs.«425184_j69441031242585_3_alg».proof.Proof.KernelIdealFrame.Reg0
import proofs.«425184_j69441031242585_3_alg».proof.Proof.KernelIdealFrame.Reg1
import proofs.«425184_j69441031242585_3_alg».proof.Proof.KernelIdealFrame.Reg2
import proofs.«425184_j69441031242585_3_alg».proof.Proof.KernelIdealFrame.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

open Idealize.ShloMosaic.Pipeline (Seg HostSeg RegionSeg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The rest state carried through every item. -/
abbrev Erest : Fin 5 → Dev nD → sProp 𝕄 := fun _ c => Rr c

set_option backward.isDefEq.respectTransparency.types false in
/-- THE RUN: every unscoped buffer ends at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m hO) c b) := by
  refine Pipeline.θ_run_regions_kit_dev (pcfgs (F := F)) (adm m hO) (pdats m hO) () (cellOf_inj (adm m hO)) emb₁ defs₀ 𝒱₀ L lv m ρ main
    (segs m (outs m hO) 𝒱₀ L lv (Erest (F := F)) () (adm m hO) (pdats m hO) (reg0 m hO) (reg1 m hO) (reg2 m hO) (reg3 m hO))
    (fun c Q => by
      rewrite [main_chain c, Seg.run_eq_chain,
        show (segs m (outs m hO) 𝒱₀ L lv (Erest (F := F)) () (adm m hO) (pdats m hO) (reg0 m hO) (reg1 m hO) (reg2 m hO) (reg3 m hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V9 m (outs m hO) c) ∗ ∃ r, prngReg c r))
    (hch := fun c => ⟨.rfl, .rfl, .rfl, .rfl, .rfl, .rfl, .rfl, .rfl, .rfl,
      (show (iprop(StableHlo.held (c : Thread nD τ) (Pipeline.ucRefs τ sig) (V9 m (outs m hO) c) ∗ Rr c) : sProp 𝕄)
          ⊢ iprop((StableHlo.held (c : Thread nD τ) (Pipeline.ucRefs τ sig) (V9 m (outs m hO) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m hO) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m hO) c) s')
      isplitl [Hh] <;> iassumption)
    (hQ := fun s h c => h c)

/-- THE FRAME and THE RESULTS: the eight arguments end as launched; each result ends at the last contents. -/
theorem run_main (ρ : Dev nD → PrngReg) :
    θ_run defs (onTc (τ := τ) (main (F := F))) ⟨m, fun _ => 0, ρ⟩ (fun r => ∀ c : Dev nD,
      r.2.mem ((c.tc : Thread nD τ).loc main_v45) = V9 m (outs m hO) c main_v45
      ∧ r.2.mem ((c.tc : Thread nD τ).loc main_v48) = V9 m (outs m hO) c main_v48
      ∧ r.2.mem ((c.tc : Thread nD τ).loc main_v51) = V9 m (outs m hO) c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v45 (by decide)), h c _ (mem_uc main_v48 (by decide)), h c _ (mem_uc main_v51 (by decide)),
      (h c _ (mem_uc main_arg0 (by decide))).trans (V9_main_arg0 m _ c), (h c _ (mem_uc main_arg1 (by decide))).trans (V9_main_arg1 m _ c),
      (h c _ (mem_uc main_arg2 (by decide))).trans (V9_main_arg2 m _ c), (h c _ (mem_uc main_arg3 (by decide))).trans (V9_main_arg3 m _ c),
      (h c _ (mem_uc main_arg4 (by decide))).trans (V9_main_arg4 m _ c), (h c _ (mem_uc main_arg5 (by decide))).trans (V9_main_arg5 m _ c),
      (h c _ (mem_uc main_arg6 (by decide))).trans (V9_main_arg6 m _ c), (h c _ (mem_uc main_arg7 (by decide))).trans (V9_main_arg7 m _ c)⟩)
    (run_all m hO ρ)

include hO in
/-- The frame claim's post alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2.2.2) (run_main m hO ρ)

end Cert.KernelIdeal.Hand

end
-- ==== Proof.KernelIdealValue.Value0.lean ====
/-
  What the accumulate-and-mean kernel leaves in its result array, as one closed formula.

  The kernel runs on a grid of 25 points; at point t every one of its five windows (four [150000, 64] inputs and the
  [150000, 64] result) is at block (t, 0) of size [6000, 64], that is rows [6000 t, 6000 (t + 1)).  The body stores
  (((x0 + x1) + x2) + x3) * (1/4) entrywise into the result's block.  So the block written back at point t is block t of
  ONE function of the four input arrays, the 25 blocks tile the array, and after the last write-back every entry of the
  result is that formula of the same entry of the four inputs.
-/
import proofs.«425184_j69441031242585_3_alg».proof.Proof.KernelIdealFrame.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the core's buffer contents when the region is entered
variable (V : (c : Dev nD) → (b : Ref sig .tc) → Buf (Elt F) ((c : Thread nD τ).loc b))

/-! ## The function the result array ends holding -/

/-- The zero offset of the body's one access rectangle. -/
theorem zero_off0 : (![0, 0] : Fin 2 → Nat) = fun _ => 0 := funext fun a => by fin_cases a <;> rfl

/-- The mean of four [150000, 64] arrays entry by entry, in the kernel's order of operations:
    (((a0 + a1) + a2) + a3) * (1/4). -/
abbrev mean4 (a0 a1 a2 a3 : S150000x64.Idx → Elt F .f32) : S150000x64.Idx → Elt F .f32 :=
  fun i => FloatOps.mulf (FloatOps.addf (FloatOps.addf (FloatOps.addf (a0 i) (a1 i)) (a2 i)) (a3 i)) (FloatOps.ofBits .f32 0x3E800000#32)

/-- The body's payload at an entry of the block: the same formula of the four loaded blocks' entries (the shape casts
    are between equal shapes). -/
theorem pay0_apply (x0 x1 x2 x3 : Vec F S6000x64 .f32) (y : S6000x64.Idx) :
    k0_pay1 x0 x1 x2 x3 y
      = FloatOps.mulf (FloatOps.addf (FloatOps.addf (FloatOps.addf (x0 y) (x1 y)) (x2 y)) (x3 y)) (FloatOps.ofBits .f32 0x3E800000#32) := by
  unfold k0_pay1
  simp only [shapeCast_self]
  rfl

/-! ## Where the windows are at a point -/

/-- The printed index maps, decided over the grid: at point t every window is at block (t, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What a point writes back -/

/-- What point t writes back is block t of the mean of the four input arrays as the region finds them. -/
theorem flushed0_eq (c : Dev nD) (t : Fin cfg0.N) :
    (dat0 V c).flushed 4 t
      = ((cfg0.win 4).blk t).view.read (Elt F) (mean4 (V c main_v0) (V c main_v13) (V c main_v26) (V c main_v39)) := by
  show (cfg0.win 4).cut (grid0.coords t) ((dat0 V c).after 4 t) = _
  rw [after0_4]
  unfold out0_4
  rw [View.canon_unit_zero zero_off0]
  simp only [View.ld_unit_zero (S := S6000x64) zero_off0]
  obtain ⟨e00, e01, e10, e11, e20, e21, e30, e31, e40, e41⟩ := block_index0 t
  funext j
  refine (pay0_apply _ _ _ _ j).trans ?_
  show FloatOps.mulf (FloatOps.addf (FloatOps.addf (FloatOps.addf
        (V c main_v0 (((cfg0.win 0).blk t).view.emb j)) (V c main_v13 (((cfg0.win 1).blk t).view.emb j)))
        (V c main_v26 (((cfg0.win 2).blk t).view.emb j))) (V c main_v39 (((cfg0.win 3).blk t).view.emb j)))
        (FloatOps.ofBits .f32 0x3E800000#32)
      = FloatOps.mulf (FloatOps.addf (FloatOps.addf (FloatOps.addf
        (V c main_v0 (((cfg0.win 4).blk t).view.emb j)) (V c main_v13 (((cfg0.win 4).blk t).view.emb j)))
        (V c main_v26 (((cfg0.win 4).blk t).view.emb j))) (V c main_v39 (((cfg0.win 4).blk t).view.emb j)))
        (FloatOps.ofBits .f32 0x3E800000#32)
  have hj0 : (j 0).val < 6000 := (j 0).isLt
  have hj1 : (j 1).val < 64 := (j 1).isLt
  have h0 : ((cfg0.win 0).blk t).view.emb j = ((cfg0.win 4).blk t).view.emb j := by
    funext a; apply Fin.ext
    match a with
    | ⟨0, _⟩ => show win0_0.index t (0 : Fin 2) * 6000 + 1 * (j 0).val = win0_4.index t (0 : Fin 2) * 6000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 6000 + 1 * (j 0).val = win0_4.index t (0 : Fin 2) * 6000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 6000 + 1 * (j 0).val = win0_4.index t (0 : Fin 2) * 6000 + 1 * (j 0).val; omega
    | ⟨1, _⟩ => show win0_2.index t (1 : Fin 2) * 64 + 1 * (j 1).val = win0_4.index t (1 : Fin 2) * 64 + 1 * (j 1).val; omega
  have h3 : ((cfg0.win 3).blk t).view.emb j = ((cfg0.win 4).blk t).view.emb j := by
    funext a; apply Fin.ext
    match a with
    | ⟨0, _⟩ => show win0_3.index t (0 : Fin 2) * 6000 + 1 * (j 0).val = win0_4.index t (0 : Fin 2) * 6000 + 1 * (j 0).val; omega
    | ⟨1, _⟩ => show win0_3.index t (1 : Fin 2) * 64 + 1 * (j 1).val = win0_4.index t (1 : Fin 2) * 64 + 1 * (j 1).val; omega
  rw [h0, h1, h2, h3]

/-! ## The blocks tile the array -/

/-- An index of the array is in point t's block iff each coordinate is in the block's range on its axis. -/
theorem mem_blk0 (t : Fin cfg0.N) (i : S150000x64.Idx) :
    i ∈ ((cfg0.win 4).blk t).view.set
      ↔ ∀ a : Fin 2, win0_4.index t a * S6000x64.size a ≤ (i a).val ∧ (i a).val < win0_4.index t a * S6000x64.size a + S6000x64.size a := by
  show i ∈ ((View.whole main_v40).slice (win0_4.rect t)).set ↔ _
  rw [View.set_slice_whole, Rect.mem_set_unit]
  exact Iff.rfl

/-- Every index of the array is in some point's block: row r is in the block of point r / 6000. -/
theorem covered0 (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have hlt : (i 0).val / 6000 < cfg0.N := Nat.lt_of_lt_of_eq (by omega : (i 0).val / 6000 < 25) N_0.symm
  obtain ⟨_, _, _, _, _, _, _, _, e40, e41⟩ := block_index0 ⟨(i 0).val / 6000, hlt⟩
  have q0 : win0_4.index ⟨(i 0).val / 6000, hlt⟩ (0 : Fin 2) = (i 0).val / 6000 := e40
  refine ⟨⟨(i 0).val / 6000, hlt⟩, flush0_4 _, ?_⟩
  rw [mem_blk0]
  intro a
  match a with
  | ⟨0, _⟩ =>
    show win0_4.index ⟨(i 0).val / 6000, hlt⟩ (0 : Fin 2) * 6000 ≤ (i 0).val
      ∧ (i 0).val < win0_4.index ⟨(i 0).val / 6000, hlt⟩ (0 : Fin 2) * 6000 + 6000
    omega
  | ⟨1, _⟩ =>
    show win0_4.index ⟨(i 0).val / 6000, hlt⟩ (1 : Fin 2) * 64 ≤ (i 1).val
      ∧ (i 1).val < win0_4.index ⟨(i 0).val / 6000, hlt⟩ (1 : Fin 2) * 64 + 64
    omega

/-! ## The result array after the run -/

/-- The result array after the last write-back is the mean of the four input arrays as the region finds them. -/
theorem arr0_eq (c : Dev nD) :
    (dat0 (F := F) V c).arrAt 4 cfg0.N = mean4 (V c main_v0) (V c main_v13) (V c main_v26) (V c main_v39) :=
  (dat0 V c).arrAt_eq_of_cover 4 (mean4 (V c main_v0) (V c main_v13) (V c main_v26) (V c main_v39))
    (fun t _ => flushed0_eq V c t) covered0

/-- Every entry of the result array is (((a0 + a1) + a2) + a3) * (1/4) of the same entry of the four input arrays. -/
theorem arr0_apply (c : Dev nD) (r : Fin 150000) (q : Fin 64) :
    ((dat0 (F := F) V c).arrAt 4 cfg0.N : S150000x64.Idx → Elt F .f32) (ValueIdx.ix2 r q)
      = FloatOps.mulf (FloatOps.addf (FloatOps.addf (FloatOps.addf (V c main_v0 (ValueIdx.ix2 r q)) (V c main_v13 (ValueIdx.ix2 r q))) (V c main_v26 (ValueIdx.ix2 r q))) (V c main_v39 (ValueIdx.ix2 r q))) (FloatOps.ofBits .f32 0x3E800000#32) :=
  congrFun (arr0_eq V c) (ValueIdx.ix2 r q)

end Cert.KernelIdeal.Hand

end
-- ==== Proof.KernelIdealValue.Value1.lean ====
/-
  What region 1 of the program — the first row gather — leaves in its result array, as one closed formula.

  The region runs on 4096 points. At point t its input window stages one [1, 1, 64] row of the [100000, 1, 64] source,
  the row the prefetched table's word at t names, and the body copies that row into the result's staging buffer,
  which is written back as row t of the [4096, 1, 64] result. So, at any admissible contents `a` of the table and any
  contents `V` of the core's buffers when the region is entered, the result ends with

      result[e, 0, q] = source[tbl[e], 0, q]      for every row e < 4096 and column q < 64.

  The steps: the two index maps at a point (the input's row index is the table's word, the result's is the point);
  the input's block at a point, read at a coordinate; what a point writes back (the loaded block, unchanged); the
  gathered array as a function of the index, of which every point writes back its own block; the result's blocks tile
  it, row e being point e's; hence the array after the region, and its element at (e, 0, q).
-/
import proofs.«425184_j69441031242585_3_alg».proof.Proof.KernelIdealFrame.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- admissible contents of the prefetched table, and the core's buffer contents when the region is entered
variable (a : (pcfg1 (F := F)).Adm)
variable (V : (c : Dev nD) → (b : Ref sig .tc) → Buf (Elt F) ((c : Thread nD τ).loc b))

/-! ## Points, rows and the table's words -/

/-- The zero offsets of the kernel's one access rectangle are the zero function. -/
theorem hz1 : (![0, 0, 0] : Fin 3 → Nat) = fun _ => 0 := funext fun d => by fin_cases d <;> rfl

/-- The table's word at row `e`: the row of the source that row `e` of the result is a copy of. -/
abbrev word1 (e : Fin 4096) : BitVec 32 := (a.1 0 : S4096.Idx → BitVec 32) (ValueIdx.ix1 e)

/-- A grid point is below 4096, -/
theorem lt1 (t : Fin (cfg1 a).N) : t.val < 4096 := Nat.lt_of_lt_of_eq (show t.val < grid1.N from t.isLt) N_1

/-- so it names a row of the result: point `t` writes row `t`; -/
abbrev row1 (t : Fin (cfg1 a).N) : Fin 4096 := ⟨t.val, lt1 a t⟩

/-- and row `e` is written by point `e`. -/
abbrev pt1 (e : Fin 4096) : Fin (cfg1 a).N := ⟨e.val, show e.val < grid1.N from Nat.lt_of_lt_of_eq e.isLt N_1.symm⟩

/-- The grid has one axis: a point's coordinate is the point. -/
theorem coord1 (t : Fin (cfg1 a).N) : (grid1.coords t 0).val = t.val := by
  have ht := lt1 a t
  show t.val / grid1.stride 0 % 4096 = t.val
  rw [show grid1.stride 0 = 1 from by decide, Nat.div_one, Nat.mod_eq_of_lt ht]

/-- The coordinate as the index maps see it: a 32-bit word, read back as a natural number. -/
theorem coordWord1 (t : Fin (cfg1 a).N) : (BitVec.ofNat 32 (grid1.coords t 0).val).toNat = t.val := by
  have ht := lt1 a t
  rw [coord1, BitVec.toNat_ofNat]
  exact Nat.mod_eq_of_lt (by omega)

/-! ## The index maps at a point -/

/-- The input's block index on the row axis is the table's word at the point; -/
theorem inRow1 (t : Fin (cfg1 a).N) : ((cfg1 a).win 0).index t (0 : Fin 3) = (word1 a (row1 a t)).toNat := by
  show ((a.1 0 : S4096.Idx → BitVec 32) ((Rect.unit (s := S4096) ![(BitVec.ofNat 32 (grid1.coords t 0).val).toNat] S1.size (k1_off1_inb (grid1.coords t))).emb (Shape.Idx.first (numel1_S1.symm ▸ Nat.one_pos)))).toNat = _
  refine congrArg (fun x : S4096.Idx => ((a.1 0 : S4096.Idx → BitVec 32) x).toNat) ?_
  funext d
  apply Fin.ext
  match d with
  | ⟨0, _⟩ =>
    show (BitVec.ofNat 32 (grid1.coords t 0).val).toNat + 1 * 0 = t.val
    rw [coordWord1]; omega

/-- on the other two axes it is zero. -/
theorem inMid1 (t : Fin (cfg1 a).N) : ((cfg1 a).win 0).index t (1 : Fin 3) = 0 := rfl
theorem inCol1 (t : Fin (cfg1 a).N) : ((cfg1 a).win 0).index t (2 : Fin 3) = 0 := rfl

/-- The result's block index on the row axis is the point; -/
theorem outRow1 (t : Fin (cfg1 a).N) : ((cfg1 a).win 1).index t (0 : Fin 3) = t.val := by
  show (BitVec.ofNat 32 (grid1.coords t 0).val).toNat = t.val
  exact coordWord1 a t

/-- on the other two axes it is zero. -/
theorem outMid1 (t : Fin (cfg1 a).N) : ((cfg1 a).win 1).index t (1 : Fin 3) = 0 := rfl
theorem outCol1 (t : Fin (cfg1 a).N) : ((cfg1 a).win 1).index t (2 : Fin 3) = 0 := rfl

/-- Admissible contents name rows of the source only: every word is below its height. -/
theorem wordLt1 (t : Fin (cfg1 a).N) : (word1 a (row1 a t)).toNat < 100000 := by
  obtain ⟨hin, -⟩ := (show ok1 a.1 from a.2) (grid1.coords t)
  have h0 : (((cfg1 a).win 0).index t (0 : Fin 3) + 1) * 1 ≤ 100000 := hin 0
  rw [inRow1] at h0
  omega

/-! ## The blocks at a point -/

/-- The input's block at point `t` is row `tbl[t]` of the source: its element `y` sits at (tbl[t], 0, y 2). -/
theorem inBlockAt1 (c : Dev nD) (t : Fin (cfg1 a).N) (y : S1x1x64.Idx) (hb : (word1 a (row1 a t)).toNat < 100000) :
    (iblk1 a V c 0 t : S1x1x64.Idx → Elt F .f32) y
      = (V c main_v43 : S100000x1x64.Idx → Elt F .f32) (ValueIdx.ix3 ⟨(word1 a (row1 a t)).toNat, hb⟩ (0 : Fin 1) (y 2)) := by
  show (V c main_v43 : S100000x1x64.Idx → Elt F .f32) ((((cfg1 a).win 0).blk t).view.emb y) = _
  refine congrArg (V c main_v43 : S100000x1x64.Idx → Elt F .f32) ?_
  funext d
  apply Fin.ext
  match d with
  | ⟨0, _⟩ =>
    show ((cfg1 a).win 0).index t (0 : Fin 3) * 1 + 1 * (y 0).val = (word1 a (row1 a t)).toNat
    have hy : (y 0).val < 1 := (y 0).isLt
    rw [inRow1]; omega
  | ⟨1, _⟩ =>
    show ((cfg1 a).win 0).index t (1 : Fin 3) * 1 + 1 * (y 1).val = 0
    have hy : (y 1).val < 1 := (y 1).isLt
    rw [inMid1]; omega
  | ⟨2, _⟩ =>
    show ((cfg1 a).win 0).index t (2 : Fin 3) * 64 + 1 * (y 2).val = (y 2).val
    rw [inCol1]; omega

/-- The body's one store leaves the loaded block, unchanged, in the result's buffer. -/
theorem outEq1 (x0 : Vec F S1x1x64 .f32) : out1_1 x0 = x0 := by
  unfold out1_1
  rw [View.canon_unit_zero hz1, View.ld_unit_zero (S := S1x1x64) hz1]
  unfold k1_pay1
  exact shapeCast_self _ _

/-- So what point `t` writes back is the input's block there. -/
theorem flushedAt1 (c : Dev nD) (t : Fin (cfg1 a).N) (y : S1x1x64.Idx) :
    ((dat1 a V c).flushed 1 t : S1x1x64.Idx → Elt F .f32) y = (iblk1 a V c 0 t : S1x1x64.Idx → Elt F .f32) y := by
  show ((dat1 a V c).after 1 t : S1x1x64.Idx → Elt F .f32) y = _
  rw [after1_1]
  exact congrFun (outEq1 (iblk1 a V c 0 t)) y

/-! ## The array the region leaves -/

/-- The gathered array: row `e` is row `tbl[e]` of the source (where the word is inside the source, which is
    everywhere at admissible contents; elsewhere, the result as the region found it). -/
def gathered1 (c : Dev nD) : S4096x1x64.Idx → Elt F .f32 := fun i =>
  if hb : (word1 a (i 0 : Fin 4096)).toNat < 100000 then
    (V c main_v43 : S100000x1x64.Idx → Elt F .f32) (ValueIdx.ix3 ⟨(word1 a (i 0 : Fin 4096)).toNat, hb⟩ (0 : Fin 1) (i 2 : Fin 64))
  else (V c main_v44 : S4096x1x64.Idx → Elt F .f32) i

/-- Read at an index whose row is `e` and column `q`. -/
theorem gatheredAt1 (c : Dev nD) (i : S4096x1x64.Idx) (e : Fin 4096) (q : Fin 64) (h0 : (i 0 : Fin 4096) = e) (h2 : (i 2 : Fin 64) = q)
    (hb : (word1 a e).toNat < 100000) :
    gathered1 a V c i = (V c main_v43 : S100000x1x64.Idx → Elt F .f32) (ValueIdx.ix3 ⟨(word1 a e).toNat, hb⟩ (0 : Fin 1) q) := by
  subst h0 h2
  unfold gathered1
  rw [dif_pos hb]

/-- WHAT POINT `t` WRITES BACK is block `t` of the gathered array. -/
theorem flushedEq1 (c : Dev nD) (t : Fin (cfg1 a).N) :
    (dat1 a V c).flushed 1 t = (((cfg1 a).win 1).blk t).view.read (Elt F) (gathered1 a V c) := by
  refine funext fun (y : S1x1x64.Idx) => ?_
  show ((dat1 a V c).flushed 1 t : S1x1x64.Idx → Elt F .f32) y = gathered1 a V c ((((cfg1 a).win 1).blk t).view.emb y)
  refine (flushedAt1 a V c t y).trans ((inBlockAt1 a V c t y (wordLt1 a t)).trans ?_)
  refine (gatheredAt1 a V c _ (row1 a t) (y 2) (Fin.ext ?_) (Fin.ext ?_) (wordLt1 a t)).symm
  · show ((cfg1 a).win 1).index t (0 : Fin 3) * 1 + 1 * (y 0).val = t.val
    have hy : (y 0).val < 1 := (y 0).isLt
    rw [outRow1]; omega
  · show ((cfg1 a).win 1).index t (2 : Fin 3) * 64 + 1 * (y 2).val = (y 2).val
    rw [outCol1]; omega

/-- The result is written back at every point: consecutive points name different rows. -/
theorem flushAll1 (t : Fin (cfg1 a).N) : ((cfg1 a).win 1).flush t = true := by
  unfold Window.flush
  rw [show ((cfg1 a).win 1).isOut = true from rfl, Bool.true_and, Bool.or_eq_true, decide_eq_true_eq, decide_eq_true_eq]
  have hN : (cfg1 a).grid.N = 4096 := N_1
  have hlt := lt1 a t
  by_cases hlast : t.val + 1 = (cfg1 a).grid.N
  · exact Or.inl hlast
  · have ht : t.val + 1 < (cfg1 a).grid.N := by omega
    refine Or.inr ⟨ht, fun h => ?_⟩
    have h0 := congrFun h (0 : Fin 3)
    rw [outRow1, outRow1] at h0
    exact absurd h0 (Nat.succ_ne_self _)

/-- An index of the result is under a rectangle's slice of it iff it is in the rectangle. -/
theorem memSlice1 (r : Rect main_v44.ty.shape) (i : main_v44.ty.shape.Idx) : i ∈ ((View.whole main_v44).slice r).set ↔ i ∈ r.set := by
  rw [View.set_slice_whole]

/-- An index of the result is in point `t`'s block iff each coordinate is in the block's range on its axis. -/
theorem memBlock1 (t : Fin (cfg1 a).N) (i : S4096x1x64.Idx) :
    i ∈ (((cfg1 a).win 1).blk t).view.set ↔ ∀ d : Fin 3, ((cfg1 a).win 1).index t d * S1x1x64.size d ≤ (i d).val ∧ (i d).val < ((cfg1 a).win 1).index t d * S1x1x64.size d + S1x1x64.size d := by
  exact (memSlice1 (((cfg1 a).win 1).rect t) i).trans Rect.mem_set_unit

/-- Row `e` of the result is in point `e`'s block: the blocks tile the result. -/
theorem covered1 (i : S4096x1x64.Idx) :
    ∃ t : Fin (cfg1 a).N, ((cfg1 a).win 1).flush t = true ∧ i ∈ (((cfg1 a).win 1).blk t).view.set := by
  refine ⟨pt1 a (i 0 : Fin 4096), flushAll1 a _, ?_⟩
  rw [memBlock1]
  intro d
  match d with
  | ⟨0, _⟩ =>
    show ((cfg1 a).win 1).index (pt1 a (i 0 : Fin 4096)) (0 : Fin 3) * 1 ≤ (i 0).val ∧ (i 0).val < ((cfg1 a).win 1).index (pt1 a (i 0 : Fin 4096)) (0 : Fin 3) * 1 + 1
    rw [outRow1]
    show (i 0).val * 1 ≤ (i 0).val ∧ (i 0).val < (i 0).val * 1 + 1
    omega
  | ⟨1, _⟩ =>
    show ((cfg1 a).win 1).index (pt1 a (i 0 : Fin 4096)) (1 : Fin 3) * 1 ≤ (i 1).val ∧ (i 1).val < ((cfg1 a).win 1).index (pt1 a (i 0 : Fin 4096)) (1 : Fin 3) * 1 + 1
    have hi : (i 1).val < 1 := (i 1).isLt
    rw [outMid1]; omega
  | ⟨2, _⟩ =>
    show ((cfg1 a).win 1).index (pt1 a (i 0 : Fin 4096)) (2 : Fin 3) * 64 ≤ (i 2).val ∧ (i 2).val < ((cfg1 a).win 1).index (pt1 a (i 0 : Fin 4096)) (2 : Fin 3) * 64 + 64
    have hi : (i 2).val < 64 := (i 2).isLt
    rw [outCol1]; omega

/-- THE ARRAY after the region: the gathered array. -/
theorem arrEq1 (c : Dev nD) : (dat1 a V c).arrAt 1 (cfg1 a).N = gathered1 a V c :=
  (dat1 a V c).arrAt_eq_of_cover 1 (gathered1 a V c) (fun t _ => flushedEq1 a V c t) (covered1 a)

/-- ROW `e` OF THE RESULT IS ROW `tbl[e]` OF THE SOURCE, element by element. -/
theorem arr1_apply (c : Dev nD) (e : Fin 4096) (q : Fin 64) (h : ((a.1 0 : S4096.Idx → BitVec 32) (ValueIdx.ix1 e)).toNat < 100000) :
    ((dat1 (F := F) a V c).arrAt 1 (cfg1 a).N : S4096x1x64.Idx → Elt F .f32) (ValueIdx.ix3 e (0 : Fin 1) q)
      = (V c main_v43 : S100000x1x64.Idx → Elt F .f32) (ValueIdx.ix3 ⟨((a.1 0 : S4096.Idx → BitVec 32) (ValueIdx.ix1 e)).toNat, h⟩ (0 : Fin 1) q) := by
  rw [arrEq1]
  exact gatheredAt1 a V c _ e q rfl rfl h

end Cert.KernelIdeal.Hand

end
-- ==== Proof.KernelIdealValue.Value2.lean ====
/-
  What region 1 of the program — the second row gather — leaves in its result array, as one closed formula.

  The region runs on 4096 points. At point t its input window stages one [1, 1, 64] row of the [50000, 1, 64] source,
  the row the prefetched table's word at t names, and the body copies that row into the result's staging buffer,
  which is written back as row t of the [4096, 1, 64] result. So, at any admissible contents `a` of the table and any
  contents `V` of the core's buffers when the region is entered, the result ends with

      result[e, 0, q] = source[tbl[e], 0, q]      for every row e < 4096 and column q < 64.

  The steps: the two index maps at a point (the input's row index is the table's word, the result's is the point);
  the input's block at a point, read at a coordinate; what a point writes back (the loaded block, unchanged); the
  gathered array as a function of the index, of which every point writes back its own block; the result's blocks tile
  it, row e being point e's; hence the array after the region, and its element at (e, 0, q).
-/
import proofs.«425184_j69441031242585_3_alg».proof.Proof.KernelIdealFrame.Region2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- admissible contents of the prefetched table, and the core's buffer contents when the region is entered
variable (a : (pcfg2 (F := F)).Adm)
variable (V : (c : Dev nD) → (b : Ref sig .tc) → Buf (Elt F) ((c : Thread nD τ).loc b))

/-! ## Points, rows and the table's words -/

/-- The zero offsets of the kernel's one access rectangle are the zero function. -/
theorem hz2 : (![0, 0, 0] : Fin 3 → Nat) = fun _ => 0 := funext fun d => by fin_cases d <;> rfl

/-- The table's word at row `e`: the row of the source that row `e` of the result is a copy of. -/
abbrev word2 (e : Fin 4096) : BitVec 32 := (a.1 0 : S4096.Idx → BitVec 32) (ValueIdx.ix1 e)

/-- A grid point is below 4096, -/
theorem lt2 (t : Fin (cfg2 a).N) : t.val < 4096 := Nat.lt_of_lt_of_eq (show t.val < grid2.N from t.isLt) N_2

/-- so it names a row of the result: point `t` writes row `t`; -/
abbrev row2 (t : Fin (cfg2 a).N) : Fin 4096 := ⟨t.val, lt2 a t⟩

/-- and row `e` is written by point `e`. -/
abbrev pt2 (e : Fin 4096) : Fin (cfg2 a).N := ⟨e.val, show e.val < grid2.N from Nat.lt_of_lt_of_eq e.isLt N_2.symm⟩

/-- The grid has one axis: a point's coordinate is the point. -/
theorem coord2 (t : Fin (cfg2 a).N) : (grid2.coords t 0).val = t.val := by
  have ht := lt2 a t
  show t.val / grid2.stride 0 % 4096 = t.val
  rw [show grid2.stride 0 = 1 from by decide, Nat.div_one, Nat.mod_eq_of_lt ht]

/-- The coordinate as the index maps see it: a 32-bit word, read back as a natural number. -/
theorem coordWord2 (t : Fin (cfg2 a).N) : (BitVec.ofNat 32 (grid2.coords t 0).val).toNat = t.val := by
  have ht := lt2 a t
  rw [coord2, BitVec.toNat_ofNat]
  exact Nat.mod_eq_of_lt (by omega)

/-! ## The index maps at a point -/

/-- The input's block index on the row axis is the table's word at the point; -/
theorem inRow2 (t : Fin (cfg2 a).N) : ((cfg2 a).win 0).index t (0 : Fin 3) = (word2 a (row2 a t)).toNat := by
  show ((a.1 0 : S4096.Idx → BitVec 32) ((Rect.unit (s := S4096) ![(BitVec.ofNat 32 (grid2.coords t 0).val).toNat] S1.size (k2_off1_inb (grid2.coords t))).emb (Shape.Idx.first (numel1_S1.symm ▸ Nat.one_pos)))).toNat = _
  refine congrArg (fun x : S4096.Idx => ((a.1 0 : S4096.Idx → BitVec 32) x).toNat) ?_
  funext d
  apply Fin.ext
  match d with
  | ⟨0, _⟩ =>
    show (BitVec.ofNat 32 (grid2.coords t 0).val).toNat + 1 * 0 = t.val
    rw [coordWord2]; omega

/-- on the other two axes it is zero. -/
theorem inMid2 (t : Fin (cfg2 a).N) : ((cfg2 a).win 0).index t (1 : Fin 3) = 0 := rfl
theorem inCol2 (t : Fin (cfg2 a).N) : ((cfg2 a).win 0).index t (2 : Fin 3) = 0 := rfl

/-- The result's block index on the row axis is the point; -/
theorem outRow2 (t : Fin (cfg2 a).N) : ((cfg2 a).win 1).index t (0 : Fin 3) = t.val := by
  show (BitVec.ofNat 32 (grid2.coords t 0).val).toNat = t.val
  exact coordWord2 a t

/-- on the other two axes it is zero. -/
theorem outMid2 (t : Fin (cfg2 a).N) : ((cfg2 a).win 1).index t (1 : Fin 3) = 0 := rfl
theorem outCol2 (t : Fin (cfg2 a).N) : ((cfg2 a).win 1).index t (2 : Fin 3) = 0 := rfl

/-- Admissible contents name rows of the source only: every word is below its height. -/
theorem wordLt2 (t : Fin (cfg2 a).N) : (word2 a (row2 a t)).toNat < 50000 := by
  obtain ⟨hin, -⟩ := (show ok2 a.1 from a.2) (grid2.coords t)
  have h0 : (((cfg2 a).win 0).index t (0 : Fin 3) + 1) * 1 ≤ 50000 := hin 0
  rw [inRow2] at h0
  omega

/-! ## The blocks at a point -/

/-- The input's block at point `t` is row `tbl[t]` of the source: its element `y` sits at (tbl[t], 0, y 2). -/
theorem inBlockAt2 (c : Dev nD) (t : Fin (cfg2 a).N) (y : S1x1x64.Idx) (hb : (word2 a (row2 a t)).toNat < 50000) :
    (iblk2 a V c 0 t : S1x1x64.Idx → Elt F .f32) y
      = (V c main_v46 : S50000x1x64.Idx → Elt F .f32) (ValueIdx.ix3 ⟨(word2 a (row2 a t)).toNat, hb⟩ (0 : Fin 1) (y 2)) := by
  show (V c main_v46 : S50000x1x64.Idx → Elt F .f32) ((((cfg2 a).win 0).blk t).view.emb y) = _
  refine congrArg (V c main_v46 : S50000x1x64.Idx → Elt F .f32) ?_
  funext d
  apply Fin.ext
  match d with
  | ⟨0, _⟩ =>
    show ((cfg2 a).win 0).index t (0 : Fin 3) * 1 + 1 * (y 0).val = (word2 a (row2 a t)).toNat
    have hy : (y 0).val < 1 := (y 0).isLt
    rw [inRow2]; omega
  | ⟨1, _⟩ =>
    show ((cfg2 a).win 0).index t (1 : Fin 3) * 1 + 1 * (y 1).val = 0
    have hy : (y 1).val < 1 := (y 1).isLt
    rw [inMid2]; omega
  | ⟨2, _⟩ =>
    show ((cfg2 a).win 0).index t (2 : Fin 3) * 64 + 1 * (y 2).val = (y 2).val
    rw [inCol2]; omega

/-- The body's one store leaves the loaded block, unchanged, in the result's buffer. -/
theorem outEq2 (x0 : Vec F S1x1x64 .f32) : out2_1 x0 = x0 := by
  unfold out2_1
  rw [View.canon_unit_zero hz2, View.ld_unit_zero (S := S1x1x64) hz2]
  unfold k2_pay1
  exact shapeCast_self _ _

/-- So what point `t` writes back is the input's block there. -/
theorem flushedAt2 (c : Dev nD) (t : Fin (cfg2 a).N) (y : S1x1x64.Idx) :
    ((dat2 a V c).flushed 1 t : S1x1x64.Idx → Elt F .f32) y = (iblk2 a V c 0 t : S1x1x64.Idx → Elt F .f32) y := by
  show ((dat2 a V c).after 1 t : S1x1x64.Idx → Elt F .f32) y = _
  rw [after2_1]
  exact congrFun (outEq2 (iblk2 a V c 0 t)) y

/-! ## The array the region leaves -/

/-- The gathered array: row `e` is row `tbl[e]` of the source (where the word is inside the source, which is
    everywhere at admissible contents; elsewhere, the result as the region found it). -/
def gathered2 (c : Dev nD) : S4096x1x64.Idx → Elt F .f32 := fun i =>
  if hb : (word2 a (i 0 : Fin 4096)).toNat < 50000 then
    (V c main_v46 : S50000x1x64.Idx → Elt F .f32) (ValueIdx.ix3 ⟨(word2 a (i 0 : Fin 4096)).toNat, hb⟩ (0 : Fin 1) (i 2 : Fin 64))
  else (V c main_v47 : S4096x1x64.Idx → Elt F .f32) i

/-- Read at an index whose row is `e` and column `q`. -/
theorem gatheredAt2 (c : Dev nD) (i : S4096x1x64.Idx) (e : Fin 4096) (q : Fin 64) (h0 : (i 0 : Fin 4096) = e) (h2 : (i 2 : Fin 64) = q)
    (hb : (word2 a e).toNat < 50000) :
    gathered2 a V c i = (V c main_v46 : S50000x1x64.Idx → Elt F .f32) (ValueIdx.ix3 ⟨(word2 a e).toNat, hb⟩ (0 : Fin 1) q) := by
  subst h0 h2
  unfold gathered2
  rw [dif_pos hb]

/-- WHAT POINT `t` WRITES BACK is block `t` of the gathered array. -/
theorem flushedEq2 (c : Dev nD) (t : Fin (cfg2 a).N) :
    (dat2 a V c).flushed 1 t = (((cfg2 a).win 1).blk t).view.read (Elt F) (gathered2 a V c) := by
  refine funext fun (y : S1x1x64.Idx) => ?_
  show ((dat2 a V c).flushed 1 t : S1x1x64.Idx → Elt F .f32) y = gathered2 a V c ((((cfg2 a).win 1).blk t).view.emb y)
  refine (flushedAt2 a V c t y).trans ((inBlockAt2 a V c t y (wordLt2 a t)).trans ?_)
  refine (gatheredAt2 a V c _ (row2 a t) (y 2) (Fin.ext ?_) (Fin.ext ?_) (wordLt2 a t)).symm
  · show ((cfg2 a).win 1).index t (0 : Fin 3) * 1 + 1 * (y 0).val = t.val
    have hy : (y 0).val < 1 := (y 0).isLt
    rw [outRow2]; omega
  · show ((cfg2 a).win 1).index t (2 : Fin 3) * 64 + 1 * (y 2).val = (y 2).val
    rw [outCol2]; omega

/-- The result is written back at every point: consecutive points name different rows. -/
theorem flushAll2 (t : Fin (cfg2 a).N) : ((cfg2 a).win 1).flush t = true := by
  unfold Window.flush
  rw [show ((cfg2 a).win 1).isOut = true from rfl, Bool.true_and, Bool.or_eq_true, decide_eq_true_eq, decide_eq_true_eq]
  have hN : (cfg2 a).grid.N = 4096 := N_2
  have hlt := lt2 a t
  by_cases hlast : t.val + 1 = (cfg2 a).grid.N
  · exact Or.inl hlast
  · have ht : t.val + 1 < (cfg2 a).grid.N := by omega
    refine Or.inr ⟨ht, fun h => ?_⟩
    have h0 := congrFun h (0 : Fin 3)
    rw [outRow2, outRow2] at h0
    exact absurd h0 (Nat.succ_ne_self _)

/-- An index of the result is under a rectangle's slice of it iff it is in the rectangle. -/
theorem memSlice2 (r : Rect main_v47.ty.shape) (i : main_v47.ty.shape.Idx) : i ∈ ((View.whole main_v47).slice r).set ↔ i ∈ r.set := by
  rw [View.set_slice_whole]

/-- An index of the result is in point `t`'s block iff each coordinate is in the block's range on its axis. -/
theorem memBlock2 (t : Fin (cfg2 a).N) (i : S4096x1x64.Idx) :
    i ∈ (((cfg2 a).win 1).blk t).view.set ↔ ∀ d : Fin 3, ((cfg2 a).win 1).index t d * S1x1x64.size d ≤ (i d).val ∧ (i d).val < ((cfg2 a).win 1).index t d * S1x1x64.size d + S1x1x64.size d := by
  exact (memSlice2 (((cfg2 a).win 1).rect t) i).trans Rect.mem_set_unit

/-- Row `e` of the result is in point `e`'s block: the blocks tile the result. -/
theorem covered2 (i : S4096x1x64.Idx) :
    ∃ t : Fin (cfg2 a).N, ((cfg2 a).win 1).flush t = true ∧ i ∈ (((cfg2 a).win 1).blk t).view.set := by
  refine ⟨pt2 a (i 0 : Fin 4096), flushAll2 a _, ?_⟩
  rw [memBlock2]
  intro d
  match d with
  | ⟨0, _⟩ =>
    show ((cfg2 a).win 1).index (pt2 a (i 0 : Fin 4096)) (0 : Fin 3) * 1 ≤ (i 0).val ∧ (i 0).val < ((cfg2 a).win 1).index (pt2 a (i 0 : Fin 4096)) (0 : Fin 3) * 1 + 1
    rw [outRow2]
    show (i 0).val * 1 ≤ (i 0).val ∧ (i 0).val < (i 0).val * 1 + 1
    omega
  | ⟨1, _⟩ =>
    show ((cfg2 a).win 1).index (pt2 a (i 0 : Fin 4096)) (1 : Fin 3) * 1 ≤ (i 1).val ∧ (i 1).val < ((cfg2 a).win 1).index (pt2 a (i 0 : Fin 4096)) (1 : Fin 3) * 1 + 1
    have hi : (i 1).val < 1 := (i 1).isLt
    rw [outMid2]; omega
  | ⟨2, _⟩ =>
    show ((cfg2 a).win 1).index (pt2 a (i 0 : Fin 4096)) (2 : Fin 3) * 64 ≤ (i 2).val ∧ (i 2).val < ((cfg2 a).win 1).index (pt2 a (i 0 : Fin 4096)) (2 : Fin 3) * 64 + 64
    have hi : (i 2).val < 64 := (i 2).isLt
    rw [outCol2]; omega

/-- THE ARRAY after the region: the gathered array. -/
theorem arrEq2 (c : Dev nD) : (dat2 a V c).arrAt 1 (cfg2 a).N = gathered2 a V c :=
  (dat2 a V c).arrAt_eq_of_cover 1 (gathered2 a V c) (fun t _ => flushedEq2 a V c t) (covered2 a)

/-- ROW `e` OF THE RESULT IS ROW `tbl[e]` OF THE SOURCE, element by element. -/
theorem arr2_apply (c : Dev nD) (e : Fin 4096) (q : Fin 64) (h : ((a.1 0 : S4096.Idx → BitVec 32) (ValueIdx.ix1 e)).toNat < 50000) :
    ((dat2 (F := F) a V c).arrAt 1 (cfg2 a).N : S4096x1x64.Idx → Elt F .f32) (ValueIdx.ix3 e (0 : Fin 1) q)
      = (V c main_v46 : S50000x1x64.Idx → Elt F .f32) (ValueIdx.ix3 ⟨((a.1 0 : S4096.Idx → BitVec 32) (ValueIdx.ix1 e)).toNat, h⟩ (0 : Fin 1) q) := by
  rw [arrEq2]
  exact gatheredAt2 a V c _ e q rfl rfl h

end Cert.KernelIdeal.Hand

end
-- ==== Proof.KernelIdealValue.Value3.lean ====
/-
  What region 1 of the program — the third row gather — leaves in its result array, as one closed formula.

  The region runs on 4096 points. At point t its input window stages one [1, 1, 64] row of the [50000, 1, 64] source,
  the row the prefetched table's word at t names, and the body copies that row into the result's staging buffer,
  which is written back as row t of the [4096, 1, 64] result. So, at any admissible contents `a` of the table and any
  contents `V` of the core's buffers when the region is entered, the result ends with

      result[e, 0, q] = source[tbl[e], 0, q]      for every row e < 4096 and column q < 64.

  The steps: the two index maps at a point (the input's row index is the table's word, the result's is the point);
  the input's block at a point, read at a coordinate; what a point writes back (the loaded block, unchanged); the
  gathered array as a function of the index, of which every point writes back its own block; the result's blocks tile
  it, row e being point e's; hence the array after the region, and its element at (e, 0, q).
-/
import proofs.«425184_j69441031242585_3_alg».proof.Proof.KernelIdealFrame.Region3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- admissible contents of the prefetched table, and the core's buffer contents when the region is entered
variable (a : (pcfg3 (F := F)).Adm)
variable (V : (c : Dev nD) → (b : Ref sig .tc) → Buf (Elt F) ((c : Thread nD τ).loc b))

/-! ## Points, rows and the table's words -/

/-- The zero offsets of the kernel's one access rectangle are the zero function. -/
theorem hz3 : (![0, 0, 0] : Fin 3 → Nat) = fun _ => 0 := funext fun d => by fin_cases d <;> rfl

/-- The table's word at row `e`: the row of the source that row `e` of the result is a copy of. -/
abbrev word3 (e : Fin 4096) : BitVec 32 := (a.1 0 : S4096.Idx → BitVec 32) (ValueIdx.ix1 e)

/-- A grid point is below 4096, -/
theorem lt3 (t : Fin (cfg3 a).N) : t.val < 4096 := Nat.lt_of_lt_of_eq (show t.val < grid3.N from t.isLt) N_3

/-- so it names a row of the result: point `t` writes row `t`; -/
abbrev row3 (t : Fin (cfg3 a).N) : Fin 4096 := ⟨t.val, lt3 a t⟩

/-- and row `e` is written by point `e`. -/
abbrev pt3 (e : Fin 4096) : Fin (cfg3 a).N := ⟨e.val, show e.val < grid3.N from Nat.lt_of_lt_of_eq e.isLt N_3.symm⟩

/-- The grid has one axis: a point's coordinate is the point. -/
theorem coord3 (t : Fin (cfg3 a).N) : (grid3.coords t 0).val = t.val := by
  have ht := lt3 a t
  show t.val / grid3.stride 0 % 4096 = t.val
  rw [show grid3.stride 0 = 1 from by decide, Nat.div_one, Nat.mod_eq_of_lt ht]

/-- The coordinate as the index maps see it: a 32-bit word, read back as a natural number. -/
theorem coordWord3 (t : Fin (cfg3 a).N) : (BitVec.ofNat 32 (grid3.coords t 0).val).toNat = t.val := by
  have ht := lt3 a t
  rw [coord3, BitVec.toNat_ofNat]
  exact Nat.mod_eq_of_lt (by omega)

/-! ## The index maps at a point -/

/-- The input's block index on the row axis is the table's word at the point; -/
theorem inRow3 (t : Fin (cfg3 a).N) : ((cfg3 a).win 0).index t (0 : Fin 3) = (word3 a (row3 a t)).toNat := by
  show ((a.1 0 : S4096.Idx → BitVec 32) ((Rect.unit (s := S4096) ![(BitVec.ofNat 32 (grid3.coords t 0).val).toNat] S1.size (k3_off1_inb (grid3.coords t))).emb (Shape.Idx.first (numel1_S1.symm ▸ Nat.one_pos)))).toNat = _
  refine congrArg (fun x : S4096.Idx => ((a.1 0 : S4096.Idx → BitVec 32) x).toNat) ?_
  funext d
  apply Fin.ext
  match d with
  | ⟨0, _⟩ =>
    show (BitVec.ofNat 32 (grid3.coords t 0).val).toNat + 1 * 0 = t.val
    rw [coordWord3]; omega

/-- on the other two axes it is zero. -/
theorem inMid3 (t : Fin (cfg3 a).N) : ((cfg3 a).win 0).index t (1 : Fin 3) = 0 := rfl
theorem inCol3 (t : Fin (cfg3 a).N) : ((cfg3 a).win 0).index t (2 : Fin 3) = 0 := rfl

/-- The result's block index on the row axis is the point; -/
theorem outRow3 (t : Fin (cfg3 a).N) : ((cfg3 a).win 1).index t (0 : Fin 3) = t.val := by
  show (BitVec.ofNat 32 (grid3.coords t 0).val).toNat = t.val
  exact coordWord3 a t

/-- on the other two axes it is zero. -/
theorem outMid3 (t : Fin (cfg3 a).N) : ((cfg3 a).win 1).index t (1 : Fin 3) = 0 := rfl
theorem outCol3 (t : Fin (cfg3 a).N) : ((cfg3 a).win 1).index t (2 : Fin 3) = 0 := rfl

/-- Admissible contents name rows of the source only: every word is below its height. -/
theorem wordLt3 (t : Fin (cfg3 a).N) : (word3 a (row3 a t)).toNat < 50000 := by
  obtain ⟨hin, -⟩ := (show ok3 a.1 from a.2) (grid3.coords t)
  have h0 : (((cfg3 a).win 0).index t (0 : Fin 3) + 1) * 1 ≤ 50000 := hin 0
  rw [inRow3] at h0
  omega

/-! ## The blocks at a point -/

/-- The input's block at point `t` is row `tbl[t]` of the source: its element `y` sits at (tbl[t], 0, y 2). -/
theorem inBlockAt3 (c : Dev nD) (t : Fin (cfg3 a).N) (y : S1x1x64.Idx) (hb : (word3 a (row3 a t)).toNat < 50000) :
    (iblk3 a V c 0 t : S1x1x64.Idx → Elt F .f32) y
      = (V c main_v49 : S50000x1x64.Idx → Elt F .f32) (ValueIdx.ix3 ⟨(word3 a (row3 a t)).toNat, hb⟩ (0 : Fin 1) (y 2)) := by
  show (V c main_v49 : S50000x1x64.Idx → Elt F .f32) ((((cfg3 a).win 0).blk t).view.emb y) = _
  refine congrArg (V c main_v49 : S50000x1x64.Idx → Elt F .f32) ?_
  funext d
  apply Fin.ext
  match d with
  | ⟨0, _⟩ =>
    show ((cfg3 a).win 0).index t (0 : Fin 3) * 1 + 1 * (y 0).val = (word3 a (row3 a t)).toNat
    have hy : (y 0).val < 1 := (y 0).isLt
    rw [inRow3]; omega
  | ⟨1, _⟩ =>
    show ((cfg3 a).win 0).index t (1 : Fin 3) * 1 + 1 * (y 1).val = 0
    have hy : (y 1).val < 1 := (y 1).isLt
    rw [inMid3]; omega
  | ⟨2, _⟩ =>
    show ((cfg3 a).win 0).index t (2 : Fin 3) * 64 + 1 * (y 2).val = (y 2).val
    rw [inCol3]; omega

/-- The body's one store leaves the loaded block, unchanged, in the result's buffer. -/
theorem outEq3 (x0 : Vec F S1x1x64 .f32) : out3_1 x0 = x0 := by
  unfold out3_1
  rw [View.canon_unit_zero hz3, View.ld_unit_zero (S := S1x1x64) hz3]
  unfold k3_pay1
  exact shapeCast_self _ _

/-- So what point `t` writes back is the input's block there. -/
theorem flushedAt3 (c : Dev nD) (t : Fin (cfg3 a).N) (y : S1x1x64.Idx) :
    ((dat3 a V c).flushed 1 t : S1x1x64.Idx → Elt F .f32) y = (iblk3 a V c 0 t : S1x1x64.Idx → Elt F .f32) y := by
  show ((dat3 a V c).after 1 t : S1x1x64.Idx → Elt F .f32) y = _
  rw [after3_1]
  exact congrFun (outEq3 (iblk3 a V c 0 t)) y

/-! ## The array the region leaves -/

/-- The gathered array: row `e` is row `tbl[e]` of the source (where the word is inside the source, which is
    everywhere at admissible contents; elsewhere, the result as the region found it). -/
def gathered3 (c : Dev nD) : S4096x1x64.Idx → Elt F .f32 := fun i =>
  if hb : (word3 a (i 0 : Fin 4096)).toNat < 50000 then
    (V c main_v49 : S50000x1x64.Idx → Elt F .f32) (ValueIdx.ix3 ⟨(word3 a (i 0 : Fin 4096)).toNat, hb⟩ (0 : Fin 1) (i 2 : Fin 64))
  else (V c main_v50 : S4096x1x64.Idx → Elt F .f32) i

/-- Read at an index whose row is `e` and column `q`. -/
theorem gatheredAt3 (c : Dev nD) (i : S4096x1x64.Idx) (e : Fin 4096) (q : Fin 64) (h0 : (i 0 : Fin 4096) = e) (h2 : (i 2 : Fin 64) = q)
    (hb : (word3 a e).toNat < 50000) :
    gathered3 a V c i = (V c main_v49 : S50000x1x64.Idx → Elt F .f32) (ValueIdx.ix3 ⟨(word3 a e).toNat, hb⟩ (0 : Fin 1) q) := by
  subst h0 h2
  unfold gathered3
  rw [dif_pos hb]

/-- WHAT POINT `t` WRITES BACK is block `t` of the gathered array. -/
theorem flushedEq3 (c : Dev nD) (t : Fin (cfg3 a).N) :
    (dat3 a V c).flushed 1 t = (((cfg3 a).win 1).blk t).view.read (Elt F) (gathered3 a V c) := by
  refine funext fun (y : S1x1x64.Idx) => ?_
  show ((dat3 a V c).flushed 1 t : S1x1x64.Idx → Elt F .f32) y = gathered3 a V c ((((cfg3 a).win 1).blk t).view.emb y)
  refine (flushedAt3 a V c t y).trans ((inBlockAt3 a V c t y (wordLt3 a t)).trans ?_)
  refine (gatheredAt3 a V c _ (row3 a t) (y 2) (Fin.ext ?_) (Fin.ext ?_) (wordLt3 a t)).symm
  · show ((cfg3 a).win 1).index t (0 : Fin 3) * 1 + 1 * (y 0).val = t.val
    have hy : (y 0).val < 1 := (y 0).isLt
    rw [outRow3]; omega
  · show ((cfg3 a).win 1).index t (2 : Fin 3) * 64 + 1 * (y 2).val = (y 2).val
    rw [outCol3]; omega

/-- The result is written back at every point: consecutive points name different rows. -/
theorem flushAll3 (t : Fin (cfg3 a).N) : ((cfg3 a).win 1).flush t = true := by
  unfold Window.flush
  rw [show ((cfg3 a).win 1).isOut = true from rfl, Bool.true_and, Bool.or_eq_true, decide_eq_true_eq, decide_eq_true_eq]
  have hN : (cfg3 a).grid.N = 4096 := N_3
  have hlt := lt3 a t
  by_cases hlast : t.val + 1 = (cfg3 a).grid.N
  · exact Or.inl hlast
  · have ht : t.val + 1 < (cfg3 a).grid.N := by omega
    refine Or.inr ⟨ht, fun h => ?_⟩
    have h0 := congrFun h (0 : Fin 3)
    rw [outRow3, outRow3] at h0
    exact absurd h0 (Nat.succ_ne_self _)

/-- An index of the result is under a rectangle's slice of it iff it is in the rectangle. -/
theorem memSlice3 (r : Rect main_v50.ty.shape) (i : main_v50.ty.shape.Idx) : i ∈ ((View.whole main_v50).slice r).set ↔ i ∈ r.set := by
  rw [View.set_slice_whole]

/-- An index of the result is in point `t`'s block iff each coordinate is in the block's range on its axis. -/
theorem memBlock3 (t : Fin (cfg3 a).N) (i : S4096x1x64.Idx) :
    i ∈ (((cfg3 a).win 1).blk t).view.set ↔ ∀ d : Fin 3, ((cfg3 a).win 1).index t d * S1x1x64.size d ≤ (i d).val ∧ (i d).val < ((cfg3 a).win 1).index t d * S1x1x64.size d + S1x1x64.size d := by
  exact (memSlice3 (((cfg3 a).win 1).rect t) i).trans Rect.mem_set_unit

/-- Row `e` of the result is in point `e`'s block: the blocks tile the result. -/
theorem covered3 (i : S4096x1x64.Idx) :
    ∃ t : Fin (cfg3 a).N, ((cfg3 a).win 1).flush t = true ∧ i ∈ (((cfg3 a).win 1).blk t).view.set := by
  refine ⟨pt3 a (i 0 : Fin 4096), flushAll3 a _, ?_⟩
  rw [memBlock3]
  intro d
  match d with
  | ⟨0, _⟩ =>
    show ((cfg3 a).win 1).index (pt3 a (i 0 : Fin 4096)) (0 : Fin 3) * 1 ≤ (i 0).val ∧ (i 0).val < ((cfg3 a).win 1).index (pt3 a (i 0 : Fin 4096)) (0 : Fin 3) * 1 + 1
    rw [outRow3]
    show (i 0).val * 1 ≤ (i 0).val ∧ (i 0).val < (i 0).val * 1 + 1
    omega
  | ⟨1, _⟩ =>
    show ((cfg3 a).win 1).index (pt3 a (i 0 : Fin 4096)) (1 : Fin 3) * 1 ≤ (i 1).val ∧ (i 1).val < ((cfg3 a).win 1).index (pt3 a (i 0 : Fin 4096)) (1 : Fin 3) * 1 + 1
    have hi : (i 1).val < 1 := (i 1).isLt
    rw [outMid3]; omega
  | ⟨2, _⟩ =>
    show ((cfg3 a).win 1).index (pt3 a (i 0 : Fin 4096)) (2 : Fin 3) * 64 ≤ (i 2).val ∧ (i 2).val < ((cfg3 a).win 1).index (pt3 a (i 0 : Fin 4096)) (2 : Fin 3) * 64 + 64
    have hi : (i 2).val < 64 := (i 2).isLt
    rw [outCol3]; omega

/-- THE ARRAY after the region: the gathered array. -/
theorem arrEq3 (c : Dev nD) : (dat3 a V c).arrAt 1 (cfg3 a).N = gathered3 a V c :=
  (dat3 a V c).arrAt_eq_of_cover 1 (gathered3 a V c) (fun t _ => flushedEq3 a V c t) (covered3 a)

/-- ROW `e` OF THE RESULT IS ROW `tbl[e]` OF THE SOURCE, element by element. -/
theorem arr3_apply (c : Dev nD) (e : Fin 4096) (q : Fin 64) (h : ((a.1 0 : S4096.Idx → BitVec 32) (ValueIdx.ix1 e)).toNat < 50000) :
    ((dat3 (F := F) a V c).arrAt 1 (cfg3 a).N : S4096x1x64.Idx → Elt F .f32) (ValueIdx.ix3 e (0 : Fin 1) q)
      = (V c main_v49 : S50000x1x64.Idx → Elt F .f32) (ValueIdx.ix3 ⟨((a.1 0 : S4096.Idx → BitVec 32) (ValueIdx.ix1 e)).toNat, h⟩ (0 : Fin 1) q) := by
  rw [arrEq3]
  exact gatheredAt3 a V c _ e q rfl rfl h

end Cert.KernelIdeal.Hand

end
-- ==== Proof.HostStages.lean ====
/-
  The host operations of the kernel program's @main, around its four pallas_calls, read as pure functions of the
  buffers' contents.

  PART 1. The operations before the first pallas_call build the embedding table (the two argument tables joined) and
  three propagation stages, each the previous stage gathered along the edges' sources, scaled by the edges' weights and
  scatter-added at the edges' targets. The reference program computes the very same chain; its stages are named by the
  reference's reading module, and the four results the first pallas_call consumes are those stages.

  PART 2. The slices and reshapes between the pallas_calls only move elements: a slice of rows reads the source at the
  shifted row, and a reshape that inserts or drops a middle unit axis keeps the element's row and column.
-/
import proofs.«425184_j69441031242585_3_alg».proof.Proof.Gen.KernelIdeal.Launch
import proofs.«425184_j69441031242585_3_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostStages

open Cert.KernelIdeal Cert.KernelIdeal.Gen Idealize.ShloMosaic Idealize.ShloMosaic.TcCoe Idealize.ShloMosaic.ValueIdx Idealize.ShloMosaic.StableHlo

variable {F : FTy → Type} [FloatOps F]

/-! ## PART 1: the chain before the first pallas_call is the reference's

Both programs run the same operations on the same arguments up to the reference's running sums: the joined table, and
three times a gather along the edges' sources, a product with the edges' weights and a scatter-add at the edges'
targets, each stage fed by the previous stage's scatter. The reference's stages are its reading module's values; each
equation below is the two compositions written out, equal term by term (the two programs' shape facts prove the same
propositions). -/

/-- The embedding table: the two argument tables joined along the rows. -/
theorem ego_eq (V : Valuation τ sig (Elt F)) :
    StableHlo.after (hostOps0 (F := F)) V (Proc.devRef .tc main_v0)
      = Cert.ReferenceIdeal.Read.val_main_v0 (F := F) (V (Proc.devRef .tc main_arg0)) (V (Proc.devRef .tc main_arg1)) := by
  after_results_simp
  rfl

/-- The first propagation stage: the reference's first scatter. -/
theorem c1_eq (V : Valuation τ sig (Elt F)) :
    StableHlo.after (hostOps0 (F := F)) V (Proc.devRef .tc main_v13)
      = Cert.ReferenceIdeal.Read.val_main_v13 (F := F) (V (Proc.devRef .tc main_arg0)) (V (Proc.devRef .tc main_arg1))
          (V (Proc.devRef .tc main_arg2)) (V (Proc.devRef .tc main_arg3)) (V (Proc.devRef .tc main_arg4)) := by
  after_results_simp
  simp only [Cert.ReferenceIdeal.Read.val_main_v13, Cert.ReferenceIdeal.Read.val_main_v12,
    Cert.ReferenceIdeal.Read.val_main_v11, Cert.ReferenceIdeal.Read.val_main_cst,
    Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_c_0, Cert.ReferenceIdeal.Read.val_main_v3,
    Cert.ReferenceIdeal.Read.val_main_v2, Cert.ReferenceIdeal.Read.val_main_c, Cert.ReferenceIdeal.Read.val_main_v1,
    Cert.ReferenceIdeal.Read.val_main_v0]
  rfl

/-- The second propagation stage: the reference's second scatter, fed by the first. -/
theorem c2_eq (V : Valuation τ sig (Elt F)) :
    StableHlo.after (hostOps0 (F := F)) V (Proc.devRef .tc main_v26)
      = Cert.ReferenceIdeal.Read.val_main_v27 (F := F) (V (Proc.devRef .tc main_arg0)) (V (Proc.devRef .tc main_arg1))
          (V (Proc.devRef .tc main_arg2)) (V (Proc.devRef .tc main_arg3)) (V (Proc.devRef .tc main_arg4)) := by
  after_results_simp
  simp only [Cert.ReferenceIdeal.Read.val_main_v27, Cert.ReferenceIdeal.Read.val_main_v26,
    Cert.ReferenceIdeal.Read.val_main_v25, Cert.ReferenceIdeal.Read.val_main_cst_3,
    Cert.ReferenceIdeal.Read.val_main_v24, Cert.ReferenceIdeal.Read.val_main_v23,
    Cert.ReferenceIdeal.Read.val_main_v22, Cert.ReferenceIdeal.Read.val_main_v21,
    Cert.ReferenceIdeal.Read.val_main_v20, Cert.ReferenceIdeal.Read.val_main_v19,
    Cert.ReferenceIdeal.Read.val_main_v18, Cert.ReferenceIdeal.Read.val_main_c_2,
    Cert.ReferenceIdeal.Read.val_main_v17, Cert.ReferenceIdeal.Read.val_main_v16,
    Cert.ReferenceIdeal.Read.val_main_c_1, Cert.ReferenceIdeal.Read.val_main_v15,
    Cert.ReferenceIdeal.Read.val_main_v13, Cert.ReferenceIdeal.Read.val_main_v12,
    Cert.ReferenceIdeal.Read.val_main_v11, Cert.ReferenceIdeal.Read.val_main_cst,
    Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_c_0, Cert.ReferenceIdeal.Read.val_main_v3,
    Cert.ReferenceIdeal.Read.val_main_v2, Cert.ReferenceIdeal.Read.val_main_c, Cert.ReferenceIdeal.Read.val_main_v1,
    Cert.ReferenceIdeal.Read.val_main_v0]
  rfl

/-- The third propagation stage: the reference's third scatter, fed by the second. -/
theorem c3_eq (V : Valuation τ sig (Elt F)) :
    StableHlo.after (hostOps0 (F := F)) V (Proc.devRef .tc main_v39)
      = Cert.ReferenceIdeal.Read.val_main_v41 (F := F) (V (Proc.devRef .tc main_arg0)) (V (Proc.devRef .tc main_arg1))
          (V (Proc.devRef .tc main_arg2)) (V (Proc.devRef .tc main_arg3)) (V (Proc.devRef .tc main_arg4)) := by
  after_results_simp
  simp only [Cert.ReferenceIdeal.Read.val_main_v41, Cert.ReferenceIdeal.Read.val_main_v40,
    Cert.ReferenceIdeal.Read.val_main_v39, Cert.ReferenceIdeal.Read.val_main_cst_6,
    Cert.ReferenceIdeal.Read.val_main_v38, Cert.ReferenceIdeal.Read.val_main_v37,
    Cert.ReferenceIdeal.Read.val_main_v36, Cert.ReferenceIdeal.Read.val_main_v35,
    Cert.ReferenceIdeal.Read.val_main_v34, Cert.ReferenceIdeal.Read.val_main_v33,
    Cert.ReferenceIdeal.Read.val_main_v32, Cert.ReferenceIdeal.Read.val_main_c_5,
    Cert.ReferenceIdeal.Read.val_main_v31, Cert.ReferenceIdeal.Read.val_main_v30,
    Cert.ReferenceIdeal.Read.val_main_c_4, Cert.ReferenceIdeal.Read.val_main_v29,
    Cert.ReferenceIdeal.Read.val_main_v27, Cert.ReferenceIdeal.Read.val_main_v26,
    Cert.ReferenceIdeal.Read.val_main_v25, Cert.ReferenceIdeal.Read.val_main_cst_3,
    Cert.ReferenceIdeal.Read.val_main_v24, Cert.ReferenceIdeal.Read.val_main_v23,
    Cert.ReferenceIdeal.Read.val_main_v22, Cert.ReferenceIdeal.Read.val_main_v21,
    Cert.ReferenceIdeal.Read.val_main_v20, Cert.ReferenceIdeal.Read.val_main_v19,
    Cert.ReferenceIdeal.Read.val_main_v18, Cert.ReferenceIdeal.Read.val_main_c_2,
    Cert.ReferenceIdeal.Read.val_main_v17, Cert.ReferenceIdeal.Read.val_main_v16,
    Cert.ReferenceIdeal.Read.val_main_c_1, Cert.ReferenceIdeal.Read.val_main_v15,
    Cert.ReferenceIdeal.Read.val_main_v13, Cert.ReferenceIdeal.Read.val_main_v12,
    Cert.ReferenceIdeal.Read.val_main_v11, Cert.ReferenceIdeal.Read.val_main_cst,
    Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_c_0, Cert.ReferenceIdeal.Read.val_main_v3,
    Cert.ReferenceIdeal.Read.val_main_v2, Cert.ReferenceIdeal.Read.val_main_c, Cert.ReferenceIdeal.Read.val_main_v1,
    Cert.ReferenceIdeal.Read.val_main_v0]
  rfl

/-! ## A middle unit axis inserted or dropped by a reshape -/

section MiddleUnit

variable {α : Type}

/-- An `[a, b]` array reshaped to `[a, 1, b]` reads, at `(i, u, j)`, the operand at `(i, j)`: both have row-major
position `i * b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ValueIdx.ix3 i u j) = x (ValueIdx.ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array reshaped to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ValueIdx.ix2 i j) = x (ValueIdx.ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end MiddleUnit

/-! ## PART 2: the slices and reshapes after the pallas_calls, read at one element -/

/-- The first lookup table, `[100000, 1, 64]`: rows `0 … 99999` of the first pallas_call's result. -/
theorem table1_apply (V : Valuation τ sig (Elt F)) (r : Fin 100000) (q : Fin 64) :
    StableHlo.after (hostOps1 (F := F)) V (Proc.devRef .tc main_v43) (ValueIdx.ix3 r (0 : Fin 1) q)
      = V (Proc.devRef .tc main_v40) (ValueIdx.ix2 ⟨r.val, by have := r.isLt; omega⟩ q) := by
  have e : StableHlo.after (hostOps1 (F := F)) V (Proc.devRef .tc main_v43)
      = shapeCast S100000x1x64 (extractStridedSlice S100000x64 ![0, 0] (V (Proc.devRef .tc main_v40)) slices_S150000x64_S100000x64_0_0) shapeCasts_S100000x64_S100000x1x64 := by
    after_results; rfl
  rw [e]
  exact (shapeCast_ab_a1b_apply _ _ r 0 q).trans
    (slice2_axis0_apply 0 _ _ r q _ (by show r.val = 0 + r.val; omega))

/-- The item rows, `[50000, 64]`: rows `100000 … 149999` of the first pallas_call's result. -/
theorem items_apply (V : Valuation τ sig (Elt F)) (r : Fin 50000) (q : Fin 64) :
    StableHlo.after (hostOps1 (F := F)) V (Proc.devRef .tc main_v42) (ValueIdx.ix2 r q)
      = V (Proc.devRef .tc main_v40) (ValueIdx.ix2 ⟨100000 + r.val, by have := r.isLt; omega⟩ q) := by
  have e : StableHlo.after (hostOps1 (F := F)) V (Proc.devRef .tc main_v42)
      = extractStridedSlice S50000x64 ![100000, 0] (V (Proc.devRef .tc main_v40)) slices_S150000x64_S50000x64_100000_0 := by
    after_results
  rw [e]
  exact slice2_axis0_apply 100000 _ _ r q _ rfl

/-- The first lookup's result, `[4096, 1, 64]`, with its unit axis dropped. -/
theorem out1_apply (V : Valuation τ sig (Elt F)) (e : Fin 4096) (q : Fin 64) :
    StableHlo.after (hostOps2 (F := F)) V (Proc.devRef .tc main_v45) (ValueIdx.ix2 e q)
      = V (Proc.devRef .tc main_v44) (ValueIdx.ix3 e (0 : Fin 1) q) := by
  have h : StableHlo.after (hostOps2 (F := F)) V (Proc.devRef .tc main_v45)
      = shapeCast S4096x64 (V (Proc.devRef .tc main_v44)) shapeCasts_S4096x1x64_S4096x64 := by
    after_results; rfl
  rw [h]
  exact shapeCast_a1b_ab_apply _ _ e q

/-- The second lookup table, `[50000, 1, 64]`: the item rows with a unit axis inserted. -/
theorem table2_apply (V : Valuation τ sig (Elt F)) (r : Fin 50000) (q : Fin 64) :
    StableHlo.after (hostOps2 (F := F)) V (Proc.devRef .tc main_v46) (ValueIdx.ix3 r (0 : Fin 1) q)
      = V (Proc.devRef .tc main_v42) (ValueIdx.ix2 r q) := by
  have h : StableHlo.after (hostOps2 (F := F)) V (Proc.devRef .tc main_v46)
      = shapeCast S50000x1x64 (V (Proc.devRef .tc main_v42)) shapeCasts_S50000x64_S50000x1x64 := by
    after_results; rfl
  rw [h]
  exact shapeCast_ab_a1b_apply _ _ r 0 q

/-- The second lookup's result with its unit axis dropped. -/
theorem out2_apply (V : Valuation τ sig (Elt F)) (e : Fin 4096) (q : Fin 64) :
    StableHlo.after (hostOps3 (F := F)) V (Proc.devRef .tc main_v48) (ValueIdx.ix2 e q)
      = V (Proc.devRef .tc main_v47) (ValueIdx.ix3 e (0 : Fin 1) q) := by
  have h : StableHlo.after (hostOps3 (F := F)) V (Proc.devRef .tc main_v48)
      = shapeCast S4096x64 (V (Proc.devRef .tc main_v47)) shapeCasts_S4096x1x64_S4096x64 := by
    after_results; rfl
  rw [h]
  exact shapeCast_a1b_ab_apply _ _ e q

/-- The third lookup table: the item rows with a unit axis inserted. -/
theorem table3_apply (V : Valuation τ sig (Elt F)) (r : Fin 50000) (q : Fin 64) :
    StableHlo.after (hostOps3 (F := F)) V (Proc.devRef .tc main_v49) (ValueIdx.ix3 r (0 : Fin 1) q)
      = V (Proc.devRef .tc main_v42) (ValueIdx.ix2 r q) := by
  have h : StableHlo.after (hostOps3 (F := F)) V (Proc.devRef .tc main_v49)
      = shapeCast S50000x1x64 (V (Proc.devRef .tc main_v42)) shapeCasts_S50000x64_S50000x1x64 := by
    after_results; rfl
  rw [h]
  exact shapeCast_ab_a1b_apply _ _ r 0 q

/-- The third lookup's result with its unit axis dropped. -/
theorem out3_apply (V : Valuation τ sig (Elt F)) (e : Fin 4096) (q : Fin 64) :
    StableHlo.after (hostOps4 (F := F)) V (Proc.devRef .tc main_v51) (ValueIdx.ix2 e q)
      = V (Proc.devRef .tc main_v50) (ValueIdx.ix3 e (0 : Fin 1) q) := by
  have h : StableHlo.after (hostOps4 (F := F)) V (Proc.devRef .tc main_v51)
      = shapeCast S4096x64 (V (Proc.devRef .tc main_v50)) shapeCasts_S4096x1x64_S4096x64 := by
    after_results; rfl
  rw [h]
  exact shapeCast_a1b_ab_apply _ _ e q

end Cert.KernelIdeal.HostStages
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.RefValue.lean ====
import proofs.«425184_j69441031242585_3_alg».proof.Defs
import proofs.«425184_j69441031242585_3_alg».proof.Proof.Gen.ReferenceIdeal.Read
import proofs.«425184_j69441031242585_3_alg».proof.Proof.LibRowGatherScatter

/-
  The reference's three results read at one element.

  The reference forms the sum S over [150000 × 64], divides it by the constant 4, cuts the quotient into its first
  100000 rows and its last 50000 rows, and gathers 4096 rows of each cut by an index column. Each index word is first
  wrapped (a word below zero as a signed integer gets the cut's row count added), and the gather clamps the wrapped
  word, read signed, into the cut. For a word whose unsigned reading is below the cut's row count neither step does
  anything: the word is not below zero, its signed reading is its unsigned reading, and that is at most the last row.
  So result element (e, q) is S at row `word e` (first cut) or `100000 + word e` (second cut), column q, divided by 4.
-/

noncomputable section

namespace Cert.ReferenceIdeal.RefValue

open Cert.ReferenceIdeal Cert.ReferenceIdeal.Read Idealize.ShloMosaic Idealize.ShloMosaic.ValueIdx

/-- A 32-bit word whose unsigned reading is below 2^31 is not below zero as a signed integer. -/
theorem slt_zero_of_small (w : BitVec 32) (h : w.toNat < 2147483648) : IntOp.cmpi .slt w 0#32 = 0#1 := by
  have hi : ¬ (w.toInt < (0#32 : BitVec 32).toInt) := by
    rw [BitVec.toInt_eq_toNat_cond]
    simp only [BitVec.toInt_zero]
    split <;> omega
  unfold IntOp.cmpi
  simp only [BitVec.slt, decide_eq_false hi]
  rfl

/-- Such a word's signed reading is its unsigned reading. -/
theorem toInt_toNat_of_small (w : BitVec 32) (h : w.toNat < 2147483648) : w.toInt.toNat = w.toNat := by
  rw [BitVec.toInt_eq_toNat_cond]
  split <;> omega

/-- The wrap leaves such a word alone, whatever the wrapped alternative is. -/
theorem select_slt_zero_of_small (w a : BitVec 32) (h : w.toNat < 2147483648) :
    Scalar.select (IntOp.cmpi .slt w 0#32) a w = w := by
  rw [slt_zero_of_small w h]
  unfold Scalar.select
  rw [if_neg (by decide)]

/-- The first gather's index column at row e is the word of row e. -/
theorem users_word (x5 : (⟨S4096, .i32⟩ : BufTy).Contents (Elt Ideal)) (h : ∀ k : S4096.Idx, (x5 k).toNat < 100000) (e : Fin 4096) :
    val_main_v52 (F := Ideal) x5 (ix2 e (0 : Fin 1)) = x5 (ix1 e) := by
  have hi : idx_main_v52 (ix2 e (0 : Fin 1)) = ix1 e := by
    funext a; match a with | ⟨0, _⟩ => rfl
  rw [val_main_v52_apply, hi, val_main_v51_apply, val_main_v48_apply, val_main_v47_apply, val_main_c_8_apply]
  exact select_slt_zero_of_small _ _ (by have := h (ix1 e); omega)

/-- The second gather's index column at row e is the word of row e. -/
theorem pos_word (x6 : (⟨S4096, .i32⟩ : BufTy).Contents (Elt Ideal)) (h : ∀ k : S4096.Idx, (x6 k).toNat < 50000) (e : Fin 4096) :
    val_main_v59 (F := Ideal) x6 (ix2 e (0 : Fin 1)) = x6 (ix1 e) := by
  have hi : idx_main_v59 (ix2 e (0 : Fin 1)) = ix1 e := by
    funext a; match a with | ⟨0, _⟩ => rfl
  rw [val_main_v59_apply, hi, val_main_v58_apply, val_main_v55_apply, val_main_v54_apply, val_main_c_10_apply]
  exact select_slt_zero_of_small _ _ (by have := h (ix1 e); omega)

/-- The third gather's index column at row e is the word of row e. -/
theorem neg_word (x7 : (⟨S4096, .i32⟩ : BufTy).Contents (Elt Ideal)) (h : ∀ k : S4096.Idx, (x7 k).toNat < 50000) (e : Fin 4096) :
    val_main_v66 (F := Ideal) x7 (ix2 e (0 : Fin 1)) = x7 (ix1 e) := by
  have hi : idx_main_v66 (ix2 e (0 : Fin 1)) = ix1 e := by
    funext a; match a with | ⟨0, _⟩ => rfl
  rw [val_main_v66_apply, hi, val_main_v65_apply, val_main_v62_apply, val_main_v61_apply, val_main_c_12_apply]
  exact select_slt_zero_of_small _ _ (by have := h (ix1 e); omega)

/-- Element (e, q) of the first result: S at row `word e`, column q, over 4. -/
theorem users_apply (x0 : (⟨S100000x64, .f32⟩ : BufTy).Contents (Elt Ideal)) (x1 : (⟨S50000x64, .f32⟩ : BufTy).Contents (Elt Ideal)) (x2 : (⟨S3000000, .f32⟩ : BufTy).Contents (Elt Ideal)) (x3 x4 : (⟨S3000000, .i32⟩ : BufTy).Contents (Elt Ideal)) (x5 : (⟨S4096, .i32⟩ : BufTy).Contents (Elt Ideal)) (h : ∀ k : S4096.Idx, (x5 k).toNat < 100000) (e : Fin 4096) (q : Fin 64) :
    val_main_v53 (F := Ideal) x0 x1 x2 x3 x4 x5 (ix2 e q)
      = FloatOps.hostDivf (F := Ideal) (val_main_v42 (F := Ideal) x0 x1 x2 x3 x4 (ix2 ⟨(x5 (ix1 e)).toNat, by have := h (ix1 e); omega⟩ q)) (FloatOps.ofBits .f32 0x40800000#32) := by
  have hk := h (ix1 e)
  show Host.gather gather_S100000x64_S4096x1_S4096x64_1_0_n_n_0_1_164 (val_main_v45 (F := Ideal) x0 x1 x2 x3 x4) (val_main_v52 (F := Ideal) x5) (ix2 e q) = _
  rw [Cert.Gcn.gather_rows gather_S100000x64_S4096x1_S4096x64_1_0_n_n_0_1_164 rfl rfl rfl rfl rfl _ _ e q (by decide)]
  rw [val_main_v45_apply, val_main_v44_apply, val_main_v43_apply, val_main_cst_7_apply]
  refine congrArg (fun i => FloatOps.hostDivf (F := Ideal) (val_main_v42 (F := Ideal) x0 x1 x2 x3 x4 i) (FloatOps.ofBits .f32 0x40800000#32)) ?_
  funext a
  apply Fin.ext
  match a with
  | ⟨0, _⟩ =>
    show min (val_main_v52 (F := Ideal) x5 (ix2 e (0 : Fin 1))).toInt.toNat (100000 - 1) = (x5 (ix1 e)).toNat
    rw [users_word x5 h e, toInt_toNat_of_small _ (by omega)]
    omega
  | ⟨1, _⟩ => rfl

/-- Element (e, q) of the second result: S at row `100000 + word e`, column q, over 4. -/
theorem pos_apply (x0 : (⟨S100000x64, .f32⟩ : BufTy).Contents (Elt Ideal)) (x1 : (⟨S50000x64, .f32⟩ : BufTy).Contents (Elt Ideal)) (x2 : (⟨S3000000, .f32⟩ : BufTy).Contents (Elt Ideal)) (x3 x4 : (⟨S3000000, .i32⟩ : BufTy).Contents (Elt Ideal)) (x6 : (⟨S4096, .i32⟩ : BufTy).Contents (Elt Ideal)) (h : ∀ k : S4096.Idx, (x6 k).toNat < 50000) (e : Fin 4096) (q : Fin 64) :
    val_main_v60 (F := Ideal) x0 x1 x2 x3 x4 x6 (ix2 e q)
      = FloatOps.hostDivf (F := Ideal) (val_main_v42 (F := Ideal) x0 x1 x2 x3 x4 (ix2 ⟨100000 + (x6 (ix1 e)).toNat, by have := h (ix1 e); omega⟩ q)) (FloatOps.ofBits .f32 0x40800000#32) := by
  have hk := h (ix1 e)
  show Host.gather gather_S50000x64_S4096x1_S4096x64_1_0_n_n_0_1_164 (val_main_v46 (F := Ideal) x0 x1 x2 x3 x4) (val_main_v59 (F := Ideal) x6) (ix2 e q) = _
  rw [Cert.Gcn.gather_rows gather_S50000x64_S4096x1_S4096x64_1_0_n_n_0_1_164 rfl rfl rfl rfl rfl _ _ e q (by decide)]
  rw [val_main_v46_apply, val_main_v44_apply, val_main_v43_apply, val_main_cst_7_apply]
  refine congrArg (fun i => FloatOps.hostDivf (F := Ideal) (val_main_v42 (F := Ideal) x0 x1 x2 x3 x4 i) (FloatOps.ofBits .f32 0x40800000#32)) ?_
  funext a
  apply Fin.ext
  match a with
  | ⟨0, _⟩ =>
    show 100000 + min (val_main_v59 (F := Ideal) x6 (ix2 e (0 : Fin 1))).toInt.toNat (50000 - 1) = 100000 + (x6 (ix1 e)).toNat
    rw [pos_word x6 h e, toInt_toNat_of_small _ (by omega)]
    omega
  | ⟨1, _⟩ => rfl

/-- Element (e, q) of the third result: S at row `100000 + word e`, column q, over 4. -/
theorem neg_apply (x0 : (⟨S100000x64, .f32⟩ : BufTy).Contents (Elt Ideal)) (x1 : (⟨S50000x64, .f32⟩ : BufTy).Contents (Elt Ideal)) (x2 : (⟨S3000000, .f32⟩ : BufTy).Contents (Elt Ideal)) (x3 x4 : (⟨S3000000, .i32⟩ : BufTy).Contents (Elt Ideal)) (x7 : (⟨S4096, .i32⟩ : BufTy).Contents (Elt Ideal)) (h : ∀ k : S4096.Idx, (x7 k).toNat < 50000) (e : Fin 4096) (q : Fin 64) :
    val_main_v67 (F := Ideal) x0 x1 x2 x3 x4 x7 (ix2 e q)
      = FloatOps.hostDivf (F := Ideal) (val_main_v42 (F := Ideal) x0 x1 x2 x3 x4 (ix2 ⟨100000 + (x7 (ix1 e)).toNat, by have := h (ix1 e); omega⟩ q)) (FloatOps.ofBits .f32 0x40800000#32) := by
  have hk := h (ix1 e)
  show Host.gather gather_S50000x64_S4096x1_S4096x64_1_0_n_n_0_1_164 (val_main_v46 (F := Ideal) x0 x1 x2 x3 x4) (val_main_v66 (F := Ideal) x7) (ix2 e q) = _
  rw [Cert.Gcn.gather_rows gather_S50000x64_S4096x1_S4096x64_1_0_n_n_0_1_164 rfl rfl rfl rfl rfl _ _ e q (by decide)]
  rw [val_main_v46_apply, val_main_v44_apply, val_main_v43_apply, val_main_cst_7_apply]
  refine congrArg (fun i => FloatOps.hostDivf (F := Ideal) (val_main_v42 (F := Ideal) x0 x1 x2 x3 x4 i) (FloatOps.ofBits .f32 0x40800000#32)) ?_
  funext a
  apply Fin.ext
  match a with
  | ⟨0, _⟩ =>
    show 100000 + min (val_main_v66 (F := Ideal) x7 (ix2 e (0 : Fin 1))).toInt.toNat (50000 - 1) = 100000 + (x7 (ix1 e)).toNat
    rw [neg_word x7 h e, toInt_toNat_of_small _ (by omega)]
    omega
  | ⟨1, _⟩ => rfl

end Cert.ReferenceIdeal.RefValue

end
-- ==== Proof.Consts.lean ====
/- The float constants this certificate's two programs spell, as the extended reals their patterns denote,
   and the one arithmetic fact that joins them: the kernel multiplies the four-layer sum by the pattern of
   one quarter, the reference divides it by the pattern of four, and over the extended reals dividing by the
   real 4 is multiplying by 1/4, at the infinities too. -/
import Idealize.ShloMosaic.PureOps.Ideal

noncomputable section

namespace Cert.Consts

open Idealize.ShloMosaic

/-- `0.25`, the factor the kernel's mean multiplies by, denotes the real `1/4`. -/
theorem ofBits_quarter : Ideal.ofBits .f32 0x3E800000#32 = ((1 / 4 : ℝ) : EReal) := by
  simp [Ideal.ofBits, Ideal.ieee, -EReal.coe_mul]; norm_num

/-- `4.0`, the divisor of the reference's mean, denotes the real `4`. -/
theorem ofBits_four : Ideal.ofBits .f32 0x40800000#32 = ((4 : ℝ) : EReal) := by
  simp [Ideal.ofBits, Ideal.ieee, -EReal.coe_mul]; norm_num

/-- Multiplying by the pattern of one quarter is dividing by the pattern of four, for every extended real. -/
theorem mul_quarter_eq_div_four (x : EReal) :
    FloatOps.mulf (F := Ideal) (φ := .f32) x (FloatOps.ofBits .f32 0x3E800000#32)
      = FloatOps.hostDivf (F := Ideal) (φ := .f32) x (FloatOps.ofBits .f32 0x40800000#32) := by
  rw [Ideal.mulf_def, Ideal.hostDivf_def, Ideal.ofBits_def, Ideal.ofBits_def, ofBits_quarter, ofBits_four,
    Ideal.div_coe (by norm_num : (4 : ℝ) ≠ 0)]

end Cert.Consts

end
-- ==== Proof.KernelIdealValue.Results.lean ====
/-
  The bridge: the kernel program's three results are the reference program's three results.

  The kernel program's run ends with its buffers at the valuation `V9`: the launch contents pushed through the five
  host stretches, with each of the four regions' result arrays replaced by what that region's proof data computes.
  Each result is followed backwards from `V9` to the launch arguments, one rewrite per step:

  * a result buffer (`main_v45`, `main_v48`, `main_v51`) is a gather's [4096, 1, 64] array with its unit axis dropped;
  * row e of a gather's array is the row of its table that the index word at e names (the word is below the table's
    row count, by the precondition);
  * the first gather's table is rows 0 … 99999 of what the first region leaves, the other two gathers' table is its
    rows 100000 … 149999 (the item rows, which no later item writes);
  * the first region leaves, entry by entry, the sum of the four layers times one quarter, and the four layers are
    the reference's (the same operations on the same arguments);
  * the reference's result at (e, q) is its sum of the four layers at that same row and column, divided by four; and
    over the extended reals dividing by four is multiplying by one quarter.
-/
import proofs.«425184_j69441031242585_3_alg».proof.Proof.KernelIdealFrame.Setup
import proofs.«425184_j69441031242585_3_alg».proof.Proof.KernelIdealValue.Value0
import proofs.«425184_j69441031242585_3_alg».proof.Proof.KernelIdealValue.Value1
import proofs.«425184_j69441031242585_3_alg».proof.Proof.KernelIdealValue.Value2
import proofs.«425184_j69441031242585_3_alg».proof.Proof.KernelIdealValue.Value3
import proofs.«425184_j69441031242585_3_alg».proof.Proof.HostStages
import proofs.«425184_j69441031242585_3_alg».proof.Proof.RefValue
import proofs.«425184_j69441031242585_3_alg».proof.Proof.Consts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (hO : Oks m)

/-! ## The mean of the four layers -/

/-- The reference's sum of the four layers, at the arguments core `c` was launched with. -/
abbrev refSum (c : Dev nD) : S150000x64.Idx → Elt Ideal .f32 :=
  Cert.ReferenceIdeal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The embedding table the first region reads is the reference's joined table: the same operation on the same
    two arguments, before any region runs. -/
theorem layer0 (c : Dev nD) :
    (V1 m c main_v0 : S150000x64.Idx → Elt Ideal .f32)
      = Cert.ReferenceIdeal.Read.val_main_v0 (F := Ideal) (m ((c : Thread nD τ).loc main_arg0)) (m ((c : Thread nD τ).loc main_arg1)) :=
  HostStages.ego_eq (F := Ideal) (V0 m c)

/-- The first propagation stage the first region reads is the reference's first scatter. -/
theorem layer1 (c : Dev nD) :
    (V1 m c main_v13 : S150000x64.Idx → Elt Ideal .f32)
      = Cert.ReferenceIdeal.Read.val_main_v13 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  HostStages.c1_eq (F := Ideal) (V0 m c)

/-- The second propagation stage is the reference's second scatter. -/
theorem layer2 (c : Dev nD) :
    (V1 m c main_v26 : S150000x64.Idx → Elt Ideal .f32)
      = Cert.ReferenceIdeal.Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  HostStages.c2_eq (F := Ideal) (V0 m c)

/-- The third propagation stage is the reference's third scatter. -/
theorem layer3 (c : Dev nD) :
    (V1 m c main_v39 : S150000x64.Idx → Elt Ideal .f32)
      = Cert.ReferenceIdeal.Read.val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  HostStages.c3_eq (F := Ideal) (V0 m c)

/-- The reference's sum at an index: the four layers added in the order the reference adds them, which is the order
    the first region adds them in. -/
theorem refSum_apply (c : Dev nD) (i : S150000x64.Idx) :
    refSum m c i
      = FloatOps.addf (F := Ideal) (φ := .f32) (FloatOps.addf (F := Ideal) (φ := .f32) (FloatOps.addf (F := Ideal) (φ := .f32)
          (Cert.ReferenceIdeal.Read.val_main_v0 (F := Ideal) (m ((c : Thread nD τ).loc main_arg0)) (m ((c : Thread nD τ).loc main_arg1)) i)
          (Cert.ReferenceIdeal.Read.val_main_v13 (F := Ideal) (m ((c : Thread nD τ).loc main_arg0)) (m ((c : Thread nD τ).loc main_arg1))
            (m ((c : Thread nD τ).loc main_arg2)) (m ((c : Thread nD τ).loc main_arg3)) (m ((c : Thread nD τ).loc main_arg4)) i))
          (Cert.ReferenceIdeal.Read.val_main_v27 (F := Ideal) (m ((c : Thread nD τ).loc main_arg0)) (m ((c : Thread nD τ).loc main_arg1))
            (m ((c : Thread nD τ).loc main_arg2)) (m ((c : Thread nD τ).loc main_arg3)) (m ((c : Thread nD τ).loc main_arg4)) i))
          (Cert.ReferenceIdeal.Read.val_main_v41 (F := Ideal) (m ((c : Thread nD τ).loc main_arg0)) (m ((c : Thread nD τ).loc main_arg1))
            (m ((c : Thread nD τ).loc main_arg2)) (m ((c : Thread nD τ).loc main_arg3)) (m ((c : Thread nD τ).loc main_arg4)) i) := by
  rw [refSum, Cert.ReferenceIdeal.Read.val_main_v42_apply, Cert.ReferenceIdeal.Read.val_main_v28_apply,
    Cert.ReferenceIdeal.Read.val_main_v14_apply]

/-- What the first region leaves at row `r`, column `q`: the reference's sum there, divided by four. The region leaves
    the four layers' sum times one quarter; each layer is the reference's; and a quarter of an extended real is that
    extended real over four. -/
theorem o2_apply (c : Dev nD) (r : Fin 150000) (q : Fin 64) :
    (o2 m c : S150000x64.Idx → Elt Ideal .f32) (ValueIdx.ix2 r q)
      = FloatOps.hostDivf (F := Ideal) (refSum m c (ValueIdx.ix2 r q)) (FloatOps.ofBits .f32 0x40800000#32) := by
  refine (arr0_apply (F := Ideal) (atTc (V1 m)) c r q).trans ?_
  refine (Cert.Consts.mul_quarter_eq_div_four _).trans ?_
  refine congrArg (fun x => FloatOps.hostDivf (F := Ideal) (φ := .f32) x (FloatOps.ofBits .f32 0x40800000#32)) ?_
  rw [refSum_apply]
  exact congrArg₂ (FloatOps.addf (F := Ideal) (φ := .f32)) (congrArg₂ (FloatOps.addf (F := Ideal) (φ := .f32)) (congrArg₂ (FloatOps.addf (F := Ideal) (φ := .f32))
    (congrFun (layer0 m c) _) (congrFun (layer1 m c) _)) (congrFun (layer2 m c) _)) (congrFun (layer3 m c) _)

/-! ## The first result -/

/-- The first result's buffer is written by the third host stretch only. -/
theorem V9_v45 (c : Dev nD) : V9 m (outs m hO) c main_v45 = V5 m (outs m hO) c main_v45 :=
  (V9_of m _ c main_v45 (by decide)).trans <| (V8_of m _ c main_v45 (by decide)).trans <|
    (V7_of m _ c main_v45 (by decide)).trans (V6_of m _ c main_v45 (by decide))

/-- The first result is the first gather's array with its unit axis dropped. -/
theorem V5_v45_apply (c : Dev nD) (e : Fin 4096) (q : Fin 64) :
    (V5 m (outs m hO) c main_v45 : S4096x64.Idx → Elt Ideal .f32) (ValueIdx.ix2 e q)
      = (o4 m hO c : S4096x1x64.Idx → Elt Ideal .f32) (ValueIdx.ix3 e (0 : Fin 1) q) := by
  have h4 : V4 m (outs m hO) c main_v44 = o4 m hO c :=
    (Function.update_self (f := V3 m (outs m hO) c) ..).trans (outs_v44 m hO 4 c)
  exact (HostStages.out1_apply (F := Ideal) (V4 m (outs m hO) c) e q).trans (congrFun h4 _)

/-- The first gather's table: rows `0 … 99999` of what the first region leaves. -/
theorem V3_v43_apply (c : Dev nD) (r : Fin 100000) (q : Fin 64) :
    (V3 m (outsA m) c main_v43 : S100000x1x64.Idx → Elt Ideal .f32) (ValueIdx.ix3 r (0 : Fin 1) q)
      = (o2 m c : S150000x64.Idx → Elt Ideal .f32) (ValueIdx.ix2 ⟨r.val, by have := r.isLt; omega⟩ q) := by
  have h2 : V2 m (outsA m) c main_v40 = o2 m c :=
    (Function.update_self (f := V1 m c) ..).trans (outsA_v40 m 2 c)
  exact (HostStages.table1_apply (F := Ideal) (V2 m (outsA m) c) r q).trans (congrFun h2 _)

/-- Row `e` of the first gather's array is the table's row named by the index word at `e`. -/
theorem o4_apply (c : Dev nD) (e : Fin 4096) (q : Fin 64)
    (h : ((tbl1 m 0 : S4096.Idx → BitVec 32) (ValueIdx.ix1 e)).toNat < 100000) :
    (o4 m hO c : S4096x1x64.Idx → Elt Ideal .f32) (ValueIdx.ix3 e (0 : Fin 1) q)
      = (V3 m (outsA m) c main_v43 : S100000x1x64.Idx → Elt Ideal .f32)
          (ValueIdx.ix3 ⟨((tbl1 m 0 : S4096.Idx → BitVec 32) (ValueIdx.ix1 e)).toNat, h⟩ (0 : Fin 1) q) :=
  arr1_apply (F := Ideal) (a1 m hO) (atTc (V3 m (outsA m))) c e q h

/-- THE FIRST RESULT: the kernel program ends with the reference's first result in `main_v45`. -/
theorem v45_eq (h1 : ∀ k, ((tbl1 m 0 : S4096.Idx → BitVec 32) k).toNat < 100000) (c : Dev nD) :
    V9 m (outs m hO) c main_v45
      = Cert.ReferenceIdeal.Read.val_main_v53 (F := Ideal) (m (((c : Dev nD) : Thread nD τ).loc main_arg0))
          (m (((c : Dev nD) : Thread nD τ).loc main_arg1)) (m (((c : Dev nD) : Thread nD τ).loc main_arg2))
          (m (((c : Dev nD) : Thread nD τ).loc main_arg3)) (m (((c : Dev nD) : Thread nD τ).loc main_arg4))
          (m (((c : Dev nD) : Thread nD τ).loc main_arg5)) := by
  obtain rfl := dev_eq c
  refine (V9_v45 m hO 0).trans ?_
  funext i
  obtain ⟨e, q, rfl⟩ : ∃ (e : Fin 4096) (q : Fin 64), i = ValueIdx.ix2 e q := ⟨i 0, i 1, ValueIdx.eq_ix2 i⟩
  refine (V5_v45_apply m hO 0 e q).trans ?_
  refine (o4_apply m hO 0 e q (h1 _)).trans ?_
  refine (V3_v43_apply m 0 _ q).trans ?_
  refine (o2_apply m 0 _ q).trans ?_
  exact (Cert.ReferenceIdeal.RefValue.users_apply _ _ _ _ _ (m (((0 : Dev nD) : Thread nD τ).loc main_arg5)) h1 e q).symm

/-! ## The item rows, shared by the second and the third result -/

/-- The item rows: rows `100000 … 149999` of what the first region leaves. -/
theorem V3_v42_apply (c : Dev nD) (r : Fin 50000) (q : Fin 64) :
    (V3 m (outsA m) c main_v42 : S50000x64.Idx → Elt Ideal .f32) (ValueIdx.ix2 r q)
      = (o2 m c : S150000x64.Idx → Elt Ideal .f32) (ValueIdx.ix2 ⟨100000 + r.val, by have := r.isLt; omega⟩ q) := by
  have h2 : V2 m (outsA m) c main_v40 = o2 m c :=
    (Function.update_self (f := V1 m c) ..).trans (outsA_v40 m 2 c)
  exact (HostStages.items_apply (F := Ideal) (V2 m (outsA m) c) r q).trans (congrFun h2 _)

/-! ## The second result -/

/-- The second result's buffer is written by the fourth host stretch only. -/
theorem V9_v48 (c : Dev nD) : V9 m (outs m hO) c main_v48 = V7 m (outs m hO) c main_v48 :=
  (V9_of m _ c main_v48 (by decide)).trans (V8_of m _ c main_v48 (by decide))

/-- The second result is the second gather's array with its unit axis dropped. -/
theorem V7_v48_apply (c : Dev nD) (e : Fin 4096) (q : Fin 64) :
    (V7 m (outs m hO) c main_v48 : S4096x64.Idx → Elt Ideal .f32) (ValueIdx.ix2 e q)
      = (o6 m hO c : S4096x1x64.Idx → Elt Ideal .f32) (ValueIdx.ix3 e (0 : Fin 1) q) := by
  have h6 : V6 m (outs m hO) c main_v47 = o6 m hO c :=
    (Function.update_self (f := V5 m (outs m hO) c) ..).trans (outs_v47 m hO 6 c)
  exact (HostStages.out2_apply (F := Ideal) (V6 m (outs m hO) c) e q).trans (congrFun h6 _)

/-- The item rows reach the second gather unchanged: the first gather writes another buffer. -/
theorem V4B_v42 (c : Dev nD) : V4 m (outsB m hO) c main_v42 = V3 m (outsA m) c main_v42 :=
  (V4_of m _ c main_v42 (by decide)).trans (congrFun (V3_outsB m hO c) _)

/-- The second gather's table: the item rows with a unit axis inserted. -/
theorem V5_v46_apply (c : Dev nD) (r : Fin 50000) (q : Fin 64) :
    (V5 m (outsB m hO) c main_v46 : S50000x1x64.Idx → Elt Ideal .f32) (ValueIdx.ix3 r (0 : Fin 1) q)
      = (V3 m (outsA m) c main_v42 : S50000x64.Idx → Elt Ideal .f32) (ValueIdx.ix2 r q) :=
  (HostStages.table2_apply (F := Ideal) (V4 m (outsB m hO) c) r q).trans (congrFun (V4B_v42 m hO c) _)

/-- Row `e` of the second gather's array is the table's row named by the index word at `e`. -/
theorem o6_apply (c : Dev nD) (e : Fin 4096) (q : Fin 64)
    (h : ((tbl2 m 0 : S4096.Idx → BitVec 32) (ValueIdx.ix1 e)).toNat < 50000) :
    (o6 m hO c : S4096x1x64.Idx → Elt Ideal .f32) (ValueIdx.ix3 e (0 : Fin 1) q)
      = (V5 m (outsB m hO) c main_v46 : S50000x1x64.Idx → Elt Ideal .f32)
          (ValueIdx.ix3 ⟨((tbl2 m 0 : S4096.Idx → BitVec 32) (ValueIdx.ix1 e)).toNat, h⟩ (0 : Fin 1) q) :=
  arr2_apply (F := Ideal) (a2 m hO) (atTc (V5 m (outsB m hO))) c e q h

/-- THE SECOND RESULT: the kernel program ends with the reference's second result in `main_v48`. -/
theorem v48_eq (h2 : ∀ k, ((tbl2 m 0 : S4096.Idx → BitVec 32) k).toNat < 50000) (c : Dev nD) :
    V9 m (outs m hO) c main_v48
      = Cert.ReferenceIdeal.Read.val_main_v60 (F := Ideal) (m (((c : Dev nD) : Thread nD τ).loc main_arg0))
          (m (((c : Dev nD) : Thread nD τ).loc main_arg1)) (m (((c : Dev nD) : Thread nD τ).loc main_arg2))
          (m (((c : Dev nD) : Thread nD τ).loc main_arg3)) (m (((c : Dev nD) : Thread nD τ).loc main_arg4))
          (m (((c : Dev nD) : Thread nD τ).loc main_arg6)) := by
  obtain rfl := dev_eq c
  refine (V9_v48 m hO 0).trans ?_
  funext i
  obtain ⟨e, q, rfl⟩ : ∃ (e : Fin 4096) (q : Fin 64), i = ValueIdx.ix2 e q := ⟨i 0, i 1, ValueIdx.eq_ix2 i⟩
  refine (V7_v48_apply m hO 0 e q).trans ?_
  refine (o6_apply m hO 0 e q (h2 _)).trans ?_
  refine (V5_v46_apply m hO 0 _ q).trans ?_
  refine (V3_v42_apply m 0 _ q).trans ?_
  refine (o2_apply m 0 _ q).trans ?_
  exact (Cert.ReferenceIdeal.RefValue.pos_apply _ _ _ _ _ (m (((0 : Dev nD) : Thread nD τ).loc main_arg6)) h2 e q).symm

/-! ## The third result -/

/-- The third result is the third gather's array with its unit axis dropped. -/
theorem V9_v51_apply (c : Dev nD) (e : Fin 4096) (q : Fin 64) :
    (V9 m (outs m hO) c main_v51 : S4096x64.Idx → Elt Ideal .f32) (ValueIdx.ix2 e q)
      = (o8 m hO c : S4096x1x64.Idx → Elt Ideal .f32) (ValueIdx.ix3 e (0 : Fin 1) q) := by
  have h8 : V8 m (outs m hO) c main_v50 = o8 m hO c :=
    (Function.update_self (f := V7 m (outs m hO) c) ..).trans (outs_v50 m hO 8 c)
  exact (HostStages.out3_apply (F := Ideal) (V8 m (outs m hO) c) e q).trans (congrFun h8 _)

/-- The item rows reach the third gather unchanged: the first two gathers and the host stretch between them write
    other buffers. -/
theorem V6C_v42 (c : Dev nD) : V6 m (outsC m hO) c main_v42 = V3 m (outsA m) c main_v42 :=
  (V6_of m _ c main_v42 (by decide)).trans <| (V5_of m _ c main_v42 (by decide)).trans <|
    (V4_of m _ c main_v42 (by decide)).trans (congrFun (V3_outsC m hO c) _)

/-- The third gather's table: the item rows with a unit axis inserted. -/
theorem V7_v49_apply (c : Dev nD) (r : Fin 50000) (q : Fin 64) :
    (V7 m (outsC m hO) c main_v49 : S50000x1x64.Idx → Elt Ideal .f32) (ValueIdx.ix3 r (0 : Fin 1) q)
      = (V3 m (outsA m) c main_v42 : S50000x64.Idx → Elt Ideal .f32) (ValueIdx.ix2 r q) :=
  (HostStages.table3_apply (F := Ideal) (V6 m (outsC m hO) c) r q).trans (congrFun (V6C_v42 m hO c) _)

/-- Row `e` of the third gather's array is the table's row named by the index word at `e`. -/
theorem o8_apply (c : Dev nD) (e : Fin 4096) (q : Fin 64)
    (h : ((tbl3 m 0 : S4096.Idx → BitVec 32) (ValueIdx.ix1 e)).toNat < 50000) :
    (o8 m hO c : S4096x1x64.Idx → Elt Ideal .f32) (ValueIdx.ix3 e (0 : Fin 1) q)
      = (V7 m (outsC m hO) c main_v49 : S50000x1x64.Idx → Elt Ideal .f32)
          (ValueIdx.ix3 ⟨((tbl3 m 0 : S4096.Idx → BitVec 32) (ValueIdx.ix1 e)).toNat, h⟩ (0 : Fin 1) q) :=
  arr3_apply (F := Ideal) (a3 m hO) (atTc (V7 m (outsC m hO))) c e q h

/-- THE THIRD RESULT: the kernel program ends with the reference's third result in `main_v51`. -/
theorem v51_eq (h3 : ∀ k, ((tbl3 m 0 : S4096.Idx → BitVec 32) k).toNat < 50000) (c : Dev nD) :
    V9 m (outs m hO) c main_v51
      = Cert.ReferenceIdeal.Read.val_main_v67 (F := Ideal) (m (((c : Dev nD) : Thread nD τ).loc main_arg0))
          (m (((c : Dev nD) : Thread nD τ).loc main_arg1)) (m (((c : Dev nD) : Thread nD τ).loc main_arg2))
          (m (((c : Dev nD) : Thread nD τ).loc main_arg3)) (m (((c : Dev nD) : Thread nD τ).loc main_arg4))
          (m (((c : Dev nD) : Thread nD τ).loc main_arg7)) := by
  obtain rfl := dev_eq c
  funext i
  obtain ⟨e, q, rfl⟩ : ∃ (e : Fin 4096) (q : Fin 64), i = ValueIdx.ix2 e q := ⟨i 0, i 1, ValueIdx.eq_ix2 i⟩
  refine (V9_v51_apply m hO 0 e q).trans ?_
  refine (o8_apply m hO 0 e q (h3 _)).trans ?_
  refine (V7_v49_apply m hO 0 _ q).trans ?_
  refine (V3_v42_apply m 0 _ q).trans ?_
  refine (o2_apply m 0 _ q).trans ?_
  exact (Cert.ReferenceIdeal.RefValue.neg_apply _ _ _ _ _ (m (((0 : Dev nD) : Thread nD τ).loc main_arg7)) h3 e q).symm

end Cert.KernelIdeal.Hand

end
-- ==== Proof.lean ====
/-
  The certificate's claims, assembled.

  The kernel program computes, on the host, the concatenated embeddings and three rounds of sparse propagation; then in
  one pallas_call the entrywise mean (((e + c1) + c2) + c3) * (1/4) over [150000, 64]; then slices the user and item
  rows and gathers 4096 rows of each by three pallas_calls whose index tables are prefetched.  The reference computes
  the same sum, divides by 4, slices, and gathers with the host's gather.  Under the precondition — the float inputs
  finite and every index word in range of the table it indexes — the gathers read the same rows, and over the extended
  reals multiplying by the exact quarter is dividing by four; so the three results agree entry by entry.

  The frames of the two kernel programs come from their runs (every item of the program entered from the contents the
  one before it left; the index tables' words in range make every fetched block lie inside its table); the reference's
  frame is its run with the results dropped; the idealization rewrote nothing, so `preserves` has nothing to state.
-/
import proofs.«425184_j69441031242585_3_alg».proof.Defs
import proofs.«425184_j69441031242585_3_alg».proof.Proof.Gen.Kernel
import proofs.«425184_j69441031242585_3_alg».proof.Proof.Gen.KernelIdeal
import proofs.«425184_j69441031242585_3_alg».proof.Proof.Gen.ReferenceIdeal
import proofs.«425184_j69441031242585_3_alg».proof.Proof.Gen.Pre_finite_inputs
import proofs.«425184_j69441031242585_3_alg».proof.Proof.Gen.ReferenceIdeal.Run
import proofs.«425184_j69441031242585_3_alg».proof.Proof.Gen.ReferenceIdeal.Read
import proofs.«425184_j69441031242585_3_alg».proof.Proof.IdxRange
import proofs.«425184_j69441031242585_3_alg».proof.Proof.KernelFrame.OksOfLt
import proofs.«425184_j69441031242585_3_alg».proof.Proof.KernelFrame.Run
import proofs.«425184_j69441031242585_3_alg».proof.Proof.KernelIdealFrame.OksOfLt
import proofs.«425184_j69441031242585_3_alg».proof.Proof.KernelIdealFrame.Run
import proofs.«425184_j69441031242585_3_alg».proof.Proof.KernelIdealValue.Results
import Idealize.ShloMosaic.Adequacy
import Idealize.ShloMosaic.Init

noncomputable section

namespace Cert.Proof

open Idealize.ShloMosaic Idealize.ShloMosaic.TcCoe Idealize.SL.Sem

/-- The word-level kernel's index tables name rows inside their tables: the precondition decoded at its launch memory. -/
theorem oks_kernel (m : (ℓ : Loc Cert.Kernel.nD Cert.Kernel.τ Cert.Kernel.sig) → Buf (Elt Bits) ℓ) (h : Cert.Pre_Kernel m) :
    Cert.Kernel.Hand.Oks m :=
  have hl := Cert.Pre_finite_inputs.Range.idx_lt _ _ _ _ _ _ _ _ (h 0)
  Cert.Kernel.Hand.oks_of_lt m hl.1 hl.2.1 hl.2.2

/-- The same at the idealized kernel's launch memory, with the decoded ranges kept for the value bridge. -/
theorem lt_kernelIdeal (m : (ℓ : Loc Cert.KernelIdeal.nD Cert.KernelIdeal.τ Cert.KernelIdeal.sig) → Buf (Elt Ideal) ℓ) (h : Cert.Pre_KernelIdeal m) :
    (∀ k, ((Cert.KernelIdeal.Hand.tbl1 m 0 : Cert.KernelIdeal.S4096.Idx → BitVec 32) k).toNat < 100000)
      ∧ (∀ k, ((Cert.KernelIdeal.Hand.tbl2 m 0 : Cert.KernelIdeal.S4096.Idx → BitVec 32) k).toNat < 50000)
      ∧ (∀ k, ((Cert.KernelIdeal.Hand.tbl3 m 0 : Cert.KernelIdeal.S4096.Idx → BitVec 32) k).toNat < 50000) :=
  Cert.Pre_finite_inputs.Range.idx_lt _ _ _ _ _ _ _ _ (h 0)

theorem oks_kernelIdeal (m : (ℓ : Loc Cert.KernelIdeal.nD Cert.KernelIdeal.τ Cert.KernelIdeal.sig) → Buf (Elt Ideal) ℓ) (h : Cert.Pre_KernelIdeal m) :
    Cert.KernelIdeal.Hand.Oks m :=
  have hl := lt_kernelIdeal m h
  Cert.KernelIdeal.Hand.oks_of_lt m hl.1 hl.2.1 hl.2.2

theorem frame_k : Cert.frame_Kernel := fun m ρ h => Cert.Kernel.Hand.frame m (oks_kernel m h) ρ

theorem frame_ki : Cert.frame_KernelIdeal := fun m ρ h => Cert.KernelIdeal.Hand.frame m (oks_kernelIdeal m h) ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs run; the kernel's three results are the reference's stage functions of the shared arguments. -/
theorem algebraic : Cert.algebraic_KernelIdeal_ReferenceIdeal := by
  intro m ρ m' ρ' hpre hagree
  have hl := lt_kernelIdeal m hpre
  have hO := oks_kernelIdeal m hpre
  refine ⟨fun c => Cert.KernelIdeal.Gen.V9 m (Cert.KernelIdeal.Hand.outs m hO) c Cert.KernelIdeal.main_v45,
    fun c => Cert.KernelIdeal.Gen.V9 m (Cert.KernelIdeal.Hand.outs m hO) c Cert.KernelIdeal.main_v48,
    fun c => Cert.KernelIdeal.Gen.V9 m (Cert.KernelIdeal.Hand.outs m hO) c Cert.KernelIdeal.main_v51,
    Cert.KernelIdeal.Hand.run_main m hO ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v53_eq, (hagree c).1, (hagree c).2.1, (hagree c).2.2.1, (hagree c).2.2.2.1, (hagree c).2.2.2.2.1, (hagree c).2.2.2.2.2.1]
    exact (Cert.KernelIdeal.Hand.v45_eq m hO hl.1 c).symm
  · rw [Cert.ReferenceIdeal.Read.val_main_v60_eq, (hagree c).1, (hagree c).2.1, (hagree c).2.2.1, (hagree c).2.2.2.1, (hagree c).2.2.2.2.1, (hagree c).2.2.2.2.2.2.1]
    exact (Cert.KernelIdeal.Hand.v48_eq m hO hl.2.1 c).symm
  · rw [Cert.ReferenceIdeal.Read.val_main_v67_eq, (hagree c).1, (hagree c).2.1, (hagree c).2.2.1, (hagree c).2.2.2.1, (hagree c).2.2.2.2.1, (hagree c).2.2.2.2.2.2.2]
    exact (Cert.KernelIdeal.Hand.v51_eq m hO hl.2.2 c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
